-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x128 : Shape := ⟨3, ![32, 1024, 128]⟩
abbrev S32x1024x1024 : Shape := ⟨3, ![32, 1024, 1024]⟩
abbrev S1024x1024 : Shape := ⟨2, ![1024, 1024]⟩
abbrev S128x128 : Shape := ⟨2, ![128, 128]⟩
abbrev S128 : Shape := ⟨1, ![128]⟩
abbrev S_ : Shape := ⟨0, ![]⟩

class Facts : Prop where
  bcast_S_S32x1024x128 : S_.BroadcastsInDim S32x1024x128 (![] : Fin 0 → Fin S32x1024x128.rank)
  reducesTo_S32x1024x128_S_d0_1_2 : S32x1024x128.ReducesTo [0, 1, 2] S_
  h_S_ : 0 < S_.numel
  bcast_S_S32x1024x1024 : S_.BroadcastsInDim S32x1024x1024 (![] : Fin 0 → Fin S32x1024x1024.rank)
  reducesTo_S32x1024x1024_S_d0_1_2 : S32x1024x1024.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_arg5 : FVec F S128 .f32) (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S32x1024x128 .f32) (main_arg1 : FVec F S32x1024x1024 .f32) (main_arg2 : FVec F S1024x1024 .f32) (main_arg3 : FVec F S128x128 .f32) (main_arg4 : FVec F S128 .f32) (main_arg5 : FVec F S128 .f32) (main_arg6 : FVec F S128 .f32) : IVec S_ 1 :=
  let main_v0 : FVec F S32x1024x128 .f32 := Host.absf main_arg0
  let main_cst : FVec F S_ .f32 := constant S_ .f32 0x7F800000#32
  let main_v1 : FVec F S32x1024x128 .f32 := broadcastInDim S32x1024x128 ![] bcast_S_S32x1024x128 main_cst
  let main_v2 : IVec S32x1024x128 1 := cmpf .olt main_v0 main_v1
  let main_c : IVec S_ 1 := constantI S_ 1 1#1
  let main_v3 : IVec S_ 1 := (fun x v => Host.reduce IntOp.andi x v reducesTo_S32x1024x128_S_d0_1_2 h_S_) main_v2 main_c
  let main_v4 : FVec F S32x1024x1024 .f32 := Host.absf main_arg1
  let main_cst_0 : FVec F S_ .f32 := constant S_ .f32 0x7F800000#32
  let main_v5 : FVec F S32x1024x1024 .f32 := broadcastInDim S32x1024x1024 ![] bcast_S_S32x1024x1024 main_cst_0
  let main_v6 : IVec S32x1024x1024 1 := cmpf .olt main_v4 main_v5
  let main_c_1 : IVec S_ 1 := constantI S_ 1 1#1
  let main_v7 : IVec S_ 1 := (fun x v => Host.reduce IntOp.andi x v reducesTo_S32x1024x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S32x1024x128 : Shape := ⟨3, ![32, 1024, 128]⟩
abbrev S32x1024x1024 : Shape := ⟨3, ![32, 1024, 1024]⟩
abbrev S1024x1024 : Shape := ⟨2, ![1024, 1024]⟩
abbrev S128x128 : Shape := ⟨2, ![128, 128]⟩
abbrev S128 : Shape := ⟨1, ![128]⟩
abbrev S_ : Shape := ⟨0, ![]⟩
abbrev S1x1024x1024 : Shape := ⟨3, ![1, 1024, 1024]⟩
abbrev S3x1024x1024 : Shape := ⟨3, ![3, 1024, 1024]⟩
abbrev S1x128 : Shape := ⟨2, ![1, 128]⟩
abbrev S1x1024x128 : Shape := ⟨3, ![1, 1024, 128]⟩
abbrev S1024x128 : Shape := ⟨2, ![1024, 128]⟩
abbrev S1024 : Shape := ⟨1, ![1024]⟩
abbrev S1024x1 : Shape := ⟨2, ![1024, 1]⟩

abbrev nBuf : Space → Nat
  | .hbm => 29
  | .vmem => 13
  | .smem => 0
  | _ => 0

abbrev bufTy : (tb : Table) → Fin (tcTables nBuf tb) → BufTy
  | .hbm, ⟨0, _⟩ => ⟨S32x1024x128, .f32⟩
  | .hbm, ⟨1, _⟩ => ⟨S32x1024x1024, .f32⟩
  | .hbm, ⟨2, _⟩ => ⟨S1024x1024, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S_, .f32⟩
  | .hbm, ⟨8, _⟩ => ⟨S1024x1024, .f32⟩
  | .hbm, ⟨9, _⟩ => ⟨S1024x1024, .i1⟩
  | .hbm, ⟨10, _⟩ => ⟨S1024x1024, .f32⟩
  | .hbm, ⟨11, _⟩ => ⟨S1024x1024, .f32⟩
  | .hbm, ⟨12, _⟩ => ⟨S_, .f32⟩
  | .hbm, ⟨13, _⟩ => ⟨S1024x1024, .f32⟩
  | .hbm, ⟨14, _⟩ => ⟨S1024x1024, .i1⟩
  | .hbm, ⟨15, _⟩ => ⟨S1024x1024, .f32⟩
  | .hbm, ⟨16, _⟩ => ⟨S1024x1024, .f32⟩
  | .hbm, ⟨17, _⟩ => ⟨S_, .f32⟩
  | .hbm, ⟨18, _⟩ => ⟨S1024x1024, .f32⟩
  | .hbm, ⟨19, _⟩ => ⟨S1024x1024, .i1⟩
  | .hbm, ⟨20, _⟩ => ⟨S1024x1024, .f32⟩
  | .hbm, ⟨21, _⟩ => ⟨S1x1024x1024, .f32⟩
  | .hbm, ⟨22, _⟩ => ⟨S1x1024x1024, .f32⟩
  | .hbm, ⟨23, _⟩ => ⟨S1x1024x1024, .f32⟩
  | .hbm, ⟨24, _⟩ => ⟨S3x1024x1024, .f32⟩
  | .hbm, ⟨25, _⟩ => ⟨S1x128, .f32⟩
  | .hbm, ⟨26, _⟩ => ⟨S1x128, .f32⟩
  | .hbm, ⟨27, _⟩ => ⟨S1x128, .f32⟩
  | .hbm, ⟨28, _⟩ => ⟨S32x1024x128, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x128, .f32⟩
  | .local _ .vmem, ⟨3, _⟩ => ⟨S1x1024x128, .f32⟩
  | .local _ .vmem, ⟨4, _⟩ => ⟨S3x1024x1024, .f32⟩
  | .local _ .vmem, ⟨5, _⟩ => ⟨S128x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x1024x128, .f32⟩
  | .local _ .vmem, ⟨10, _⟩ => ⟨S1x1024x128, .f32⟩
  | .local _ .vmem, ⟨11, _⟩ => ⟨S1024x1024, .f32⟩
  | .local _ .vmem, ⟨12, _⟩ => ⟨S1024x128, .f32⟩
  | _, _ => ⟨S32x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S1024x1024 : S_.BroadcastsInDim S1024x1024 (![] : Fin 0 → Fin S1024x1024.rank)
  bcast_S1024x1024_S1x1024x1024_1_2 : S1024x1024.BroadcastsInDim S1x1024x1024 (![1, 2] : Fin 2 → Fin S1x1024x1024.rank)
  concatenates_S1x1024x1024_S1x1024x1024_S1x1024x1024_S3x1024x1024_d0 : Shape.Concatenates [S1x1024x1024, S1x1024x1024, S1x1024x1024] S3x1024x1024 0
  shapeCasts_S128_S1x128 : S128.ShapeCasts S1x128
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  bitsLt_bf16_f32 : FTy.bits .bf16 < FTy.bits .f32
  inb_S3x1024x1024_S1x1024x1024_0_0_0 : ∀ a, (![0, 0, 0] : Fin 3 → Nat) a + S1x1024x1024.size a ≤ S3x1024x1024.size a
  inb_S3x1024x1024_S1x1024x1024_1_0_0 : ∀ a, (![1, 0, 0] : Fin 3 → Nat) a + S1x1024x1024.size a ≤ S3x1024x1024.size a
  inb_S3x1024x1024_S1x1024x1024_2_0_0 : ∀ a, (![2, 0, 0] : Fin 3 → Nat) a + S1x1024x1024.size a ≤ S3x1024x1024.size a
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  reduces_S1024x128_S1024 : S1024x128.Reduces [1] S1024
  shapeCasts_S1024_S1024x1 : S1024.ShapeCasts S1024x1
  broadcasts_S1024x1_S1024x128 : S1024x1.Broadcasts S1024x128
  shapeCasts_S1024x128_S1x1024x128 : S1024x128.ShapeCasts S1x1024x128
  dot_S1024x1024_S1024x1024_S1024x1024_1_0_0_1_n_n_wf : DotDims.WF S1024x1024 S1024x1024 S1024x1024 [1] [0] [0] [1] [] []
  dot_S1024x1024_S1024x128_S1024x128_0_0_1_1_n_n_wf : DotDims.WF S1024x1024 S1024x128 S1024x128 [0] [0] [1] [1] [] []
  dot_S1024x128_S128x128_S1024x128_1_1_0_0_n_n_wf : DotDims.WF S1024x128 S128x128 S1024x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S32x1024x1024.size a
  hwx0_0 : ∀ i : grid0.Coords, EltTy.bits .f32 = 32 ∨ (Rect.block (s := S32x1024x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x128.size a ≤ S32x1024x128.size a
  hwx0_1 : ∀ i : grid0.Coords, EltTy.bits .f32 = 32 ∨ (Rect.block (s := S32x1024x128) S1x1024x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x1024x1024.size a ≤ S3x1024x1024.size a
  hwx0_2 : ∀ i : grid0.Coords, EltTy.bits .f32 = 32 ∨ (Rect.block (s := S3x1024x1024) S3x1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1024x128.size a ≤ S32x1024x128.size a
  hwx0_7 : ∀ i : grid0.Coords, EltTy.bits .f32 = 32 ∨ (Rect.block (s := S32x1024x128) S1x1024x128.size (cc0_transform_7 i) (hinb0_7 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x128_S1024x128_0_0_1_1_n_n : DotDims S1024x1024 S1024x128 S1024x128 where
  lhsContracting := [0]
  rhsContracting := [0]
  lhsNonContracting := [1]
  rhsNonContracting := [1]
  lhsBatch := []
  rhsBatch := []
  wf := dot_S1024x1024_S1024x128_S1024x128_0_0_1_1_n_n_wf
def dot_S1024x128_S128x128_S1024x128_1_1_0_0_n_n : DotDims S1024x128 S128x128 S1024x128 where
  lhsContracting := [1]
  rhsContracting := [1]
  lhsNonContracting := [0]
  rhsNonContracting := [0]
  lhsBatch := []
  rhsBatch := []
  wf := dot_S1024x128_S128x128_S1024x128_1_1_0_0_n_n_wf

abbrev win0_0 : Pipeline.Window sig grid0 :=
  Pipeline.Window.ofSpec (Memref.whole main_arg1) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S3x1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v18) S1x1024x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S32x1024x128 : Shape := ⟨3, ![32, 1024, 128]⟩
abbrev S32x1024x1024 : Shape := ⟨3, ![32, 1024, 1024]⟩
abbrev S1024x1024 : Shape := ⟨2, ![1024, 1024]⟩
abbrev S128x128 : Shape := ⟨2, ![128, 128]⟩
abbrev S128 : Shape := ⟨1, ![128]⟩
abbrev S_ : Shape := ⟨0, ![]⟩
abbrev S1x1024x1024 : Shape := ⟨3, ![1, 1024, 1024]⟩
abbrev S1x1x128 : Shape := ⟨3, ![1, 1, 128]⟩
abbrev S32x1024 : Shape := ⟨2, ![32, 1024]⟩
abbrev S32x1024x1 : Shape := ⟨3, ![32, 1024, 1]⟩

abbrev nBuf : Space → Nat
  | .hbm => 89
  | .vmem => 0
  | .smem => 0
  | _ => 0

abbrev bufTy : (tb : Table) → Fin (tcTables nBuf tb) → BufTy
  | .hbm, ⟨0, _⟩ => ⟨S32x1024x128, .f32⟩
  | .hbm, ⟨1, _⟩ => ⟨S32x1024x1024, .f32⟩
  | .hbm, ⟨2, _⟩ => ⟨S1024x1024, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S_, .f32⟩
  | .hbm, ⟨8, _⟩ => ⟨S32x1024x128, .f32⟩
  | .hbm, ⟨9, _⟩ => ⟨S_, .f32⟩
  | .hbm, ⟨10, _⟩ => ⟨S1024x1024, .f32⟩
  | .hbm, ⟨11, _⟩ => ⟨S1024x1024, .i1⟩
  | .hbm, ⟨12, _⟩ => ⟨S1024x1024, .f32⟩
  | .hbm, ⟨13, _⟩ => ⟨S1x1024x1024, .f32⟩
  | .hbm, ⟨14, _⟩ => ⟨S32x1024x1024, .f32⟩
  | .hbm, ⟨15, _⟩ => ⟨S32x1024x1024, .f32⟩
  | .hbm, ⟨16, _⟩ => ⟨S32x1024x128, .f32⟩
  | .hbm, ⟨17, _⟩ => ⟨S32x1024x128, .f32⟩
  | .hbm, ⟨18, _⟩ => ⟨S1024x1024, .f32⟩
  | .hbm, ⟨19, _⟩ => ⟨S32x1024x1024, .f32⟩
  | .hbm, ⟨20, _⟩ => ⟨S_, .f32⟩
  | .hbm, ⟨21, _⟩ => ⟨S1024x1024, .f32⟩
  | .hbm, ⟨22, _⟩ => ⟨S1024x1024, .i1⟩
  | .hbm, ⟨23, _⟩ => ⟨S1024x1024, .f32⟩
  | .hbm, ⟨24, _⟩ => ⟨S1x1024x1024, .f32⟩
  | .hbm, ⟨25, _⟩ => ⟨S32x1024x1024, .f32⟩
  | .hbm, ⟨26, _⟩ => ⟨S32x1024x1024, .f32⟩
  | .hbm, ⟨27, _⟩ => ⟨S32x1024x128, .f32⟩
  | .hbm, ⟨28, _⟩ => ⟨S32x1024x128, .f32⟩
  | .hbm, ⟨29, _⟩ => ⟨S1024x1024, .f32⟩
  | .hbm, ⟨30, _⟩ => ⟨S32x1024x1024, .f32⟩
  | .hbm, ⟨31, _⟩ => ⟨S_, .f32⟩
  | .hbm, ⟨32, _⟩ => ⟨S1024x1024, .f32⟩
  | .hbm, ⟨33, _⟩ => ⟨S1024x1024, .i1⟩
  | .hbm, ⟨34, _⟩ => ⟨S1024x1024, .f32⟩
  | .hbm, ⟨35, _⟩ => ⟨S1x1024x1024, .f32⟩
  | .hbm, ⟨36, _⟩ => ⟨S32x1024x1024, .f32⟩
  | .hbm, ⟨37, _⟩ => ⟨S32x1024x1024, .f32⟩
  | .hbm, ⟨38, _⟩ => ⟨S32x1024x128, .f32⟩
  | .hbm, ⟨39, _⟩ => ⟨S32x1024x128, .f32⟩
  | .hbm, ⟨40, _⟩ => ⟨S32x1024x128, .f32⟩
  | .hbm, ⟨41, _⟩ => ⟨S1x1x128, .f32⟩
  | .hbm, ⟨42, _⟩ => ⟨S32x1024x128, .f32⟩
  | .hbm, ⟨43, _⟩ => ⟨S32x1024x128, .f32⟩
  | .hbm, ⟨44, _⟩ => ⟨S32x1024x128, .f32⟩
  | .hbm, ⟨45, _⟩ => ⟨S_, .f32⟩
  | .hbm, ⟨46, _⟩ => ⟨S32x1024, .f32⟩
  | .hbm, ⟨47, _⟩ => ⟨S32x1024x1, .f32⟩
  | .hbm, ⟨48, _⟩ => ⟨S_, .f32⟩
  | .hbm, ⟨49, _⟩ => ⟨S32x1024x1, .f32⟩
  | .hbm, ⟨50, _⟩ => ⟨S32x1024x1, .f32⟩
  | .hbm, ⟨51, _⟩ => ⟨S_, .i32⟩
  | .hbm, ⟨52, _⟩ => ⟨S_, .f32⟩
  | .hbm, ⟨53, _⟩ => ⟨S32x1024, .f32⟩
  | .hbm, ⟨54, _⟩ => ⟨S32x1024x1, .f32⟩
  | .hbm, ⟨55, _⟩ => ⟨S_, .f32⟩
  | .hbm, ⟨56, _⟩ => ⟨S32x1024x1, .f32⟩
  | .hbm, ⟨57, _⟩ => ⟨S32x1024x1, .f32⟩
  | .hbm, ⟨58, _⟩ => ⟨S32x1024x128, .f32⟩
  | .hbm, ⟨59, _⟩ => ⟨S32x1024x128, .f32⟩
  | .hbm, ⟨60, _⟩ => ⟨S32x1024x128, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S32x1024, .f32⟩
  | .hbm, ⟨66, _⟩ => ⟨S32x1024x1, .f32⟩
  | .hbm, ⟨67, _⟩ => ⟨S32x1024x1, .f32⟩
  | .hbm, ⟨68, _⟩ => ⟨S32x1024x1, .f32⟩
  | .hbm, ⟨69, _⟩ => ⟨S_, .f32⟩
  | .hbm, ⟨70, _⟩ => ⟨S_, .i1⟩
  | .hbm, ⟨71, _⟩ => ⟨S_, .f32⟩
  | .hbm, ⟨72, _⟩ => ⟨S_, .f32⟩
  | .hbm, ⟨73, _⟩ => ⟨S32x1024x1, .f32⟩
  | .hbm, ⟨74, _⟩ => ⟨S32x1024x1, .f32⟩
  | .hbm, ⟨75, _⟩ => ⟨S32x1024x1, .f32⟩
  | .hbm, ⟨76, _⟩ => ⟨S32x1024x128, .f32⟩
  | .hbm, ⟨77, _⟩ => ⟨S32x1024x128, .f32⟩
  | .hbm, ⟨78, _⟩ => ⟨S1x1x128, .f32⟩
  | .hbm, ⟨79, _⟩ => ⟨S32x1024x128, .f32⟩
  | .hbm, ⟨80, _⟩ => ⟨S32x1024x128, .f32⟩
  | .hbm, ⟨81, _⟩ => ⟨S_, .f32⟩
  | .hbm, ⟨82, _⟩ => ⟨S32x1024x1, .f32⟩
  | .hbm, ⟨83, _⟩ => ⟨S32x1024x1, .f32⟩
  | .hbm, ⟨84, _⟩ => ⟨S32x1024x128, .f32⟩
  | .hbm, ⟨85, _⟩ => ⟨S32x1024x128, .f32⟩
  | .hbm, ⟨86, _⟩ => ⟨S1x1x128, .f32⟩
  | .hbm, ⟨87, _⟩ => ⟨S32x1024x128, .f32⟩
  | .hbm, ⟨88, _⟩ => ⟨S32x1024x128, .f32⟩
  | _, _ => ⟨S32x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_3 : Ref sig .tc := ⟨.hbm, 45, rfl⟩
abbrev main_v34 : Ref sig .tc := ⟨.hbm, 46, rfl⟩
abbrev main_v35 : Ref sig .tc := ⟨.hbm, 47, rfl⟩
abbrev main_cst_4 : Ref sig .tc := ⟨.hbm, 48, rfl⟩
abbrev main_v36 : Ref sig .tc := ⟨.hbm, 49, rfl⟩
abbrev main_v37 : Ref sig .tc := ⟨.hbm, 50, rfl⟩
abbrev main_c : Ref sig .tc := ⟨.hbm, 51, rfl⟩
abbrev main_call0_call0_cst : Ref sig .tc := ⟨.hbm, 52, rfl⟩
abbrev main_call0_call0_v0 : Ref sig .tc := ⟨.hbm, 53, rfl⟩
abbrev main_call0_call0_v1 : Ref sig .tc := ⟨.hbm, 54, rfl⟩
abbrev main_call0_call0_cst_0 : Ref sig .tc := ⟨.hbm, 55, rfl⟩
abbrev main_call0_call0_v2 : Ref sig .tc := ⟨.hbm, 56, rfl⟩
abbrev main_call0_call0_v3 : Ref sig .tc := ⟨.hbm, 57, rfl⟩
abbrev main_call0_call0_v4 : Ref sig .tc := ⟨.hbm, 58, rfl⟩
abbrev main_call0_call0_v5 : Ref sig .tc := ⟨.hbm, 59, rfl⟩
abbrev main_call0_call0_v6 : Ref sig .tc := ⟨.hbm, 60, rfl⟩
abbrev main_call0_call0_v7 : Ref sig .tc := ⟨.hbm, 61, rfl⟩
abbrev main_call0_call0_cst_1 : Ref sig .tc := ⟨.hbm, 62, rfl⟩
abbrev main_call0_call0_v8 : Ref sig .tc := ⟨.hbm, 63, rfl⟩
abbrev main_call0_call0_cst_2 : Ref sig .tc := ⟨.hbm, 64, rfl⟩
abbrev main_call0_call0_v9 : Ref sig .tc := ⟨.hbm, 65, rfl⟩
abbrev main_call0_call0_v10 : Ref sig .tc := ⟨.hbm, 66, rfl⟩
abbrev main_call0_call0_v11 : Ref sig .tc := ⟨.hbm, 67, rfl⟩
abbrev main_call0_call0_v12 : Ref sig .tc := ⟨.hbm, 68, rfl⟩
abbrev main_call0_call0_cst_3 : Ref sig .tc := ⟨.hbm, 69, rfl⟩
abbrev main_call0_call0_v13 : Ref sig .tc := ⟨.hbm, 70, rfl⟩
abbrev main_call0_call0_cst_4 : Ref sig .tc := ⟨.hbm, 71, rfl⟩
abbrev main_call0_call0_call0_v0 : Ref sig .tc := ⟨.hbm, 72, rfl⟩
abbrev main_call0_call0_call0_v1 : Ref sig .tc := ⟨.hbm, 73, rfl⟩
abbrev main_call0_v0 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_cst_5 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩

abbrev nD : Nat := 1
abbrev τ : Topo := Topo.v7x

variable {F : FTy → Type} [FloatOps F]

class Facts₀ : Prop where
  bcast_S_S32x1024x128 : S_.BroadcastsInDim S32x1024x128 (![] : Fin 0 → Fin S32x1024x128.rank)
  bcast_S_S1024x1024 : S_.BroadcastsInDim S1024x1024 (![] : Fin 0 → Fin S1024x1024.rank)
  bcast_S1024x1024_S1x1024x1024_1_2 : S1024x1024.BroadcastsInDim S1x1024x1024 (![1, 2] : Fin 2 → Fin S1x1024x1024.rank)
  bcast_S1x1024x1024_S32x1024x1024_0_1_2 : S1x1024x1024.BroadcastsInDim S32x1024x1024 (![0, 1, 2] : Fin 3 → Fin S32x1024x1024.rank)
  bcast_S128_S1x1x128_2 : S128.BroadcastsInDim S1x1x128 (![2] : Fin 1 → Fin S1x1x128.rank)
  bcast_S1x1x128_S32x1024x128_0_1_2 : S1x1x128.BroadcastsInDim S32x1024x128 (![0, 1, 2] : Fin 3 → Fin S32x1024x128.rank)
  reducesTo_S32x1024x128_S32x1024_d2 : S32x1024x128.ReducesTo [2] S32x1024
  h_S_ : 0 < S_.numel
  bcast_S32x1024_S32x1024x1_0_1 : S32x1024.BroadcastsInDim S32x1024x1 (![0, 1] : Fin 2 → Fin S32x1024x1.rank)
  bcast_S_S32x1024x1 : S_.BroadcastsInDim S32x1024x1 (![] : Fin 0 → Fin S32x1024x1.rank)
  bcast_S32x1024x1_S32x1024x128_0_1_2 : S32x1024x1.BroadcastsInDim S32x1024x128 (![0, 1, 2] : Fin 3 → Fin S32x1024x128.rank)
  dot_S32x1024x1024_S32x1024x128_S32x1024x128_1_1_2_2_0_0_wf : DotDims.WF S32x1024x1024 S32x1024x128 S32x1024x128 [1] [1] [2] [2] [0] [0]
  dot_S1024x1024_S1024x1024_S1024x1024_1_0_0_1_n_n_wf : DotDims.WF S1024x1024 S1024x1024 S1024x1024 [1] [0] [0] [1] [] []
  dot_S32x1024x1024_S32x1024x1024_S32x1024x1024_2_1_1_2_0_0_wf : DotDims.WF S32x1024x1024 S32x1024x1024 S32x1024x1024 [2] [1] [1] [2] [0] [0]
  dot_S32x1024x128_S128x128_S32x1024x128_2_1_01_0_n_n_wf : DotDims.WF S32x1024x128 S128x128 S32x1024x128 [2] [1] [0, 1] [0] [] []

variable [Facts₀]

def dot_S32x1024x1024_S32x1024x128_S32x1024x128_1_1_2_2_0_0 : DotDims S32x1024x1024 S32x1024x128 S32x1024x128 where
  lhsContracting := [1]
  rhsContracting := [1]
  lhsNonContracting := [2]
  rhsNonContracting := [2]
  lhsBatch := [0]
  rhsBatch := [0]
  wf := dot_S32x1024x1024_S32x1024x128_S32x1024x128_1_1_2_2_0_0_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S32x1024x1024_S32x1024x1024_S32x1024x1024_2_1_1_2_0_0 : DotDims S32x1024x1024 S32x1024x1024 S32x1024x1024 where
  lhsContracting := [2]
  rhsContracting := [1]
  lhsNonContracting := [1]
  rhsNonContracting := [2]
  lhsBatch := [0]
  rhsBatch := [0]
  wf := dot_S32x1024x1024_S32x1024x1024_S32x1024x1024_2_1_1_2_0_0_wf
def dot_S32x1024x128_S128x128_S32x1024x128_2_1_01_0_n_n : DotDims S32x1024x128 S128x128 S32x1024x128 where
  lhsContracting := [2]
  rhsContracting := [1]
  lhsNonContracting := [0, 1]
  rhsNonContracting := [0]
  lhsBatch := []
  rhsBatch := []
  wf := dot_S32x1024x128_S128x128_S32x1024x128_2_1_01_0_n_n_wf

class Facts : Prop extends Facts₀ where

variable [Facts]
-- ==== Proof.K.KBody.lean ====
/-
  The kernel body's result as one function of the blocks it is handed: the payloads of its stores composed in the
  order the body runs them. The weighted adjacency block is copied into a work buffer and squared in place twice;
  each of the three rounds adds the masked product with the features to an accumulator that starts at zero; the
  accumulator then goes through the linear layer, the residual and the row normalisation.
  Generic in the float values.
-/
import proofs.«126845_j58308476010998_1_alg».proof.Proof.Gen.Kernel.Skeleton
import Idealize.ShloMosaic.Lib.Pipeline.FrameBody

noncomputable section

namespace Cert.Kernel.KBody

open Cert.Kernel Cert.Kernel.Gen Idealize.ShloMosaic

variable {F : FTy → Type} [FloatOps F]

/-- Slab `k` of the stacked masks, as the body loads it. -/
abbrev slab0 : Rect S3x1024x1024 := Rect.unit (s := S3x1024x1024) ![0, 0, 0] S1x1024x1024.size inb_S3x1024x1024_S1x1024x1024_0_0_0
abbrev slab1 : Rect S3x1024x1024 := Rect.unit (s := S3x1024x1024) ![1, 0, 0] S1x1024x1024.size inb_S3x1024x1024_S1x1024x1024_1_0_0
abbrev slab2 : Rect S3x1024x1024 := Rect.unit (s := S3x1024x1024) ![2, 0, 0] S1x1024x1024.size inb_S3x1024x1024_S1x1024x1024_2_0_0

/-- The work matrix after the copy, and after each squaring. -/
def wp0 (x0 : Vec F S1x1024x1024 .f32) : FVec F S1024x1024 .f32 := k0_pay2 x0
def wp1 (x0 : Vec F S1x1024x1024 .f32) : FVec F S1024x1024 .f32 := k0_pay6 (wp0 x0)
def wp2 (x0 : Vec F S1x1024x1024 .f32) : FVec F S1024x1024 .f32 := k0_pay8 (wp1 x0)

/-- The accumulator after each round. -/
def acc1 (x0 : Vec F S1x1024x1024 .f32) (x1 : Vec F S1x1024x128 .f32) (m0 : Vec F S1x1024x1024 .f32) : FVec F S1024x128 .f32 :=
  k0_pay5 x1 (wp0 x0) m0 (k0_pay3 (F := F))
def acc2 (x0 : Vec F S1x1024x1024 .f32) (x1 : Vec F S1x1024x128 .f32) (m0 m1 : Vec F S1x1024x1024 .f32) : FVec F S1024x128 .f32 :=
  k0_pay7 (k0_pay4 x1) (wp1 x0) m1 (acc1 x0 x1 m0)
def acc3 (x0 : Vec F S1x1024x1024 .f32) (x1 : Vec F S1x1024x128 .f32) (m0 m1 m2 : Vec F S1x1024x1024 .f32) : FVec F S1024x128 .f32 :=
  k0_pay9 (k0_pay4 x1) (wp2 x0) m2 (acc2 x0 x1 m0 m1)

/-- The block the body stores, from the three mask slabs already loaded. -/
def bodyM (x0 : Vec F S1x1024x1024 .f32) (x1 : Vec F S1x1024x128 .f32) (m0 m1 m2 : Vec F S1x1024x1024 .f32)
    (x3 : Vec F S128x128 .f32) (x4 x5 x6 : Vec F S1x128 .f32) : FVec F S1x1024x128 .f32 :=
  k0_pay1 (k0_pay10 (acc3 x0 x1 m0 m1 m2) x3) x4 x1 x5 x6

/-- The block the body stores, from the blocks it is handed. -/
def body (x0 : Vec F S1x1024x1024 .f32) (x1 : Vec F S1x1024x128 .f32) (x2 : Vec F S3x1024x1024 .f32)
    (x3 : Vec F S128x128 .f32) (x4 x5 x6 : Vec F S1x128 .f32) : FVec F S1x1024x128 .f32 :=
  bodyM x0 x1 (View.ld x2 slab0) (View.ld x2 slab1) (View.ld x2 slab2) x3 x4 x5 x6

end Cert.Kernel.KBody

end
-- ==== Proof.K.Kit.lean ====
/-
  The kernel program up to its one pipelined region. The entry function is twenty-one host operations (the three
  masks computed from the adjacency pattern and stacked, the three vectors reshaped to rows) followed by the
  region. So the region finds every buffer at the fold of those operations over the launch contents; no host
  operation writes an argument array, so each argument is found as launched. A window's block at a grid point is
  read off its array as the region finds it, and an input window's staging buffer holds that block at every point,
  fetched there or not. Generic in the float values.
-/
import proofs.«126845_j58308476010998_1_alg».proof.Proof.Gen.Kernel.Launch
import proofs.«126845_j58308476010998_1_alg».proof.Proof.Gen.Kernel.Points
import proofs.«126845_j58308476010998_1_alg».proof.Proof.Gen.Kernel.Skeleton
import proofs.«126845_j58308476010998_1_alg».proof.Proof.K.KBody
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The entry function up to the region -/

/-- Core `c`'s buffers when the region is entered: the host operations folded over the launch contents. -/
abbrev V (c : Dev nD) (b : Ref sig .tc) : Buf (Elt F) ((c : Thread nD τ).loc b) := StableHlo.after hostOps0 (fun b => m (c, b)) b

/-- No host operation allocates: each writes a buffer the program declares. -/
theorem hostOps0_fresh : (hostOps0 : List (HloOp τ sig (Elt F))).Forall fun op => op.fresh = ∅ := by
  simp only [List.Forall]; repeat' constructor

/-- The entry function is the host operations and then the region, so the region starts at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: each writes its own result buffer only, and none of those is
    an argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))
/-- No host operation before the region writes argument 1: each writes its own result buffer only, and none of those is
    an argument. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))
/-- No host operation before the region writes argument 2: each writes its own result buffer only, and none of those is
    an argument. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))
/-- No host operation before the region writes argument 3: each writes its own result buffer only, and none of those is
    an argument. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))
/-- No host operation before the region writes argument 4: each writes its own result buffer only, and none of those is
    an argument. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))
/-- No host operation before the region writes argument 5: each writes its own result buffer only, and none of those is
    an argument. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))
/-- No host operation before the region writes argument 6: each writes its own result buffer only, and none of those is
    an argument. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, for any proof data whose array is the
    region-entry contents and whose body leaves the block in place: where the window is not fetched its block index
    has not moved since the last fetch. The seven input windows are uncut and never idle. -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

end Cert.Kernel.Hand

end
-- ==== Proof.K.Run.lean ====
/-
  The kernel body run once on whole buffers. Handed the seven input blocks at their contents and the output block
  and the two work buffers at anything, the body runs to the end with the inputs as they were, the work buffers at
  whatever it left in them, and the output block holding its one store. The body reads each work buffer and the
  output once before its first store into it; those values reach no store. Every later read of a work buffer
  follows a store of the whole buffer, so it returns that store's value whatever the buffer held before. The list
  of pieces the output block ends with is found by running the body; it is the witness. Generic in the float values.
-/
import proofs.«126845_j58308476010998_1_alg».proof.Proof.K.Kit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body leaves in the output block (last store first), with the proof that on whole buffers — the
    inputs' at contents `x0 … x6`, the output's and the two work buffers' at anything — the body runs to the
    continuation holding the inputs as they were, the output's buffer with those pieces written, and each work
    buffer at some contents. -/
noncomputable def kernelRun (c : Dev nD) (i : grid0.Coords) (arg1 : Memref sig .tc .vmem S1x1024x1024 .f32) (harg1 : arg1.IsWhole) (arg2 : Memref sig .tc .vmem S1x1024x128 .f32) (harg2 : arg2.IsWhole) (arg3 : Memref sig .tc .vmem S3x1024x1024 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1024x128 .f32) (harg8 : arg8.IsWhole) (arg9 : Memref sig .tc .vmem S1024x1024 .f32) (harg9 : arg9.IsWhole) (arg10 : Memref sig .tc .vmem S1024x128 .f32) (harg10 : arg10.IsWhole)
    (x0 : Vec F S1x1024x1024 .f32) (x1 : Vec F S1x1024x128 .f32) (x2 : Vec F S3x1024x1024 .f32) (x3 : Vec F S128x128 .f32) (x4 : Vec F S1x128 .f32) (x5 : Vec F S1x128 .f32) (x6 : Vec F S1x128 .f32) :
    { L8 : List (View.Piece (Elt F) S1x1024x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
                ∗ (∃ f, arg8.view.loc (c : Thread nD τ) ↦[arg8.view.set]{fullShare} arg8.view.writes (Elt F) f L8)
                ∗ (∃ d, owns (c : Thread nD τ) arg9 fullShare d) ∗ (∃ d, owns (c : Thread nD τ) arg10 fullShare d)) -∗ K ⟨⟩))
          ⊢ wp frame (wpE (defs₀ (F := F)) Variants.none c none) E (cc0__gnn_kernel i arg1 harg1 arg2 harg2 arg3 harg3 arg4 harg4 arg5 harg5 arg6 harg6 arg7 harg7 arg8 harg8 arg9 harg9 arg10 harg10) K } := by
  refine ⟨?_, fun E K => ?run⟩
  case run =>
    simp only [cc0__gnn_kernel_eq_skeleton]; unfold cc0__gnn_kernel_skel
    simp only [k0_part1_eq_skeleton, k0_part2_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    obtain rfl := harg7.eq_unread hf7
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; iexact H8
    isplitl [H9]
    · iexists _; iexists _; isplitr
      swap; · iexact H9
      ipureintro; rfl
    iexists _; iexists _; isplitr
    swap; · iexact H10
    ipureintro; rfl

end Cert.Kernel.Hand

end
-- ==== Proof.K.Frame.lean ====
/-
  The frame of the kernel program. The list of pieces the body's run leaves in the output block is one store of the
  whole block, so read back it is that store's value; the values the run reads from the two work buffers each follow
  a store of the whole buffer and so are that store's value; substituted, the stored block is the composition
  `KBody.body` of the seven input blocks. With that as what the body leaves in the output window, each input
  window left at its block, and the two work buffers carrying nothing from point to point, the pipeline's frame run
  gives every array of the region at what the proof data say and every other buffer as the region found it; read
  at the seven argument arrays, which no host operation writes and the region only reads, that is the launch
  contents. Generic in the float values.
-/
import proofs.«126845_j58308476010998_1_alg».proof.Proof.K.Run
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The work buffers -/

/-- The two work buffers as whole memrefs: the matrix being squared and the accumulator. -/
abbrev scM0 : Memref sig .tc .vmem S1024x1024 .f32 := Memref.whole cc0_scratch0
abbrev scM1 : Memref sig .tc .vmem S1024x128 .f32 := Memref.whole cc0_scratch1

/-- The region's invariant: each work buffer owned at some contents, and the generator register at some state. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-! ## What the run leaves in the output block -/

theorem zero2 : (![0, 0] : Fin 2 → ℕ) = fun _ => 0 := by funext a; fin_cases a <;> rfl
theorem zero3 : (![0, 0, 0] : Fin 3 → ℕ) = fun _ => 0 := by funext a; fin_cases a <;> rfl

/-- The run's pieces tile the output block, so they cover it. -/
theorem cover8 (c : Dev nD) (i : grid0.Coords) (arg1 : Memref sig .tc .vmem S1x1024x1024 .f32) (harg1 : arg1.IsWhole) (arg2 : Memref sig .tc .vmem S1x1024x128 .f32) (harg2 : arg2.IsWhole) (arg3 : Memref sig .tc .vmem S3x1024x1024 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1024x128 .f32) (harg8 : arg8.IsWhole) (arg9 : Memref sig .tc .vmem S1024x1024 .f32) (harg9 : arg9.IsWhole) (arg10 : Memref sig .tc .vmem S1024x128 .f32) (harg10 : arg10.IsWhole)
    (x0 : Vec F S1x1024x1024 .f32) (x1 : Vec F S1x1024x128 .f32) (x2 : Vec F S3x1024x1024 .f32) (x3 : Vec F S128x128 .f32) (x4 : Vec F S1x128 .f32) (x5 : Vec F S1x128 .f32) (x6 : Vec F S1x128 .f32) (y : S1x1024x128.Idx) :
    ∃ pc ∈ (kernelRun c i arg1 harg1 arg2 harg2 arg3 harg3 arg4 harg4 arg5 harg5 arg6 harg6 arg7 harg7 arg8 harg8 arg9 harg9 arg10 harg10 x0 x1 x2 x3 x4 x5 x6).1, y ∈ pc.1.set :=
  View.cover_of_tiledL (kernelRun c i arg1 harg1 arg2 harg2 arg3 harg3 arg4 harg4 arg5 harg5 arg6 harg6 arg7 harg7 arg8 harg8 arg9 harg9 arg10 harg10 x0 x1 x2 x3 x4 x5 x6).1 S1x1024x128.size (by sl_kernel_rfl) y

set_option maxHeartbeats 4000000 in
/-- Read back, the run's pieces are the composition of the payloads over the input blocks. -/
theorem canon_run_eq (c : Dev nD) (i : grid0.Coords) (arg1 : Memref sig .tc .vmem S1x1024x1024 .f32) (harg1 : arg1.IsWhole) (arg2 : Memref sig .tc .vmem S1x1024x128 .f32) (harg2 : arg2.IsWhole) (arg3 : Memref sig .tc .vmem S3x1024x1024 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1024x128 .f32) (harg8 : arg8.IsWhole) (arg9 : Memref sig .tc .vmem S1024x1024 .f32) (harg9 : arg9.IsWhole) (arg10 : Memref sig .tc .vmem S1024x128 .f32) (harg10 : arg10.IsWhole)
    (x0 : Vec F S1x1024x1024 .f32) (x1 : Vec F S1x1024x128 .f32) (x2 : Vec F S3x1024x1024 .f32) (x3 : Vec F S128x128 .f32) (x4 : Vec F S1x128 .f32) (x5 : Vec F S1x128 .f32) (x6 : Vec F S1x128 .f32) :
    View.canon (kernelRun c i arg1 harg1 arg2 harg2 arg3 harg3 arg4 harg4 arg5 harg5 arg6 harg6 arg7 harg7 arg8 harg8 arg9 harg9 arg10 harg10 x0 x1 x2 x3 x4 x5 x6).1 = KBody.body x0 x1 x2 x3 x4 x5 x6 := by
  unfold kernelRun; dsimp only; sl_unfold_words
  rw [View.canon_unit_zero zero3]
  simp only [View.readAt_eq_ld, Memref.IsWhole.read_unread, View.readCov_cons_toLoadRect,
    View.ld_unit_zero (S := S1x1024x1024) zero3, View.ld_unit_zero (S := S1x1024x128) zero3,
    View.ld_unit_zero (S := S128x128) zero2, View.ld_unit_zero (S := S1x128) zero2]
  unfold KBody.body KBody.bodyM KBody.acc3 KBody.acc2 KBody.acc1 KBody.wp2 KBody.wp1 KBody.wp0
  rfl

/-! ## The body's triple -/

/-- On whole buffers, the inputs at `x0 … x6` and the output and the work buffers at anything, the body runs to the
    continuation holding the inputs as they were, the output at `KBody.body` of them, the work buffers at something. -/
theorem sound_kernel (c : Dev nD) (i : grid0.Coords) (E : Set ℕ) (arg1 : Memref sig .tc .vmem S1x1024x1024 .f32) (harg1 : arg1.IsWhole) (arg2 : Memref sig .tc .vmem S1x1024x128 .f32) (harg2 : arg2.IsWhole) (arg3 : Memref sig .tc .vmem S3x1024x1024 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1024x128 .f32) (harg8 : arg8.IsWhole) (arg9 : Memref sig .tc .vmem S1024x1024 .f32) (harg9 : arg9.IsWhole) (arg10 : Memref sig .tc .vmem S1024x128 .f32) (harg10 : arg10.IsWhole)
    (x0 : Vec F S1x1024x1024 .f32) (x1 : Vec F S1x1024x128 .f32) (x2 : Vec F S3x1024x1024 .f32) (x3 : Vec F S128x128 .f32) (x4 : Vec F S1x128 .f32) (x5 : Vec F S1x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (KBody.body x0 x1 x2 x3 x4 x5 x6)
            ∗ (∃ d, owns (c : Thread nD τ) arg9 fullShare d) ∗ (∃ d, owns (c : Thread nD τ) arg10 fullShare d)) -∗ K ⟨⟩))
      ⊢ wp frame (wpE (defs₀ (F := F)) Variants.none c none) E (cc0__gnn_kernel i arg1 harg1 arg2 harg2 arg3 harg3 arg4 harg4 arg5 harg5 arg6 harg6 arg7 harg7 arg8 harg8 arg9 harg9 arg10 harg10) K := by
  iintro ⟨H1, H2, H3, H4, H5, H6, H7, H8, H9, H10, Hk⟩
  iapply ((kernelRun c i arg1 harg1 arg2 harg2 arg3 harg3 arg4 harg4 arg5 harg5 arg6 harg6 arg7 harg7 arg8 harg8 arg9 harg9 arg10 harg10 x0 x1 x2 x3 x4 x5 x6).2 E K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H1, H2, H3, H4, H5, H6, H7, ⟨%e8, H8⟩, H9, H10⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro
    exact (View.read_writes_eq_canon _ _ _ (cover8 c i arg1 harg1 arg2 harg2 arg3 harg3 arg4 harg4 arg5 harg5 arg6 harg6 arg7 harg7 arg8 harg8 arg9 harg9 arg10 harg10 x0 x1 x2 x3 x4 x5 x6)).trans (canon_run_eq c i arg1 harg1 arg2 harg2 arg3 harg3 arg4 harg4 arg5 harg5 arg6 harg6 arg7 harg7 arg8 harg8 arg9 harg9 arg10 harg10 x0 x1 x2 x3 x4 x5 x6)
  isplitl [H9]; · iexact H9
  iexact H10

/-! ## The pipeline's proof data -/

/-- The proof data of the one pipeline on core `c`: the arrays as the region finds them; after the body at point `t`
    each input's buffer at its block and the output's at `KBody.body` of the input blocks; the invariant the work
    buffers at anything and the generator register at some state; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => KBody.body (iblk m c 0 t) (iblk m c 1 t) (iblk m c 2 t) (iblk m c 3 t) (iblk m c 4 t) (iblk m c 5 t) (iblk m c 6 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = KBody.body (iblk m c 0 t) (iblk m c 1 t) (iblk m c 2 t) (iblk m c 3 t) (iblk m c 4 t) (iblk m c 5 t) (iblk m c 6 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 2000000 in
/-- The body at any point: the inputs' buffers hold their blocks, the invariant lends the two work buffers, so the
    body's triple applies; the generator register and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = Pipeline.ΦA spec0 c from rfl,
    show (dats m 0 c).Φ t.castSucc = Pipeline.ΦA spec0 c from rfl,
    show (dats m 0 c).owesAt () t.succ = (dats m 0 c).owesAt () t.castSucc from rfl,
    after0_0, after0_1, after0_2, after0_3, after0_4, after0_5, after0_6, after0_7, PhiA_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c (grid0.coords t) Set.univ _ _ _ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  iintro ⟨H0, H1, H2, H3, H4, H5, H6, H7, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the entry function on the TensorCores terminates, and every final state has every
    array of the pipeline at what the library computes from the proof data and every other unscoped buffer as the
    region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the run terminates with the seven argument arrays as launched. The features, the weighted adjacency
    and the weight matrix are arrays of input windows, which end at their entry contents; the adjacency pattern and
    the three vectors are staged by no window and end as the region found them; and no host operation writes any of
    the seven. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).2 main_arg2 (Pipeline.mem_restRefs_of main_arg2 (by decide) (by decide))).trans (V_main_arg2 m c),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) (run_main m ρ)

end Cert.Kernel.Hand

end
-- ==== Proof.KBody.lean ====
/-
  The kernel body's result as one function of the blocks it is handed: the payloads of its stores composed in the
  order the body runs them. The weighted adjacency block is copied into a work buffer and squared in place twice;
  each of the three rounds adds the masked product with the features to an accumulator that starts at zero; the
  accumulator then goes through the linear layer, the residual and the row normalisation.
  Generic in the float values.
-/
import proofs.«126845_j58308476010998_1_alg».proof.Proof.Gen.KernelIdeal.Skeleton
import Idealize.ShloMosaic.Lib.Pipeline.FrameBody

noncomputable section

namespace Cert.KernelIdeal.KBody

open Cert.KernelIdeal Cert.KernelIdeal.Gen Idealize.ShloMosaic

variable {F : FTy → Type} [FloatOps F]

/-- Slab `k` of the stacked masks, as the body loads it. -/
abbrev slab0 : Rect S3x1024x1024 := Rect.unit (s := S3x1024x1024) ![0, 0, 0] S1x1024x1024.size inb_S3x1024x1024_S1x1024x1024_0_0_0
abbrev slab1 : Rect S3x1024x1024 := Rect.unit (s := S3x1024x1024) ![1, 0, 0] S1x1024x1024.size inb_S3x1024x1024_S1x1024x1024_1_0_0
abbrev slab2 : Rect S3x1024x1024 := Rect.unit (s := S3x1024x1024) ![2, 0, 0] S1x1024x1024.size inb_S3x1024x1024_S1x1024x1024_2_0_0

/-- The work matrix after the copy, and after each squaring. -/
def wp0 (x0 : Vec F S1x1024x1024 .f32) : FVec F S1024x1024 .f32 := k0_pay2 x0
def wp1 (x0 : Vec F S1x1024x1024 .f32) : FVec F S1024x1024 .f32 := k0_pay6 (wp0 x0)
def wp2 (x0 : Vec F S1x1024x1024 .f32) : FVec F S1024x1024 .f32 := k0_pay8 (wp1 x0)

/-- The accumulator after each round. -/
def acc1 (x0 : Vec F S1x1024x1024 .f32) (x1 : Vec F S1x1024x128 .f32) (m0 : Vec F S1x1024x1024 .f32) : FVec F S1024x128 .f32 :=
  k0_pay5 x1 (wp0 x0) m0 (k0_pay3 (F := F))
def acc2 (x0 : Vec F S1x1024x1024 .f32) (x1 : Vec F S1x1024x128 .f32) (m0 m1 : Vec F S1x1024x1024 .f32) : FVec F S1024x128 .f32 :=
  k0_pay7 (k0_pay4 x1) (wp1 x0) m1 (acc1 x0 x1 m0)
def acc3 (x0 : Vec F S1x1024x1024 .f32) (x1 : Vec F S1x1024x128 .f32) (m0 m1 m2 : Vec F S1x1024x1024 .f32) : FVec F S1024x128 .f32 :=
  k0_pay9 (k0_pay4 x1) (wp2 x0) m2 (acc2 x0 x1 m0 m1)

/-- The block the body stores, from the three mask slabs already loaded. -/
def bodyM (x0 : Vec F S1x1024x1024 .f32) (x1 : Vec F S1x1024x128 .f32) (m0 m1 m2 : Vec F S1x1024x1024 .f32)
    (x3 : Vec F S128x128 .f32) (x4 x5 x6 : Vec F S1x128 .f32) : FVec F S1x1024x128 .f32 :=
  k0_pay1 (k0_pay10 (acc3 x0 x1 m0 m1 m2) x3) x4 x1 x5 x6

/-- The block the body stores, from the blocks it is handed. -/
def body (x0 : Vec F S1x1024x1024 .f32) (x1 : Vec F S1x1024x128 .f32) (x2 : Vec F S3x1024x1024 .f32)
    (x3 : Vec F S128x128 .f32) (x4 x5 x6 : Vec F S1x128 .f32) : FVec F S1x1024x128 .f32 :=
  bodyM x0 x1 (View.ld x2 slab0) (View.ld x2 slab1) (View.ld x2 slab2) x3 x4 x5 x6

end Cert.KernelIdeal.KBody

end
-- ==== Proof.KI.Kit.lean ====
/-
  The kernel program up to its one pipelined region. The entry function is twenty-one host operations (the three
  masks computed from the adjacency pattern and stacked, the three vectors reshaped to rows) followed by the
  region. So the region finds every buffer at the fold of those operations over the launch contents; no host
  operation writes an argument array, so each argument is found as launched. A window's block at a grid point is
  read off its array as the region finds it, and an input window's staging buffer holds that block at every point,
  fetched there or not. Generic in the float values.
-/
import proofs.«126845_j58308476010998_1_alg».proof.Proof.Gen.KernelIdeal.Launch
import proofs.«126845_j58308476010998_1_alg».proof.Proof.Gen.KernelIdeal.Points
import proofs.«126845_j58308476010998_1_alg».proof.Proof.Gen.KernelIdeal.Skeleton
import proofs.«126845_j58308476010998_1_alg».proof.Proof.KBody
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The entry function up to the region -/

/-- Core `c`'s buffers when the region is entered: the host operations folded over the launch contents. -/
abbrev V (c : Dev nD) (b : Ref sig .tc) : Buf (Elt F) ((c : Thread nD τ).loc b) := StableHlo.after hostOps0 (fun b => m (c, b)) b

/-- No host operation allocates: each writes a buffer the program declares. -/
theorem hostOps0_fresh : (hostOps0 : List (HloOp τ sig (Elt F))).Forall fun op => op.fresh = ∅ := by
  simp only [List.Forall]; repeat' constructor

/-- The entry function is the host operations and then the region, so the region starts at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: each writes its own result buffer only, and none of those is
    an argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))
/-- No host operation before the region writes argument 1: each writes its own result buffer only, and none of those is
    an argument. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))
/-- No host operation before the region writes argument 2: each writes its own result buffer only, and none of those is
    an argument. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))
/-- No host operation before the region writes argument 3: each writes its own result buffer only, and none of those is
    an argument. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))
/-- No host operation before the region writes argument 4: each writes its own result buffer only, and none of those is
    an argument. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))
/-- No host operation before the region writes argument 5: each writes its own result buffer only, and none of those is
    an argument. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))
/-- No host operation before the region writes argument 6: each writes its own result buffer only, and none of those is
    an argument. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, for any proof data whose array is the
    region-entry contents and whose body leaves the block in place: where the window is not fetched its block index
    has not moved since the last fetch. The seven input windows are uncut and never idle. -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

end Cert.KernelIdeal.Hand

end
-- ==== Proof.KI.Run.lean ====
/-
  The kernel body run once on whole buffers. Handed the seven input blocks at their contents and the output block
  and the two work buffers at anything, the body runs to the end with the inputs as they were, the work buffers at
  whatever it left in them, and the output block holding its one store. The body reads each work buffer and the
  output once before its first store into it; those values reach no store. Every later read of a work buffer
  follows a store of the whole buffer, so it returns that store's value whatever the buffer held before. The list
  of pieces the output block ends with is found by running the body; it is the witness. Generic in the float values.
-/
import proofs.«126845_j58308476010998_1_alg».proof.Proof.KI.Kit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body leaves in the output block (last store first), with the proof that on whole buffers — the
    inputs' at contents `x0 … x6`, the output's and the two work buffers' at anything — the body runs to the
    continuation holding the inputs as they were, the output's buffer with those pieces written, and each work
    buffer at some contents. -/
noncomputable def kernelRun (c : Dev nD) (i : grid0.Coords) (arg1 : Memref sig .tc .vmem S1x1024x1024 .f32) (harg1 : arg1.IsWhole) (arg2 : Memref sig .tc .vmem S1x1024x128 .f32) (harg2 : arg2.IsWhole) (arg3 : Memref sig .tc .vmem S3x1024x1024 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1024x128 .f32) (harg8 : arg8.IsWhole) (arg9 : Memref sig .tc .vmem S1024x1024 .f32) (harg9 : arg9.IsWhole) (arg10 : Memref sig .tc .vmem S1024x128 .f32) (harg10 : arg10.IsWhole)
    (x0 : Vec F S1x1024x1024 .f32) (x1 : Vec F S1x1024x128 .f32) (x2 : Vec F S3x1024x1024 .f32) (x3 : Vec F S128x128 .f32) (x4 : Vec F S1x128 .f32) (x5 : Vec F S1x128 .f32) (x6 : Vec F S1x128 .f32) :
    { L8 : List (View.Piece (Elt F) S1x1024x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
                ∗ (∃ f, arg8.view.loc (c : Thread nD τ) ↦[arg8.view.set]{fullShare} arg8.view.writes (Elt F) f L8)
                ∗ (∃ d, owns (c : Thread nD τ) arg9 fullShare d) ∗ (∃ d, owns (c : Thread nD τ) arg10 fullShare d)) -∗ K ⟨⟩))
          ⊢ wp frame (wpE (defs₀ (F := F)) Variants.none c none) E (cc0__gnn_kernel i arg1 harg1 arg2 harg2 arg3 harg3 arg4 harg4 arg5 harg5 arg6 harg6 arg7 harg7 arg8 harg8 arg9 harg9 arg10 harg10) K } := by
  refine ⟨?_, fun E K => ?run⟩
  case run =>
    simp only [cc0__gnn_kernel_eq_skeleton]; unfold cc0__gnn_kernel_skel
    simp only [k0_part1_eq_skeleton, k0_part2_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    obtain rfl := harg7.eq_unread hf7
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; iexact H8
    isplitl [H9]
    · iexists _; iexists _; isplitr
      swap; · iexact H9
      ipureintro; rfl
    iexists _; iexists _; isplitr
    swap; · iexact H10
    ipureintro; rfl

end Cert.KernelIdeal.Hand

end
-- ==== Proof.KI.Frame.lean ====
/-
  The frame of the kernel program. The list of pieces the body's run leaves in the output block is one store of the
  whole block, so read back it is that store's value; the values the run reads from the two work buffers each follow
  a store of the whole buffer and so are that store's value; substituted, the stored block is the composition
  `KBody.body` of the seven input blocks. With that as what the body leaves in the output window, each input
  window left at its block, and the two work buffers carrying nothing from point to point, the pipeline's frame run
  gives every array of the region at what the proof data say and every other buffer as the region found it; read
  at the seven argument arrays, which no host operation writes and the region only reads, that is the launch
  contents. Generic in the float values.
-/
import proofs.«126845_j58308476010998_1_alg».proof.Proof.KI.Run
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The work buffers -/

/-- The two work buffers as whole memrefs: the matrix being squared and the accumulator. -/
abbrev scM0 : Memref sig .tc .vmem S1024x1024 .f32 := Memref.whole cc0_scratch0
abbrev scM1 : Memref sig .tc .vmem S1024x128 .f32 := Memref.whole cc0_scratch1

/-- The region's invariant: each work buffer owned at some contents, and the generator register at some state. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-! ## What the run leaves in the output block -/

theorem zero2 : (![0, 0] : Fin 2 → ℕ) = fun _ => 0 := by funext a; fin_cases a <;> rfl
theorem zero3 : (![0, 0, 0] : Fin 3 → ℕ) = fun _ => 0 := by funext a; fin_cases a <;> rfl

/-- The run's pieces tile the output block, so they cover it. -/
theorem cover8 (c : Dev nD) (i : grid0.Coords) (arg1 : Memref sig .tc .vmem S1x1024x1024 .f32) (harg1 : arg1.IsWhole) (arg2 : Memref sig .tc .vmem S1x1024x128 .f32) (harg2 : arg2.IsWhole) (arg3 : Memref sig .tc .vmem S3x1024x1024 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1024x128 .f32) (harg8 : arg8.IsWhole) (arg9 : Memref sig .tc .vmem S1024x1024 .f32) (harg9 : arg9.IsWhole) (arg10 : Memref sig .tc .vmem S1024x128 .f32) (harg10 : arg10.IsWhole)
    (x0 : Vec F S1x1024x1024 .f32) (x1 : Vec F S1x1024x128 .f32) (x2 : Vec F S3x1024x1024 .f32) (x3 : Vec F S128x128 .f32) (x4 : Vec F S1x128 .f32) (x5 : Vec F S1x128 .f32) (x6 : Vec F S1x128 .f32) (y : S1x1024x128.Idx) :
    ∃ pc ∈ (kernelRun c i arg1 harg1 arg2 harg2 arg3 harg3 arg4 harg4 arg5 harg5 arg6 harg6 arg7 harg7 arg8 harg8 arg9 harg9 arg10 harg10 x0 x1 x2 x3 x4 x5 x6).1, y ∈ pc.1.set :=
  View.cover_of_tiledL (kernelRun c i arg1 harg1 arg2 harg2 arg3 harg3 arg4 harg4 arg5 harg5 arg6 harg6 arg7 harg7 arg8 harg8 arg9 harg9 arg10 harg10 x0 x1 x2 x3 x4 x5 x6).1 S1x1024x128.size (by sl_kernel_rfl) y

set_option maxHeartbeats 4000000 in
/-- Read back, the run's pieces are the composition of the payloads over the input blocks. -/
theorem canon_run_eq (c : Dev nD) (i : grid0.Coords) (arg1 : Memref sig .tc .vmem S1x1024x1024 .f32) (harg1 : arg1.IsWhole) (arg2 : Memref sig .tc .vmem S1x1024x128 .f32) (harg2 : arg2.IsWhole) (arg3 : Memref sig .tc .vmem S3x1024x1024 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1024x128 .f32) (harg8 : arg8.IsWhole) (arg9 : Memref sig .tc .vmem S1024x1024 .f32) (harg9 : arg9.IsWhole) (arg10 : Memref sig .tc .vmem S1024x128 .f32) (harg10 : arg10.IsWhole)
    (x0 : Vec F S1x1024x1024 .f32) (x1 : Vec F S1x1024x128 .f32) (x2 : Vec F S3x1024x1024 .f32) (x3 : Vec F S128x128 .f32) (x4 : Vec F S1x128 .f32) (x5 : Vec F S1x128 .f32) (x6 : Vec F S1x128 .f32) :
    View.canon (kernelRun c i arg1 harg1 arg2 harg2 arg3 harg3 arg4 harg4 arg5 harg5 arg6 harg6 arg7 harg7 arg8 harg8 arg9 harg9 arg10 harg10 x0 x1 x2 x3 x4 x5 x6).1 = KBody.body x0 x1 x2 x3 x4 x5 x6 := by
  unfold kernelRun; dsimp only; sl_unfold_words
  rw [View.canon_unit_zero zero3]
  simp only [View.readAt_eq_ld, Memref.IsWhole.read_unread, View.readCov_cons_toLoadRect,
    View.ld_unit_zero (S := S1x1024x1024) zero3, View.ld_unit_zero (S := S1x1024x128) zero3,
    View.ld_unit_zero (S := S128x128) zero2, View.ld_unit_zero (S := S1x128) zero2]
  unfold KBody.body KBody.bodyM KBody.acc3 KBody.acc2 KBody.acc1 KBody.wp2 KBody.wp1 KBody.wp0
  rfl

/-! ## The body's triple -/

/-- On whole buffers, the inputs at `x0 … x6` and the output and the work buffers at anything, the body runs to the
    continuation holding the inputs as they were, the output at `KBody.body` of them, the work buffers at something. -/
theorem sound_kernel (c : Dev nD) (i : grid0.Coords) (E : Set ℕ) (arg1 : Memref sig .tc .vmem S1x1024x1024 .f32) (harg1 : arg1.IsWhole) (arg2 : Memref sig .tc .vmem S1x1024x128 .f32) (harg2 : arg2.IsWhole) (arg3 : Memref sig .tc .vmem S3x1024x1024 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1024x128 .f32) (harg8 : arg8.IsWhole) (arg9 : Memref sig .tc .vmem S1024x1024 .f32) (harg9 : arg9.IsWhole) (arg10 : Memref sig .tc .vmem S1024x128 .f32) (harg10 : arg10.IsWhole)
    (x0 : Vec F S1x1024x1024 .f32) (x1 : Vec F S1x1024x128 .f32) (x2 : Vec F S3x1024x1024 .f32) (x3 : Vec F S128x128 .f32) (x4 : Vec F S1x128 .f32) (x5 : Vec F S1x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (KBody.body x0 x1 x2 x3 x4 x5 x6)
            ∗ (∃ d, owns (c : Thread nD τ) arg9 fullShare d) ∗ (∃ d, owns (c : Thread nD τ) arg10 fullShare d)) -∗ K ⟨⟩))
      ⊢ wp frame (wpE (defs₀ (F := F)) Variants.none c none) E (cc0__gnn_kernel i arg1 harg1 arg2 harg2 arg3 harg3 arg4 harg4 arg5 harg5 arg6 harg6 arg7 harg7 arg8 harg8 arg9 harg9 arg10 harg10) K := by
  iintro ⟨H1, H2, H3, H4, H5, H6, H7, H8, H9, H10, Hk⟩
  iapply ((kernelRun c i arg1 harg1 arg2 harg2 arg3 harg3 arg4 harg4 arg5 harg5 arg6 harg6 arg7 harg7 arg8 harg8 arg9 harg9 arg10 harg10 x0 x1 x2 x3 x4 x5 x6).2 E K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H1, H2, H3, H4, H5, H6, H7, ⟨%e8, H8⟩, H9, H10⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro
    exact (View.read_writes_eq_canon _ _ _ (cover8 c i arg1 harg1 arg2 harg2 arg3 harg3 arg4 harg4 arg5 harg5 arg6 harg6 arg7 harg7 arg8 harg8 arg9 harg9 arg10 harg10 x0 x1 x2 x3 x4 x5 x6)).trans (canon_run_eq c i arg1 harg1 arg2 harg2 arg3 harg3 arg4 harg4 arg5 harg5 arg6 harg6 arg7 harg7 arg8 harg8 arg9 harg9 arg10 harg10 x0 x1 x2 x3 x4 x5 x6)
  isplitl [H9]; · iexact H9
  iexact H10

/-! ## The pipeline's proof data -/

/-- The proof data of the one pipeline on core `c`: the arrays as the region finds them; after the body at point `t`
    each input's buffer at its block and the output's at `KBody.body` of the input blocks; the invariant the work
    buffers at anything and the generator register at some state; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => KBody.body (iblk m c 0 t) (iblk m c 1 t) (iblk m c 2 t) (iblk m c 3 t) (iblk m c 4 t) (iblk m c 5 t) (iblk m c 6 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = KBody.body (iblk m c 0 t) (iblk m c 1 t) (iblk m c 2 t) (iblk m c 3 t) (iblk m c 4 t) (iblk m c 5 t) (iblk m c 6 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 2000000 in
/-- The body at any point: the inputs' buffers hold their blocks, the invariant lends the two work buffers, so the
    body's triple applies; the generator register and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = Pipeline.ΦA spec0 c from rfl,
    show (dats m 0 c).Φ t.castSucc = Pipeline.ΦA spec0 c from rfl,
    show (dats m 0 c).owesAt () t.succ = (dats m 0 c).owesAt () t.castSucc from rfl,
    after0_0, after0_1, after0_2, after0_3, after0_4, after0_5, after0_6, after0_7, PhiA_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c (grid0.coords t) Set.univ _ _ _ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  iintro ⟨H0, H1, H2, H3, H4, H5, H6, H7, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the entry function on the TensorCores terminates, and every final state has every
    array of the pipeline at what the library computes from the proof data and every other unscoped buffer as the
    region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the run terminates with the seven argument arrays as launched. The features, the weighted adjacency
    and the weight matrix are arrays of input windows, which end at their entry contents; the adjacency pattern and
    the three vectors are staged by no window and end as the region found them; and no host operation writes any of
    the seven. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).2 main_arg2 (Pipeline.mem_restRefs_of main_arg2 (by decide) (by decide))).trans (V_main_arg2 m c),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) (run_main m ρ)

end Cert.KernelIdeal.Hand

end
-- ==== Proof.Spec.lean ====
/-
  The value both programs compute, written once as plain sums over the extended reals.

  For one batch element: `P` is the weighted adjacency (rows by columns), `M k` the 0/1 mask of hop `k`,
  `X` the node features. Hop `k` propagates `X` along the transposed masked `2^k`-th power of `P`; the three hops are
  summed, passed through a linear map with bias and a residual connection, and each row is normalised to mean zero
  and unit (unbiased) standard deviation, then scaled and shifted.
-/
import Idealize.ShloMosaic.PureOps.Ideal
import Idealize.ShloMosaic.Lib.ValueIdx

noncomputable section

open scoped BigOperators

namespace Cert.Spec

open Idealize.ShloMosaic Idealize.ShloMosaic.ValueIdx

/-- A square matrix times itself. -/
def sq (P : Fin 1024 → Fin 1024 → EReal) (i j : Fin 1024) : EReal := ∑ k : Fin 1024, P i k * P k j

/-- One hop: the features summed along the transposed masked matrix. -/
def hop (P M : Fin 1024 → Fin 1024 → EReal) (X : Fin 1024 → Fin 128 → EReal) (i : Fin 1024) (d : Fin 128) : EReal :=
  ∑ j : Fin 1024, (P j i * M j i) * X j d

/-- The three hops, over `P`, `P²`, `P⁴`, added in this order. -/
def agg (P : Fin 1024 → Fin 1024 → EReal) (M : Fin 3 → Fin 1024 → Fin 1024 → EReal) (X : Fin 1024 → Fin 128 → EReal)
    (i : Fin 1024) (d : Fin 128) : EReal :=
  (hop P (M 0) X i d + hop (sq P) (M 1) X i d) + hop (sq (sq P)) (M 2) X i d

/-- The linear layer (`W` indexed output first), its bias, and the residual. -/
def lin (P : Fin 1024 → Fin 1024 → EReal) (M : Fin 3 → Fin 1024 → Fin 1024 → EReal) (X : Fin 1024 → Fin 128 → EReal)
    (W : Fin 128 → Fin 128 → EReal) (b : Fin 128 → EReal) (n : Fin 1024) (o : Fin 128) : EReal :=
  ((∑ d : Fin 128, agg P M X n d * W o d) + b o) + X n o

/-- The float words the two programs share, kept as words. -/
def c128 : EReal := Ideal.ofBits .f32 0x43000000#32
def eps : EReal := Ideal.ofBits .f32 0x358637BD#32
def one : EReal := Ideal.ofBits .f32 0x3F800000#32

/-- The mean of a row. -/
def mean (h : Fin 1024 → Fin 128 → EReal) (n : Fin 1024) : EReal := Ideal.div (∑ o : Fin 128, h n o) c128

/-- An entry less its row's mean. -/
def dev (h : Fin 1024 → Fin 128 → EReal) (n : Fin 1024) (o : Fin 128) : EReal := h n o - mean h n

/-- The unbiased variance of a row: the squared deviations summed and divided by 127. -/
def var (h : Fin 1024 → Fin 128 → EReal) (n : Fin 1024) : EReal :=
  Ideal.div (∑ o : Fin 128, dev h n o * dev h n o) ((127 : ℝ) : EReal)

/-- The normalised row, scaled and shifted. -/
def norm (h : Fin 1024 → Fin 128 → EReal) (a2 b2 : Fin 128 → EReal) (n : Fin 1024) (o : Fin 128) : EReal :=
  Ideal.div (a2 o * dev h n o) (Ideal.sqrt (var h n) + eps) + b2 o

/-- The result for one batch element. -/
def Gblk (P : Fin 1024 → Fin 1024 → EReal) (M : Fin 3 → Fin 1024 → Fin 1024 → EReal) (X : Fin 1024 → Fin 128 → EReal)
    (W : Fin 128 → Fin 128 → EReal) (b a2 b2 : Fin 128 → EReal) (n : Fin 1024) (o : Fin 128) : EReal :=
  norm (lin P M X W b) a2 b2 n o

/-- One where the entry is the number one, zero elsewhere (the comparison's bit read as a number). -/
def isOne (a : EReal) : EReal := FloatOps.uitofp (F := Ideal) .f32 (FloatOps.cmpf (F := Ideal) (φ := .f32) .oeq a one)

/-- The three hop masks of a 0/1 adjacency `A`: where `A`, `A²`, `A⁴` equal one. -/
def masks (A : Fin 1024 → Fin 1024 → EReal) : Fin 3 → Fin 1024 → Fin 1024 → EReal
  | ⟨0, _⟩ => fun i j => isOne (A i j)
  | ⟨1, _⟩ => fun i j => isOne (sq A i j)
  | ⟨2, _⟩ => fun i j => isOne (sq (sq A) i j)

/-- The whole result as a function of the argument arrays. -/
def G (x : (⟨3, ![32, 1024, 128]⟩ : Shape).Idx → EReal) (w : (⟨3, ![32, 1024, 1024]⟩ : Shape).Idx → EReal)
    (adj : (⟨2, ![1024, 1024]⟩ : Shape).Idx → EReal) (W : (⟨2, ![128, 128]⟩ : Shape).Idx → EReal)
    (b a2 b2 : (⟨1, ![128]⟩ : Shape).Idx → EReal) (bb : Fin 32) (n : Fin 1024) (o : Fin 128) : EReal :=
  Gblk (fun i j => w (ix3 bb i j)) (masks fun i j => adj (ix2 i j)) (fun j d => x (ix3 bb j d))
    (fun o d => W (ix2 o d)) (fun o => b (ix1 o)) (fun o => a2 (ix1 o)) (fun o => b2 (ix1 o)) n o

end Cert.Spec

end
-- ==== Proof.LibDot.lean ====
/-
  Matrix products with ONE contracted axis and no batch axis, read at an entry at the ideal values, for any dimension
  numbers record whose axis lists are the stated ones (a printed record satisfies each hypothesis by `rfl`).

  With the accumulator the zero constant, the product at entry (a, b) is the sum over the contracted coordinate `c` of
  the left operand's entry times the right operand's entry; which coordinate of each operand `c` runs over is what the
  three forms below differ in: rows by columns (`_10`), the left operand transposed against a right operand contracted
  on its last axis (`_01`), and both operands contracted on their first axis (`_00`).
  Also: a non-contracting axis of either operand reads the output index, and the bf16 zero pattern is the real zero.
-/
import Idealize.ShloMosaic.Lib.ValueIdx
import Idealize.ShloMosaic.PureOps.Ideal.Laws

noncomputable section

open scoped BigOperators

namespace Cert.LibDot

open Idealize.ShloMosaic Idealize.ShloMosaic.ValueIdx

/-- The bf16 pattern of all zero bits is the number zero. -/
theorem ofBits_zero_bf16 : Ideal.ofBits .bf16 0x0000#16 = 0 := by simp [Ideal.ofBits, Ideal.ieee]

section Axes
variable {sl sr so : Shape} (d : DotDims sl sr so)

/-- With no batch axis and one non-contracting axis on the left, that axis of the left operand reads the output's
    first coordinate. -/
theorem lhsIdx_val_non {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one non-contracting axis on each side, the right operand's non-contracting axis reads the
    output's second coordinate. -/
theorem rhsIdx_val_non {nl : Fin sl.rank} {nr : Fin sr.rank} (hlb : d.lhsBatch = []) (hrb : d.rhsBatch = [])
    (hln : d.lhsNonContracting = [nl]) (hn : d.rhsNonContracting = [nr]) (j : so.Idx)
    (k : d.contr.Idx) (h1 : 1 < so.rank) : (d.rhsIdx j k nr).val = (j ⟨1, h1⟩).val := by
  have hnb : nr ∉ d.rhsBatch := by rw [hrb]; exact List.not_mem_nil
  have hmem : nr ∈ d.rhsNonContracting := by rw [hn]; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

end Axes

/-- Rows by columns: an `M × K` by a `K × N` operand, the left contracted on its last axis and the right on its
    first. -/
theorem matmul_10_zero_apply {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 a c) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l0 := lhsIdx_val_non d hlb hln (ix2 a b) ((contrEquiv1 d K hr hs).symm c) Nat.zero_lt_two
  have l1 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 a c := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

/-- A `K × M` left operand contracted on its first axis against an `N × K` right operand contracted on its last. -/
theorem matmul_01_zero_apply {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (prec : Option ContractPrecision) (A : FVec Ideal ⟨2, ![K, M]⟩ φ₁) (B : FVec Ideal ⟨2, ![N, K]⟩ φ₂)
    (a : Fin M) (b : Fin N) :
    matmul (F := Ideal) d prec A B (constant ⟨2, ![M, N]⟩ .f32 0x00000000#32) (ix2 a b)
      = ∑ c : Fin K, A (ix2 c a) * B (ix2 b c) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r1 := (d.rhsIdx_val_of_single hrc (ix2 a b) ((contrEquiv1 d K hr hs).symm c)).trans c2
  have r0 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 b c := by
    funext ax; apply Fin.ext
    match ax with
    | ⟨0, _⟩ => exact r0
    | ⟨1, _⟩ => exact r1
  rw [l2, r2]

/-- Both operands contracted on their first axis: a `K × M` by a `K × N` operand. -/
theorem matmul_00_zero_apply {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (A : FVec Ideal ⟨2, ![K, M]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 c a) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

end Cert.LibDot

end
-- ==== Proof.LibDot11.lean ====
/-
  The matrix product with both operands contracted on their LAST axis and no batch axis, read at an entry at the
  ideal values, for any dimension numbers record whose axis lists are the stated ones (a printed record satisfies each
  hypothesis by `rfl`).

  With the accumulator the zero constant, an `M × K` left operand against an `N × K` right operand gives at entry
  (a, b) the sum over the shared last coordinate `c` of the left operand's entry (a, c) times the right operand's
  entry (b, c): the left operand times the transpose of the right one.
-/
import Idealize.ShloMosaic.Lib.ValueIdx
import Idealize.ShloMosaic.PureOps.Ideal.Laws
import proofs.«126845_j58308476010998_1_alg».proof.Proof.LibDot

noncomputable section

open scoped BigOperators

namespace Cert.LibDot

open Idealize.ShloMosaic Idealize.ShloMosaic.ValueIdx

/-- Both operands contracted on their last axis: an `M × K` by an `N × K` operand. Each operand's first axis is
    its non-contracting one, so the left operand reads the output's row and the right operand the output's column,
    and both read the contracted coordinate on their second axis. -/
theorem matmul_11_zero_apply {M K N : Nat} {φ₁ φ₂ : FTy} (d : DotDims ⟨2, ![M, K]⟩ ⟨2, ![N, K]⟩ ⟨2, ![M, N]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![M, K]⟩ φ₁) (B : FVec Ideal ⟨2, ![N, K]⟩ φ₂)
    (a : Fin M) (b : Fin N) :
    matmul (F := Ideal) d prec A B (constant ⟨2, ![M, N]⟩ .f32 0x00000000#32) (ix2 a b)
      = ∑ c : Fin K, A (ix2 a c) * B (ix2 b c) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l0 := lhsIdx_val_non d hlb hln (ix2 a b) ((contrEquiv1 d K hr hs).symm c) Nat.zero_lt_two
  have l1 := (d.lhsIdx_val_of_single hlc (ix2 a b) ((contrEquiv1 d K hr hs).symm c)).trans c2
  have r0 := rhsIdx_val_non d hlb hrb hln hrn (ix2 a b) ((contrEquiv1 d K hr hs).symm c) Nat.one_lt_two
  have r1 := (d.rhsIdx_val_of_single hrc (ix2 a b) ((contrEquiv1 d K hr hs).symm c)).trans c2
  have l2 : d.lhsIdx (ix2 a b) ((contrEquiv1 d K hr hs).symm c) = ix2 a c := by
    funext ax; apply Fin.ext
    match ax with
    | ⟨0, _⟩ => exact l0
    | ⟨1, _⟩ => exact l1
  have r2 : d.rhsIdx (ix2 a b) ((contrEquiv1 d K hr hs).symm c) = ix2 b c := by
    funext ax; apply Fin.ext
    match ax with
    | ⟨0, _⟩ => exact r0
    | ⟨1, _⟩ => exact r1
  rw [l2, r2]

end Cert.LibDot

end
-- ==== Proof.Consts.lean ====
/-
  The float words the two programs spell, as the extended reals their patterns denote at the ideal values, and the
  one constant comparison the reference's variance guards on: 128 − 1 = 127 > 0.
-/
import Idealize.ShloMosaic.PureOps.Ideal

noncomputable section

namespace Cert.Consts

open Idealize.ShloMosaic

/-- The all-zero word denotes `0`. -/
theorem zero_f32 : Ideal.ofBits .f32 0x00000000#32 = 0 := by
  simp [Ideal.ofBits, Ideal.ieee]

/-- The word of `127.0` denotes the real `127`. -/
theorem c127 : Ideal.ofBits .f32 0x42FE0000#32 = ((127 : ℝ) : EReal) := by
  simp [Ideal.ofBits, Ideal.ieee, -EReal.coe_mul]; norm_num

/-- The word of `128.0` denotes the real `128`. -/
theorem c128 : Ideal.ofBits .f32 0x43000000#32 = ((128 : ℝ) : EReal) := by
  simp [Ideal.ofBits, Ideal.ieee, -EReal.coe_mul]; norm_num

/-- The row length `128.0` less the integer one read as a float is the real `127`. -/
theorem dof_eq : (Ideal.ofBits .f32 0x43000000#32 : EReal) - (FloatOps.sitofp (F := Ideal) .f32 (1#32) : Ideal .f32)
    = ((127 : ℝ) : EReal) := by
  rw [c128]
  show ((128 : ℝ) : EReal) - (((1#32 : BitVec 32).toInt : ℝ) : EReal) = ((127 : ℝ) : EReal)
  have h : (1#32 : BitVec 32).toInt = 1 := by decide
  rw [h, ← EReal.coe_sub]
  norm_num

/-- `127` is greater than the zero word's value: the comparison's bit is set. -/
theorem dof_pos : FloatOps.cmpf (F := Ideal) (φ := .f32) .ogt ((127 : ℝ) : EReal) (Ideal.ofBits .f32 0x00000000#32) = 1#1 := by
  rw [zero_f32]
  show Ideal.cmp .ogt ((127 : ℝ) : EReal) 0 = 1#1
  have h : (0 : EReal) < ((127 : ℝ) : EReal) := by
    rw [← EReal.coe_zero, EReal.coe_lt_coe_iff]; norm_num
  simp [Ideal.cmp, h]

end Cert.Consts

end
-- ==== Proof.KPayMat.lean ====
/-
  The kernel body's matrix payloads read at an entry at the ideal values.

  Casts that only add or drop a leading unit axis read the same entry; the truncation to the narrower float format
  is the identity at the ideal values; a matrix product into the zero accumulator is a finite sum over the contracted
  coordinate. So: the copied work matrix is the adjacency block; a squaring is `∑ j, P i j * P j k`; a round adds
  to the accumulator the features summed along the transposed masked work matrix,
  `∑ j, (P j i * M j i) * X j d`; and the linear layer contracts the accumulator with the weight's last axis,
  `∑ d, A n d * W o d`. A slab of the stacked masks read through its rectangle is that slab of the stack.
-/
import proofs.«126845_j58308476010998_1_alg».proof.Proof.KBody
import proofs.«126845_j58308476010998_1_alg».proof.Proof.Spec
import proofs.«126845_j58308476010998_1_alg».proof.Proof.LibDot
import proofs.«126845_j58308476010998_1_alg».proof.Proof.LibDot11
import proofs.«126845_j58308476010998_1_alg».proof.Proof.Consts
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.KPay

open Cert.KernelIdeal Cert.KernelIdeal.Gen Idealize.ShloMosaic Idealize.ShloMosaic.ValueIdx

/-! ## The stacked masks read through a slab's rectangle -/

/-- Slab `0` of the stack, read at `(0, i, j)`, is the stack at `(0, i, j)`. -/
theorem ld_slab0_apply (x2 : Vec Ideal S3x1024x1024 .f32) (i j : Fin 1024) :
    View.ld x2 KBody.slab0 (ix3 0 i j) = x2 (ix3 0 i j) := by
  refine congrArg x2 (funext fun a => Fin.ext ?_)
  match a with
  | ⟨0, _⟩ => rfl
  | ⟨1, _⟩ => show 0 + 1 * i.val = i.val; omega
  | ⟨2, _⟩ => show 0 + 1 * j.val = j.val; omega

/-- Slab `1` of the stack, read at `(0, i, j)`, is the stack at `(1, i, j)`. -/
theorem ld_slab1_apply (x2 : Vec Ideal S3x1024x1024 .f32) (i j : Fin 1024) :
    View.ld x2 KBody.slab1 (ix3 0 i j) = x2 (ix3 1 i j) := by
  refine congrArg x2 (funext fun a => Fin.ext ?_)
  match a with
  | ⟨0, _⟩ => rfl
  | ⟨1, _⟩ => show 0 + 1 * i.val = i.val; omega
  | ⟨2, _⟩ => show 0 + 1 * j.val = j.val; omega

/-- Slab `2` of the stack, read at `(0, i, j)`, is the stack at `(2, i, j)`. -/
theorem ld_slab2_apply (x2 : Vec Ideal S3x1024x1024 .f32) (i j : Fin 1024) :
    View.ld x2 KBody.slab2 (ix3 0 i j) = x2 (ix3 2 i j) := by
  refine congrArg x2 (funext fun a => Fin.ext ?_)
  match a with
  | ⟨0, _⟩ => rfl
  | ⟨1, _⟩ => show 0 + 1 * i.val = i.val; omega
  | ⟨2, _⟩ => show 0 + 1 * j.val = j.val; omega

/-! ## The copy, the zero start and the features -/

/-- The work matrix after the copy is the adjacency block with its unit axis dropped. -/
theorem pay2_apply (v0 : Vec Ideal S1x1024x1024 .f32) (i j : Fin 1024) :
    k0_pay2 v0 (ix2 i j) = v0 (ix3 0 i j) :=
  (congrFun (shapeCast_self (shapeCast S1024x1024 v0 shapeCasts_S1x1024x1024_S1024x1024)
      shapeCasts_S1024x1024_S1024x1024) (ix2 i j)).trans
    (shapeCast_1ab_ab_apply v0 shapeCasts_S1x1024x1024_S1024x1024 i j)

/-- The accumulator starts at zero. -/
theorem pay3_apply (n : Fin 1024) (d : Fin 128) : k0_pay3 (F := Ideal) (ix2 n d) = 0 :=
  (congrFun (shapeCast_self (broadcast S1024x128 (Scalar.ofBits (F := Ideal) .f32 0x00000000#32))
      shapeCasts_S1024x128_S1024x128) (ix2 n d)).trans Cert.Consts.zero_f32

/-- The features in the narrower format are, at the ideal values, the feature block with its unit axis dropped. -/
theorem pay4_apply (v9 : Vec Ideal S1x1024x128 .f32) (j : Fin 1024) (d : Fin 128) :
    k0_pay4 v9 (ix2 j d) = v9 (ix3 0 j d) :=
  shapeCast_1ab_ab_apply v9 shapeCasts_S1x1024x128_S1024x128 j d

/-! ## The squarings -/

/-- The first squaring: the work matrix times itself. -/
theorem pay6_apply (v12 : Vec Ideal S1024x1024 .f32) (i k : Fin 1024) :
    k0_pay6 v12 (ix2 i k) = ∑ j : Fin 1024, v12 (ix2 i j) * v12 (ix2 j k) :=
  (congrFun (shapeCast_self
      (matmul (F := Ideal) dot_S1024x1024_S1024x1024_S1024x1024_1_0_0_1_n_n none (truncf .bf16 v12 bitsLt_bf16_f32)
        (truncf .bf16 v12 bitsLt_bf16_f32) (constant S1024x1024 .f32 0x00000000#32))
      shapeCasts_S1024x1024_S1024x1024) (ix2 i k)).trans
    (Cert.LibDot.matmul_10_zero_apply (M := 1024) (K := 1024) (N := 1024)
      dot_S1024x1024_S1024x1024_S1024x1024_1_0_0_1_n_n rfl rfl rfl rfl rfl rfl none
      (truncf .bf16 v12 bitsLt_bf16_f32) (truncf .bf16 v12 bitsLt_bf16_f32) i k)

/-- The second squaring, the same product. -/
theorem pay8_apply (v28 : Vec Ideal S1024x1024 .f32) (i k : Fin 1024) :
    k0_pay8 v28 (ix2 i k) = ∑ j : Fin 1024, v28 (ix2 i j) * v28 (ix2 j k) :=
  (congrFun (shapeCast_self
      (matmul (F := Ideal) dot_S1024x1024_S1024x1024_S1024x1024_1_0_0_1_n_n none (truncf .bf16 v28 bitsLt_bf16_f32)
        (truncf .bf16 v28 bitsLt_bf16_f32) (constant S1024x1024 .f32 0x00000000#32))
      shapeCasts_S1024x1024_S1024x1024) (ix2 i k)).trans
    (Cert.LibDot.matmul_10_zero_apply (M := 1024) (K := 1024) (N := 1024)
      dot_S1024x1024_S1024x1024_S1024x1024_1_0_0_1_n_n rfl rfl rfl rfl rfl rfl none
      (truncf .bf16 v28 bitsLt_bf16_f32) (truncf .bf16 v28 bitsLt_bf16_f32) i k)

/-! ## The rounds -/

/-- The masked work matrix against a feature matrix, both contracted on their first axis, read at an entry: the
    mask slab loses its unit axis under the sum. -/
theorem hop_apply (P : Vec Ideal S1024x1024 .f32) (Mk : Vec Ideal S1x1024x1024 .f32) (X : FVec Ideal S1024x128 .bf16)
    (i : Fin 1024) (d : Fin 128) :
    matmul (F := Ideal) dot_S1024x1024_S1024x128_S1024x128_0_0_1_1_n_n none
        (truncf .bf16 (mulf P (shapeCast S1024x1024 Mk shapeCasts_S1x1024x1024_S1024x1024)) bitsLt_bf16_f32) X
        (constant S1024x128 .f32 0x00000000#32) (ix2 i d)
      = ∑ j : Fin 1024, (P (ix2 j i) * Mk (ix3 0 j i)) * X (ix2 j d) :=
  (Cert.LibDot.matmul_00_zero_apply (M := 1024) (K := 1024) (N := 128)
      dot_S1024x1024_S1024x128_S1024x128_0_0_1_1_n_n rfl rfl rfl rfl rfl rfl none
      (truncf .bf16 (mulf P (shapeCast S1024x1024 Mk shapeCasts_S1x1024x1024_S1024x1024)) bitsLt_bf16_f32) X i d).trans
    (Finset.sum_congr rfl fun j _ =>
      congrArg (fun t : EReal => (P (ix2 j i) * t) * X (ix2 j d))
        (shapeCast_1ab_ab_apply Mk shapeCasts_S1x1024x1024_S1024x1024 j i))

/-- The first round: the accumulator plus the first hop. -/
theorem pay5_apply (v9 : Vec Ideal S1x1024x128 .f32) (v12 : Vec Ideal S1024x1024 .f32)
    (v13 : Vec Ideal S1x1024x1024 .f32) (v18 : Vec Ideal S1024x128 .f32) (i : Fin 1024) (d : Fin 128) :
    k0_pay5 v9 v12 v13 v18 (ix2 i d)
      = v18 (ix2 i d) + ∑ j : Fin 1024, (v12 (ix2 j i) * v13 (ix3 0 j i)) * v9 (ix3 0 j d) :=
  (congrFun (shapeCast_self
      (addf v18 (matmul (F := Ideal) dot_S1024x1024_S1024x128_S1024x128_0_0_1_1_n_n none
        (truncf .bf16 (mulf v12 (shapeCast S1024x1024 v13 shapeCasts_S1x1024x1024_S1024x1024)) bitsLt_bf16_f32)
        (k0_pay4 v9) (constant S1024x128 .f32 0x00000000#32)))
      shapeCasts_S1024x128_S1024x128) (ix2 i d)).trans
    (congrArg (fun t : EReal => v18 (ix2 i d) + t)
      ((hop_apply v12 v13 (k0_pay4 v9) i d).trans
        (Finset.sum_congr rfl fun j _ =>
          congrArg (fun t : EReal => (v12 (ix2 j i) * v13 (ix3 0 j i)) * t) (pay4_apply v9 j d))))

/-- The second round: the accumulator plus the hop over the work matrix as it then stands. -/
theorem pay7_apply (v11 : FVec Ideal S1024x128 .bf16) (v28 : Vec Ideal S1024x1024 .f32)
    (v29 : Vec Ideal S1x1024x1024 .f32) (v34 : Vec Ideal S1024x128 .f32) (i : Fin 1024) (d : Fin 128) :
    k0_pay7 v11 v28 v29 v34 (ix2 i d)
      = v34 (ix2 i d) + ∑ j : Fin 1024, (v28 (ix2 j i) * v29 (ix3 0 j i)) * v11 (ix2 j d) :=
  (congrFun (shapeCast_self
      (addf v34 (matmul (F := Ideal) dot_S1024x1024_S1024x128_S1024x128_0_0_1_1_n_n none
        (truncf .bf16 (mulf v28 (shapeCast S1024x1024 v29 shapeCasts_S1x1024x1024_S1024x1024)) bitsLt_bf16_f32)
        v11 (constant S1024x128 .f32 0x00000000#32)))
      shapeCasts_S1024x128_S1024x128) (ix2 i d)).trans
    (congrArg (fun t : EReal => v34 (ix2 i d) + t) (hop_apply v28 v29 v11 i d))

/-- The third round, the same sum. -/
theorem pay9_apply (v11 : FVec Ideal S1024x128 .bf16) (v44 : Vec Ideal S1024x1024 .f32)
    (v45 : Vec Ideal S1x1024x1024 .f32) (v50 : Vec Ideal S1024x128 .f32) (i : Fin 1024) (d : Fin 128) :
    k0_pay9 v11 v44 v45 v50 (ix2 i d)
      = v50 (ix2 i d) + ∑ j : Fin 1024, (v44 (ix2 j i) * v45 (ix3 0 j i)) * v11 (ix2 j d) :=
  (congrFun (shapeCast_self
      (addf v50 (matmul (F := Ideal) dot_S1024x1024_S1024x128_S1024x128_0_0_1_1_n_n none
        (truncf .bf16 (mulf v44 (shapeCast S1024x1024 v45 shapeCasts_S1x1024x1024_S1024x1024)) bitsLt_bf16_f32)
        v11 (constant S1024x128 .f32 0x00000000#32)))
      shapeCasts_S1024x128_S1024x128) (ix2 i d)).trans
    (congrArg (fun t : EReal => v50 (ix2 i d) + t) (hop_apply v44 v45 v11 i d))

/-! ## The linear layer -/

/-- The accumulator contracted with the weight matrix, each on its last axis. -/
theorem pay10_apply (v55 : Vec Ideal S1024x128 .f32) (v57 : Vec Ideal S128x128 .f32) (n : Fin 1024) (o : Fin 128) :
    k0_pay10 v55 v57 (ix2 n o) = ∑ d : Fin 128, v55 (ix2 n d) * v57 (ix2 o d) :=
  Cert.LibDot.matmul_11_zero_apply (M := 1024) (K := 128) (N := 128)
    dot_S1024x128_S128x128_S1024x128_1_1_0_0_n_n rfl rfl rfl rfl rfl rfl none
    (truncf .bf16 v55 bitsLt_bf16_f32) (truncf .bf16 v57 bitsLt_bf16_f32) n o

end Cert.KernelIdeal.KPay

end
-- ==== Proof.KPayNorm.lean ====
/-
  The kernel body's last payload, the row normalisation, read at an entry at the ideal values.

  With `h` the linear layer's result plus the bias row plus the residual, each row of `h` is summed and divided by
  the row length (the mean), the mean is taken off every entry (the deviation), the squared deviations are summed and
  divided by one less than the row length (the unbiased variance), and the entry stored at `(n, o)` is
  `a2 o * dev / (sqrt var + eps) + b2 o`. A sum over the last axis from the zero accumulator is the finite sum of
  the row's entries; the casts between a vector, a column and a block with a leading unit axis read the same entry; a
  column or a row broadcast over the block reads the column's or row's own entry.
-/
import proofs.«126845_j58308476010998_1_alg».proof.Proof.KBody
import proofs.«126845_j58308476010998_1_alg».proof.Proof.Spec
import proofs.«126845_j58308476010998_1_alg».proof.Proof.LibDot
import proofs.«126845_j58308476010998_1_alg».proof.Proof.LibDot11
import proofs.«126845_j58308476010998_1_alg».proof.Proof.Consts
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.KPay

open Cert.KernelIdeal Cert.KernelIdeal.Gen Idealize.ShloMosaic Idealize.ShloMosaic.ValueIdx

/-! ## Column forms of a cast and a broadcast -/

section Layout
variable {α : Type}

/-- An `[a]` array cast to the column `[a, 1]` reads, at `(i, u)`, the operand at `i`, whatever the unit
    coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## A row's sum -/

/-- The index over row `n` whose coordinate on the summed axis is `o` is `(n, o)`. -/
theorem lift_row (n : Fin 1024) (o : Fin 128) : reduces_S1024x128_S1024.lift (ix1 n) o = ix2 n o := by
  funext c; apply Fin.ext
  match c with
  | ⟨0, _⟩ => rfl
  | ⟨1, _⟩ => rfl

/-- The sum over the last axis from the zero accumulator, read at row `n`, is the sum of the row's entries. -/
theorem rowsum_apply (v : FVec Ideal S1024x128 .f32) (n : Fin 1024) :
    multiReduction (F := Ideal) .add [1] S1024 v 0x00000000#32 reduces_S1024x128_S1024 (.inl rfl) rfl (ix1 n)
      = ∑ o : Fin 128, v (ix2 n o) :=
  (Ideal.multiReduction_add_single v 0x00000000#32 reduces_S1024x128_S1024 (.inl rfl) rfl (ix1 n)).trans
    (Finset.sum_congr rfl fun o _ => congrArg v (lift_row n o))

/-! ## Mean, deviation, variance -/

/-- The column of row means: the row sums divided by the row length. -/
def rowMean (v : FVec Ideal S1024x128 .f32) : FVec Ideal S1024x1 .f32 :=
  divf (shapeCast S1024x1
      (multiReduction (F := Ideal) .add [1] S1024 v 0x00000000#32 reduces_S1024x128_S1024 (.inl rfl) rfl)
      shapeCasts_S1024_S1024x1)
    (broadcast S1024x1 (Scalar.ofBits (F := Ideal) .f32 0x43000000#32))

theorem rowMean_apply (v : FVec Ideal S1024x128 .f32) (n : Fin 1024) :
    rowMean v (ix2 n 0) = Cert.Spec.mean (fun n o => v (ix2 n o)) n :=
  congrArg (fun t : EReal => Ideal.div t Cert.Spec.c128)
    ((shapeCast_a_a1_apply _ shapeCasts_S1024_S1024x1 n 0).trans (rowsum_apply v n))

/-- The entries less their row's mean. -/
def centred (v : FVec Ideal S1024x128 .f32) : FVec Ideal S1024x128 .f32 :=
  subf v (broadcastTo S1024x128 (rowMean v) broadcasts_S1024x1_S1024x128)

theorem centred_apply (v : FVec Ideal S1024x128 .f32) (n : Fin 1024) (o : Fin 128) :
    centred v (ix2 n o) = Cert.Spec.dev (fun n o => v (ix2 n o)) n o :=
  congrArg (fun t : EReal => v (ix2 n o) - t)
    ((broadcastTo_a1_ab_apply (rowMean v) broadcasts_S1024x1_S1024x128 n o).trans (rowMean_apply v n))

/-- The column of row variances: the squared deviations summed and divided by one less than the row length. -/
def rowVar (v : FVec Ideal S1024x128 .f32) : FVec Ideal S1024x1 .f32 :=
  divf (shapeCast S1024x1
      (multiReduction (F := Ideal) .add [1] S1024 (mulf (centred v) (centred v)) 0x00000000#32
        reduces_S1024x128_S1024 (.inl rfl) rfl)
      shapeCasts_S1024_S1024x1)
    (broadcast S1024x1 (Scalar.ofBits (F := Ideal) .f32 0x42FE0000#32))

theorem rowVar_apply (v : FVec Ideal S1024x128 .f32) (n : Fin 1024) :
    rowVar v (ix2 n 0) = Cert.Spec.var (fun n o => v (ix2 n o)) n := by
  show Ideal.div _ (Ideal.ofBits .f32 0x42FE0000#32) = Ideal.div _ ((127 : ℝ) : EReal)
  rw [Cert.Consts.c127]
  refine congrArg (fun t : EReal => Ideal.div t ((127 : ℝ) : EReal)) ?_
  refine (shapeCast_a_a1_apply _ shapeCasts_S1024_S1024x1 n 0).trans
    ((rowsum_apply (mulf (centred v) (centred v)) n).trans (Finset.sum_congr rfl fun o _ => ?_))
  show centred v (ix2 n o) * centred v (ix2 n o) = _
  rw [centred_apply]

/-! ## The normalised block -/

/-- The linear layer's result with the bias row and the residual added. -/
def hsum (v59 : FVec Ideal S1024x128 .f32) (v60 : Vec Ideal S1x128 .f32) (v64 : Vec Ideal S1x1024x128 .f32) :
    FVec Ideal S1024x128 .f32 :=
  addf (addf v59 (broadcastTo S1024x128 (shapeCast S1x128 v60 shapeCasts_S1x128_S1x128) broadcasts_S1x128_S1024x128))
    (shapeCast S1024x128 v64 shapeCasts_S1x1024x128_S1024x128)

theorem row_apply (w : Vec Ideal S1x128 .f32) (n : Fin 1024) (o : Fin 128) :
    broadcastTo S1024x128 (shapeCast S1x128 w shapeCasts_S1x128_S1x128) broadcasts_S1x128_S1024x128 (ix2 n o)
      = w (ix2 0 o) :=
  (broadcastTo_1b_ab_apply _ broadcasts_S1x128_S1024x128 n o).trans
    (congrFun (shapeCast_self w shapeCasts_S1x128_S1x128) (ix2 0 o))

theorem hsum_apply (v59 : FVec Ideal S1024x128 .f32) (v60 : Vec Ideal S1x128 .f32) (v64 : Vec Ideal S1x1024x128 .f32)
    (n : Fin 1024) (o : Fin 128) :
    hsum v59 v60 v64 (ix2 n o) = (v59 (ix2 n o) + v60 (ix2 0 o)) + v64 (ix3 0 n o) := by
  show (v59 (ix2 n o) + _) + _ = _
  rw [row_apply, shapeCast_1ab_ab_apply]

/-- The rows of `v` normalised, scaled by the row `v79` and shifted by the row `v87`, with a unit axis put in
    front. -/
def normTail (v : FVec Ideal S1024x128 .f32) (v79 v87 : Vec Ideal S1x128 .f32) : FVec Ideal S1x1024x128 .f32 :=
  shapeCast S1x1024x128
    (addf
      (divf
        (mulf (broadcastTo S1024x128 (shapeCast S1x128 v79 shapeCasts_S1x128_S1x128) broadcasts_S1x128_S1024x128)
          (centred v))
        (broadcastTo S1024x128
          (addf (sqrt (rowVar v)) (broadcast S1024x1 (Scalar.ofBits (F := Ideal) .f32 0x358637BD#32)))
          broadcasts_S1024x1_S1024x128))
      (broadcastTo S1024x128 (shapeCast S1x128 v87 shapeCasts_S1x128_S1x128) broadcasts_S1x128_S1024x128))
    shapeCasts_S1024x128_S1x1024x128

theorem normTail_apply (v : FVec Ideal S1024x128 .f32) (v79 v87 : Vec Ideal S1x128 .f32) (n : Fin 1024) (o : Fin 128) :
    normTail v v79 v87 (ix3 0 n o)
      = Cert.Spec.norm (fun n o => v (ix2 n o)) (fun o => v79 (ix2 0 o)) (fun o => v87 (ix2 0 o)) n o := by
  refine (shapeCast_ab_1ab_apply _ shapeCasts_S1024x128_S1x1024x128 0 n o).trans ?_
  show Ideal.div (_ * centred v (ix2 n o)) _ + _ = _
  rw [row_apply, row_apply, centred_apply, broadcastTo_a1_ab_apply]
  show Ideal.div _ (Ideal.sqrt (rowVar v (ix2 n 0)) + Cert.Spec.eps) + _ = _
  rw [rowVar_apply]
  rfl

/-- The stored block is the normalised linear layer. -/
theorem pay1_apply (v59 : FVec Ideal S1024x128 .f32) (v60 : Vec Ideal S1x128 .f32) (v64 : Vec Ideal S1x1024x128 .f32)
    (v79 v87 : Vec Ideal S1x128 .f32) (n : Fin 1024) (o : Fin 128) :
    k0_pay1 v59 v60 v64 v79 v87 (ix3 0 n o)
      = Cert.Spec.norm (fun n o => (v59 (ix2 n o) + v60 (ix2 0 o)) + v64 (ix3 0 n o)) (fun o => v79 (ix2 0 o))
          (fun o => v87 (ix2 0 o)) n o := by
  have e : (fun (n : Fin 1024) (o : Fin 128) => hsum v59 v60 v64 (ix2 n o))
      = fun n o => (v59 (ix2 n o) + v60 (ix2 0 o)) + v64 (ix3 0 n o) :=
    funext fun n => funext fun o => hsum_apply v59 v60 v64 n o
  rw [← e]
  exact normTail_apply (hsum v59 v60 v64) v79 v87 n o

end Cert.KernelIdeal.KPay

end
-- ==== Proof.KPay.lean ====
/-
  The kernel body's stored block read at an entry at the ideal values: the payloads composed.

  With `P` the adjacency block, `M k` slab `k` of the stacked masks and `X` the feature block, the work matrix
  is `P`, then `P` squared, then that squared again; the accumulator starts at zero and each round adds one hop,
  so after three rounds it is the three hops added in order; the linear layer, the bias, the residual and the row
  normalisation then give the specification's block entry by entry.
-/
import proofs.«126845_j58308476010998_1_alg».proof.Proof.KBody
import proofs.«126845_j58308476010998_1_alg».proof.Proof.Spec
import proofs.«126845_j58308476010998_1_alg».proof.Proof.LibDot
import proofs.«126845_j58308476010998_1_alg».proof.Proof.LibDot11
import proofs.«126845_j58308476010998_1_alg».proof.Proof.Consts
import proofs.«126845_j58308476010998_1_alg».proof.Proof.KPayMat
import proofs.«126845_j58308476010998_1_alg».proof.Proof.KPayNorm
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.KPay

open Cert.KernelIdeal Cert.KernelIdeal.Gen Idealize.ShloMosaic Idealize.ShloMosaic.ValueIdx

/-! ## The work matrix -/

/-- After the copy the work matrix is the adjacency block. -/
theorem wp0_apply (x0 : Vec Ideal S1x1024x1024 .f32) (i j : Fin 1024) :
    KBody.wp0 x0 (ix2 i j) = x0 (ix3 0 i j) :=
  pay2_apply x0 i j

/-- After one squaring it is the adjacency block squared. -/
theorem wp1_apply (x0 : Vec Ideal S1x1024x1024 .f32) (i j : Fin 1024) :
    KBody.wp1 x0 (ix2 i j) = Cert.Spec.sq (fun i j => x0 (ix3 0 i j)) i j :=
  (pay6_apply (KBody.wp0 x0) i j).trans
    (Finset.sum_congr rfl fun k _ => by rw [wp0_apply, wp0_apply])

/-- After two squarings it is the square of the square. -/
theorem wp2_apply (x0 : Vec Ideal S1x1024x1024 .f32) (i j : Fin 1024) :
    KBody.wp2 x0 (ix2 i j) = Cert.Spec.sq (Cert.Spec.sq fun i j => x0 (ix3 0 i j)) i j :=
  (pay8_apply (KBody.wp1 x0) i j).trans
    (Finset.sum_congr rfl fun k _ => by rw [wp1_apply, wp1_apply])

/-! ## The accumulator -/

section Acc
variable (x0 : Vec Ideal S1x1024x1024 .f32) (x1 : Vec Ideal S1x1024x128 .f32)
  (m0 m1 m2 : Vec Ideal S1x1024x1024 .f32) (M0 M1 M2 : Fin 1024 → Fin 1024 → EReal)

/-- After the first round: the first hop (the zero start adds nothing). -/
theorem acc1_apply (h0 : ∀ i j, m0 (ix3 0 i j) = M0 i j) (i : Fin 1024) (d : Fin 128) :
    KBody.acc1 x0 x1 m0 (ix2 i d)
      = Cert.Spec.hop (fun i j => x0 (ix3 0 i j)) M0 (fun j d => x1 (ix3 0 j d)) i d := by
  refine (pay5_apply x1 (KBody.wp0 x0) m0 (k0_pay3 (F := Ideal)) i d).trans ?_
  rw [pay3_apply, zero_add]
  exact Finset.sum_congr rfl fun j _ => by rw [wp0_apply, h0]

/-- After the second round: the first two hops. -/
theorem acc2_apply (h0 : ∀ i j, m0 (ix3 0 i j) = M0 i j) (h1 : ∀ i j, m1 (ix3 0 i j) = M1 i j)
    (i : Fin 1024) (d : Fin 128) :
    KBody.acc2 x0 x1 m0 m1 (ix2 i d)
      = Cert.Spec.hop (fun i j => x0 (ix3 0 i j)) M0 (fun j d => x1 (ix3 0 j d)) i d
        + Cert.Spec.hop (Cert.Spec.sq fun i j => x0 (ix3 0 i j)) M1 (fun j d => x1 (ix3 0 j d)) i d := by
  refine (pay7_apply (k0_pay4 x1) (KBody.wp1 x0) m1 (KBody.acc1 x0 x1 m0) i d).trans ?_
  rw [acc1_apply x0 x1 m0 M0 h0]
  refine congrArg
    (fun t : EReal => Cert.Spec.hop (fun i j => x0 (ix3 0 i j)) M0 (fun j d => x1 (ix3 0 j d)) i d + t) ?_
  exact Finset.sum_congr rfl fun j _ => by rw [wp1_apply, h1, pay4_apply]

/-- After the third round: the three hops, added in order. -/
theorem acc3_apply (h0 : ∀ i j, m0 (ix3 0 i j) = M0 i j) (h1 : ∀ i j, m1 (ix3 0 i j) = M1 i j)
    (h2 : ∀ i j, m2 (ix3 0 i j) = M2 i j) (i : Fin 1024) (d : Fin 128) :
    KBody.acc3 x0 x1 m0 m1 m2 (ix2 i d)
      = (Cert.Spec.hop (fun i j => x0 (ix3 0 i j)) M0 (fun j d => x1 (ix3 0 j d)) i d
          + Cert.Spec.hop (Cert.Spec.sq fun i j => x0 (ix3 0 i j)) M1 (fun j d => x1 (ix3 0 j d)) i d)
        + Cert.Spec.hop (Cert.Spec.sq (Cert.Spec.sq fun i j => x0 (ix3 0 i j))) M2 (fun j d => x1 (ix3 0 j d)) i d := by
  refine (pay9_apply (k0_pay4 x1) (KBody.wp2 x0) m2 (KBody.acc2 x0 x1 m0 m1) i d).trans ?_
  rw [acc2_apply x0 x1 m0 m1 M0 M1 h0 h1]
  refine congrArg
    (fun t : EReal =>
      (Cert.Spec.hop (fun i j => x0 (ix3 0 i j)) M0 (fun j d => x1 (ix3 0 j d)) i d
        + Cert.Spec.hop (Cert.Spec.sq fun i j => x0 (ix3 0 i j)) M1 (fun j d => x1 (ix3 0 j d)) i d) + t) ?_
  exact Finset.sum_congr rfl fun j _ => by rw [wp2_apply, h2, pay4_apply]

end Acc

/-! ## The stored block -/

/-- The linear layer over the accumulator, with the bias and the residual, is the specification's. -/
theorem lin_apply (x0 : Vec Ideal S1x1024x1024 .f32) (x1 : Vec Ideal S1x1024x128 .f32) (x2 : Vec Ideal S3x1024x1024 .f32)
    (x3 : Vec Ideal S128x128 .f32) (x4 : Vec Ideal S1x128 .f32) (n : Fin 1024) (o : Fin 128) :
    (k0_pay10 (KBody.acc3 x0 x1 (View.ld x2 KBody.slab0) (View.ld x2 KBody.slab1) (View.ld x2 KBody.slab2)) x3 (ix2 n o)
        + x4 (ix2 0 o)) + x1 (ix3 0 n o)
      = Cert.Spec.lin (fun i j => x0 (ix3 0 i j)) (fun k i j => x2 (ix3 k i j)) (fun j d => x1 (ix3 0 j d))
          (fun o d => x3 (ix2 o d)) (fun o => x4 (ix2 0 o)) n o := by
  refine congrArg (fun t : EReal => (t + x4 (ix2 0 o)) + x1 (ix3 0 n o)) ?_
  refine (pay10_apply _ x3 n o).trans (Finset.sum_congr rfl fun d _ => ?_)
  refine congrArg (fun t : EReal => t * x3 (ix2 o d)) ?_
  exact acc3_apply x0 x1 (View.ld x2 KBody.slab0) (View.ld x2 KBody.slab1) (View.ld x2 KBody.slab2)
    (fun i j => x2 (ix3 0 i j)) (fun i j => x2 (ix3 1 i j)) (fun i j => x2 (ix3 2 i j))
    (ld_slab0_apply x2) (ld_slab1_apply x2) (ld_slab2_apply x2) n d

/-- The block the body stores, read at `(0, n, o)`, is the specification's block at `(n, o)`. -/
theorem body_apply (x0 : Vec Ideal S1x1024x1024 .f32) (x1 : Vec Ideal S1x1024x128 .f32) (x2 : Vec Ideal S3x1024x1024 .f32)
    (x3 : Vec Ideal S128x128 .f32) (x4 x5 x6 : Vec Ideal S1x128 .f32) (n : Fin 1024) (o : Fin 128) :
    KBody.body (F := Ideal) x0 x1 x2 x3 x4 x5 x6 (ValueIdx.ix3 0 n o)
      = Cert.Spec.Gblk (fun i j => x0 (ValueIdx.ix3 0 i j)) (fun k i j => x2 (ValueIdx.ix3 k i j))
          (fun j d => x1 (ValueIdx.ix3 0 j d)) (fun o d => x3 (ValueIdx.ix2 o d)) (fun o => x4 (ValueIdx.ix2 0 o))
          (fun o => x5 (ValueIdx.ix2 0 o)) (fun o => x6 (ValueIdx.ix2 0 o)) n o :=
  (pay1_apply
      (k0_pay10 (KBody.acc3 x0 x1 (View.ld x2 KBody.slab0) (View.ld x2 KBody.slab1) (View.ld x2 KBody.slab2)) x3)
      x4 x1 x5 x6 n o).trans
    (congrArg (fun h : Fin 1024 → Fin 128 → EReal =>
        Cert.Spec.norm h (fun o => x5 (ix2 0 o)) (fun o => x6 (ix2 0 o)) n o)
      (funext fun n => funext fun o => lin_apply x0 x1 x2 x3 x4 n o))

end Cert.KernelIdeal.KPay

end
-- ==== Proof.KHost.lean ====
/-
  What the host operations before the pipelined region leave in the arrays the region's windows read, at the ideal
  values: the stacked hop masks — where the adjacency, its square and its fourth power equal one — and the three
  vectors reshaped to rows.
-/
import proofs.«126845_j58308476010998_1_alg».proof.Proof.Gen.KernelIdeal.Launch
import proofs.«126845_j58308476010998_1_alg».proof.Proof.Spec
import proofs.«126845_j58308476010998_1_alg».proof.Proof.LibDot
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.KHost

open Idealize.ShloMosaic Idealize.ShloMosaic.ValueIdx Idealize.ShloMosaic.TcCoe
open Cert.KernelIdeal.Gen

/-! ## The operations at an entry -/

/-- The host's product of an `M × K` by a `K × N` operand, the left contracted on its last axis and the right on its
    first, at entry (a, b): the sum over the contracted coordinate. -/
theorem dot_10_apply {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂)
    (a : Fin M) (b : Fin N) :
    Host.dotGeneral (F := Ideal) d prec A B (ix2 a b) = ∑ c : Fin K, A (ix2 a c) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.dotGeneral d prec .single A B (ix2 a b) = _
  rw [Ideal.dotGeneral_apply, ← Equiv.sum_comp (contrEquiv1 d K hr hs).symm]
  refine Finset.sum_congr rfl fun c _ => ?_
  have c2 := contrEquiv1_symm_val d K hr hs c
  have l0 := Cert.LibDot.lhsIdx_val_non d hlb hln (ix2 a b) ((contrEquiv1 d K hr hs).symm c) Nat.zero_lt_two
  have l1 := (d.lhsIdx_val_of_single hlc (ix2 a b) ((contrEquiv1 d K hr hs).symm c)).trans c2
  have r0 := (d.rhsIdx_val_of_single hrc (ix2 a b) ((contrEquiv1 d K hr hs).symm c)).trans c2
  have r1 := Cert.LibDot.rhsIdx_val_non d hlb hrb hln hrn (ix2 a b) ((contrEquiv1 d K hr hs).symm c) Nat.one_lt_two
  have l2 : d.lhsIdx (ix2 a b) ((contrEquiv1 d K hr hs).symm c) = ix2 a c := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

/-- The matrix every entry of which is the number one. -/
abbrev ones : FVec Ideal S1024x1024 .f32 :=
  broadcastInDim S1024x1024 ![] bcast_S_S1024x1024 (constant (F := Ideal) S_ .f32 0x3F800000#32)

/-- Where a matrix equals one, as a 0/1 matrix. -/
abbrev mask (A : FVec Ideal S1024x1024 .f32) : FVec Ideal S1024x1024 .f32 := uitofp .f32 (cmpf .oeq A ones)

/-- A matrix as a stack of one matrix. -/
abbrev lift (X : FVec Ideal S1024x1024 .f32) : FVec Ideal S1x1024x1024 .f32 :=
  broadcastInDim S1x1024x1024 ![1, 2] bcast_S1024x1024_S1x1024x1024_1_2 X

/-- A matrix times itself, on the host. -/
abbrev square (A : FVec Ideal S1024x1024 .f32) : FVec Ideal S1024x1024 .f32 :=
  Host.dotGeneral (F := Ideal) dot_S1024x1024_S1024x1024_S1024x1024_1_0_0_1_n_n none A A

/-- Three one-matrix stacks stacked. -/
abbrev stack (x0 x1 x2 : FVec Ideal S1x1024x1024 .f32) : FVec Ideal S3x1024x1024 .f32 :=
  concatenate S3x1024x1024 0 [⟨S1x1024x1024, x0⟩, ⟨S1x1024x1024, x1⟩, ⟨S1x1024x1024, x2⟩]
    concatenates_S1x1024x1024_S1x1024x1024_S1x1024x1024_S3x1024x1024_d0

theorem square_apply (A : FVec Ideal S1024x1024 .f32) (i j : Fin 1024) :
    square A (ix2 i j) = Cert.Spec.sq (fun i j => A (ix2 i j)) i j :=
  dot_10_apply _ rfl rfl rfl rfl rfl rfl none A A i j

theorem mask_apply (A : FVec Ideal S1024x1024 .f32) (i j : Fin 1024) :
    mask A (ix2 i j) = Cert.Spec.isOne (A (ix2 i j)) := by
  show FloatOps.uitofp .f32 (FloatOps.cmpf .oeq (A (ix2 i j)) (ones (ix2 i j))) = _
  rw [show ones (ix2 i j) = constant (F := Ideal) S_ .f32 0x3F800000#32 ix0 from
    broadcastInDim_apply _ _ _ _ _ fun a => a.elim0]
  rfl

theorem lift_apply (X : FVec Ideal S1024x1024 .f32) (i j : Fin 1024) : lift X (ix3 0 i j) = X (ix2 i j) := by
  refine broadcastInDim_apply _ _ _ _ _ fun a => ?_
  match a with
  | ⟨0, _⟩ => rfl
  | ⟨1, _⟩ => rfl

theorem stack_apply0 (x0 x1 x2 : FVec Ideal S1x1024x1024 .f32) (k : Fin 3) (hk : k.val = 0) (i j : Fin 1024) :
    stack x0 x1 x2 (ix3 k i j) = x0 (ix3 0 i j) := by
  refine concatenate_apply_piece 0 _ _ (ix3 k i j) 0 (by show (0 : ℕ) < 3; omega) S1x1024x1024 x0 rfl rfl 0 rfl (ix3 0 i j)
    (fun b hb => ?_) ?_
  · match b with
    | ⟨0, _⟩ => exact absurd rfl hb
    | ⟨1, _⟩ => rfl
    | ⟨2, _⟩ => rfl
  · show 0 + 0 = k.val
    omega

theorem stack_apply1 (x0 x1 x2 : FVec Ideal S1x1024x1024 .f32) (k : Fin 3) (hk : k.val = 1) (i j : Fin 1024) :
    stack x0 x1 x2 (ix3 k i j) = x1 (ix3 0 i j) := by
  refine concatenate_apply_piece 0 _ _ (ix3 k i j) 1 (by show (1 : ℕ) < 3; omega) S1x1024x1024 x1 rfl rfl 1 rfl (ix3 0 i j)
    (fun b hb => ?_) ?_
  · match b with
    | ⟨0, _⟩ => exact absurd rfl hb
    | ⟨1, _⟩ => rfl
    | ⟨2, _⟩ => rfl
  · show 1 + 0 = k.val
    omega

theorem stack_apply2 (x0 x1 x2 : FVec Ideal S1x1024x1024 .f32) (k : Fin 3) (hk : k.val = 2) (i j : Fin 1024) :
    stack x0 x1 x2 (ix3 k i j) = x2 (ix3 0 i j) := by
  refine concatenate_apply_piece 0 _ _ (ix3 k i j) 2 (by show (2 : ℕ) < 3; omega) S1x1024x1024 x2 rfl rfl 2 rfl (ix3 0 i j)
    (fun b hb => ?_) ?_
  · match b with
    | ⟨0, _⟩ => exact absurd rfl hb
    | ⟨1, _⟩ => rfl
    | ⟨2, _⟩ => rfl
  · show 2 + 0 = k.val
    omega

/-! ## The arrays after the host operations -/

/-- An operation of three literal operands: its result with each operand's contents at its own buffer. -/
theorem nary3_result {Val : EltTy → Type} {x a b y : Ref sig .tc}
    (f : ((k : Fin 3) → ((![x, a, b] : Fin 3 → Ref sig .tc) k).ty.Contents Val) → y.ty.Contents Val) (hxs hy)
    (V : Valuation τ sig Val) :
    (StableHlo.nary (τ := τ) ![x, a, b] y f hxs hy).result V (Proc.devRef .tc y)
      = f (Fin.cons (V (Proc.devRef .tc x)) (Fin.cons (V (Proc.devRef .tc a)) (Fin.cons (V (Proc.devRef .tc b))
          (fun i => i.elim0)))) := by
  rw [StableHlo.nary_result]; congr 1; funext k; fin_cases k <;> rfl

variable (W : Valuation τ sig (Elt Ideal))

theorem v14_term :
    (StableHlo.after (hostOps0 (F := Ideal)) W (Proc.devRef .tc main_v14) : S3x1024x1024.Idx → EReal)
      = stack (lift (mask (W (Proc.devRef .tc main_arg2))))
          (lift (mask (square (W (Proc.devRef .tc main_arg2)))))
          (lift (mask (square (square (W (Proc.devRef .tc main_arg2)))))) := by
  simp only [StableHlo.after_cons, StableHlo.after_nil]
  rw [StableHlo.reshape_result_ne]; rotate_left; decide
  rw [StableHlo.reshape_result_ne]; rotate_left; decide
  rw [StableHlo.reshape_result_ne]; rotate_left; decide
  rw [nary3_result]
  repeat (first
    | rw [StableHlo.nullary_result] | rw [StableHlo.unary_result] | rw [StableHlo.binary_result]
    | (rw [StableHlo.nullary_result_ne]; rotate_left; decide)
    | (rw [StableHlo.unary_result_ne]; rotate_left; decide)
    | (rw [StableHlo.binary_result_ne]; rotate_left; decide))
  rfl

theorem v15_term :
    (StableHlo.after (hostOps0 (F := Ideal)) W (Proc.devRef .tc main_v15) : S1x128.Idx → EReal)
      = shapeCast S1x128 (W (Proc.devRef .tc main_arg4) : S128.Idx → EReal) shapeCasts_S128_S1x128 := by
  after_results
  rfl

theorem v16_term :
    (StableHlo.after (hostOps0 (F := Ideal)) W (Proc.devRef .tc main_v16) : S1x128.Idx → EReal)
      = shapeCast S1x128 (W (Proc.devRef .tc main_arg5) : S128.Idx → EReal) shapeCasts_S128_S1x128 := by
  after_results
  rfl

theorem v17_term :
    (StableHlo.after (hostOps0 (F := Ideal)) W (Proc.devRef .tc main_v17) : S1x128.Idx → EReal)
      = shapeCast S1x128 (W (Proc.devRef .tc main_arg6) : S128.Idx → EReal) shapeCasts_S128_S1x128 := by
  after_results
  rfl

/-- The stacked masks: where the adjacency, its square, its fourth power equal one. -/
theorem v14_apply (k : Fin 3) (i j : Fin 1024) :
    (StableHlo.after (hostOps0 (F := Ideal)) W (Proc.devRef .tc main_v14) : S3x1024x1024.Idx → EReal) (ix3 k i j)
      = Cert.Spec.masks (fun i j => (W (Proc.devRef .tc main_arg2) : S1024x1024.Idx → EReal) (ix2 i j)) k i j := by
  rw [v14_term]
  have e1 : (fun i j => square (W (Proc.devRef .tc main_arg2)) (ix2 i j))
      = Cert.Spec.sq (fun i j => (W (Proc.devRef .tc main_arg2) : S1024x1024.Idx → EReal) (ix2 i j)) :=
    funext fun i => funext fun j => square_apply _ i j
  match k with
  | ⟨0, _⟩ => rw [stack_apply0 _ _ _ _ rfl, lift_apply, mask_apply]; rfl
  | ⟨1, _⟩ => rw [stack_apply1 _ _ _ _ rfl, lift_apply, mask_apply, square_apply]; rfl
  | ⟨2, _⟩ => rw [stack_apply2 _ _ _ _ rfl, lift_apply, mask_apply, square_apply, e1]; rfl

theorem v15_apply (o : Fin 128) :
    (StableHlo.after (hostOps0 (F := Ideal)) W (Proc.devRef .tc main_v15) : S1x128.Idx → EReal) (ix2 0 o)
      = (W (Proc.devRef .tc main_arg4) : S128.Idx → EReal) (ix1 o) := by
  rw [v15_term]
  exact shapeCast_a_1a_apply _ _ 0 o

theorem v16_apply (o : Fin 128) :
    (StableHlo.after (hostOps0 (F := Ideal)) W (Proc.devRef .tc main_v16) : S1x128.Idx → EReal) (ix2 0 o)
      = (W (Proc.devRef .tc main_arg5) : S128.Idx → EReal) (ix1 o) := by
  rw [v16_term]
  exact shapeCast_a_1a_apply _ _ 0 o

theorem v17_apply (o : Fin 128) :
    (StableHlo.after (hostOps0 (F := Ideal)) W (Proc.devRef .tc main_v17) : S1x128.Idx → EReal) (ix2 0 o)
      = (W (Proc.devRef .tc main_arg6) : S128.Idx → EReal) (ix1 o) := by
  rw [v17_term]
  exact shapeCast_a_1a_apply _ _ 0 o

end Cert.KernelIdeal.KHost

end
-- ==== Proof.KBlocks.lean ====
/-
  What each window's block at a grid point is, entry by entry, in terms of the array the region finds.

  The grid has 32 points, one per batch element. The weighted adjacency, the node features and the result are
  cut along the batch axis into blocks of one batch element, so point `t`'s block of each is batch element `t` of
  the array; the stacked masks, the weight matrix and the three row vectors are each one block, the whole array, at
  every point. A block's coordinate on an axis is the block index times the block's extent plus the coordinate inside
  the block; the block indices are decided once over the grid.
-/
import proofs.«126845_j58308476010998_1_alg».proof.Proof.KI.Kit
import Idealize.ShloMosaic.Lib.ValueIdx

set_option maxRecDepth 16384

noncomputable section

namespace Cert.KernelIdeal.KBlocks

open Idealize.ShloMosaic Idealize.ShloMosaic.TcCoe
open Idealize.SL Idealize.SL.Sem
open Idealize.ShloMosaic.Pipeline (Dat Cfg Window)
open Cert.KernelIdeal Cert.KernelIdeal.Gen Cert.KernelIdeal.Hand Idealize.ShloMosaic.ValueIdx

variable {F : FTy → Type} [FloatOps F]

variable (m : (ℓ : Loc nD τ sig) → Buf (Elt F) ℓ)

/-- The block indices over the grid: the three windows cut along the batch axis are at block `t` of that axis, and
    every other block index is zero. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = 0 ∧ win0_2.index t (1 : Fin 3) = 0 ∧ win0_2.index t (2 : Fin 3) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 3) = t.val ∧ win0_7.index t (1 : Fin 3) = 0 ∧ win0_7.index t (2 : Fin 3) = 0) :=
  (by decide +kernel : ∀ t : Fin grid0.N, _)

/-- The weighted adjacency's block at point `t` is batch element `t` of the argument. -/
theorem iblk0_apply (c : Dev nD) (t : Fin cfg0.N) (bb : Fin 32) (hb : bb.val = t.val) (i j : Fin 1024) :
    (iblk m c 0 t : S1x1024x1024.Idx → _) (ix3 0 i j)
      = (m ((c : Thread nD τ).loc main_arg1) : S32x1024x1024.Idx → _) (ix3 bb i j) := by
  obtain ⟨⟨e0, e1, e2⟩, -⟩ := idx_facts t
  unfold iblk
  show V m c main_arg1 (((cfg0.win 0).blk t).view.emb (ix3 0 i j)) = _
  rw [V_main_arg1]
  refine congrArg _ (funext fun a => Fin.ext ?_)
  match a with
  | ⟨0, _⟩ => show win0_0.index t (0 : Fin 3) * 1 + 1 * 0 = bb.val; omega
  | ⟨1, _⟩ => show win0_0.index t (1 : Fin 3) * 1024 + 1 * i.val = i.val; omega
  | ⟨2, _⟩ => show win0_0.index t (2 : Fin 3) * 1024 + 1 * j.val = j.val; omega

/-- The node features' block at point `t` is batch element `t` of the argument. -/
theorem iblk1_apply (c : Dev nD) (t : Fin cfg0.N) (bb : Fin 32) (hb : bb.val = t.val) (j : Fin 1024) (d : Fin 128) :
    (iblk m c 1 t : S1x1024x128.Idx → _) (ix3 0 j d)
      = (m ((c : Thread nD τ).loc main_arg0) : S32x1024x128.Idx → _) (ix3 bb j d) := by
  obtain ⟨-, ⟨e0, e1, e2⟩, -⟩ := idx_facts t
  unfold iblk
  show V m c main_arg0 (((cfg0.win 1).blk t).view.emb (ix3 0 j d)) = _
  rw [V_main_arg0]
  refine congrArg _ (funext fun a => Fin.ext ?_)
  match a with
  | ⟨0, _⟩ => show win0_1.index t (0 : Fin 3) * 1 + 1 * 0 = bb.val; omega
  | ⟨1, _⟩ => show win0_1.index t (1 : Fin 3) * 1024 + 1 * j.val = j.val; omega
  | ⟨2, _⟩ => show win0_1.index t (2 : Fin 3) * 128 + 1 * d.val = d.val; omega

/-- The stacked masks' block at every point is the whole array the host operations wrote. -/
theorem iblk2_apply (c : Dev nD) (t : Fin cfg0.N) (k : Fin 3) (i j : Fin 1024) :
    (iblk m c 2 t : S3x1024x1024.Idx → _) (ix3 k i j) = (V m c main_v14 : S3x1024x1024.Idx → _) (ix3 k i j) := by
  obtain ⟨-, -, ⟨e0, e1, e2⟩, -⟩ := idx_facts t
  unfold iblk
  show V m c main_v14 (((cfg0.win 2).blk t).view.emb (ix3 k i j)) = _
  refine congrArg _ (funext fun a => Fin.ext ?_)
  match a with
  | ⟨0, _⟩ => show win0_2.index t (0 : Fin 3) * 3 + 1 * k.val = k.val; omega
  | ⟨1, _⟩ => show win0_2.index t (1 : Fin 3) * 1024 + 1 * i.val = i.val; omega
  | ⟨2, _⟩ => show win0_2.index t (2 : Fin 3) * 1024 + 1 * j.val = j.val; omega

/-- The weight matrix's block at every point is the whole argument. -/
theorem iblk3_apply (c : Dev nD) (t : Fin cfg0.N) (o d : Fin 128) :
    (iblk m c 3 t : S128x128.Idx → _) (ix2 o d) = (m ((c : Thread nD τ).loc main_arg3) : S128x128.Idx → _) (ix2 o d) := by
  obtain ⟨-, -, -, ⟨e0, e1⟩, -⟩ := idx_facts t
  unfold iblk
  show V m c main_arg3 (((cfg0.win 3).blk t).view.emb (ix2 o d)) = _
  rw [V_main_arg3]
  refine congrArg _ (funext fun a => Fin.ext ?_)
  match a with
  | ⟨0, _⟩ => show win0_3.index t (0 : Fin 2) * 128 + 1 * o.val = o.val; omega
  | ⟨1, _⟩ => show win0_3.index t (1 : Fin 2) * 128 + 1 * d.val = d.val; omega

/-- The bias row's block at every point is the whole row the host operations wrote. -/
theorem iblk4_apply (c : Dev nD) (t : Fin cfg0.N) (o : Fin 128) :
    (iblk m c 4 t : S1x128.Idx → _) (ix2 0 o) = (V m c main_v15 : S1x128.Idx → _) (ix2 0 o) := by
  obtain ⟨-, -, -, -, ⟨e0, e1⟩, -⟩ := idx_facts t
  unfold iblk
  show V m c main_v15 (((cfg0.win 4).blk t).view.emb (ix2 0 o)) = _
  refine congrArg _ (funext fun a => Fin.ext ?_)
  match a with
  | ⟨0, _⟩ => show win0_4.index t (0 : Fin 2) * 1 + 1 * 0 = 0; omega
  | ⟨1, _⟩ => show win0_4.index t (1 : Fin 2) * 128 + 1 * o.val = o.val; omega

/-- The scale row's block at every point is the whole row the host operations wrote. -/
theorem iblk5_apply (c : Dev nD) (t : Fin cfg0.N) (o : Fin 128) :
    (iblk m c 5 t : S1x128.Idx → _) (ix2 0 o) = (V m c main_v16 : S1x128.Idx → _) (ix2 0 o) := by
  obtain ⟨-, -, -, -, -, ⟨e0, e1⟩, -⟩ := idx_facts t
  unfold iblk
  show V m c main_v16 (((cfg0.win 5).blk t).view.emb (ix2 0 o)) = _
  refine congrArg _ (funext fun a => Fin.ext ?_)
  match a with
  | ⟨0, _⟩ => show win0_5.index t (0 : Fin 2) * 1 + 1 * 0 = 0; omega
  | ⟨1, _⟩ => show win0_5.index t (1 : Fin 2) * 128 + 1 * o.val = o.val; omega

/-- The shift row's block at every point is the whole row the host operations wrote. -/
theorem iblk6_apply (c : Dev nD) (t : Fin cfg0.N) (o : Fin 128) :
    (iblk m c 6 t : S1x128.Idx → _) (ix2 0 o) = (V m c main_v17 : S1x128.Idx → _) (ix2 0 o) := by
  obtain ⟨-, -, -, -, -, -, ⟨e0, e1⟩, -⟩ := idx_facts t
  unfold iblk
  show V m c main_v17 (((cfg0.win 6).blk t).view.emb (ix2 0 o)) = _
  refine congrArg _ (funext fun a => Fin.ext ?_)
  match a with
  | ⟨0, _⟩ => show win0_6.index t (0 : Fin 2) * 1 + 1 * 0 = 0; omega
  | ⟨1, _⟩ => show win0_6.index t (1 : Fin 2) * 128 + 1 * o.val = o.val; omega

omit m in
/-- The result window's block rectangle at point `t` reads batch element `t` of any array of the result's shape. -/
theorem out_blk_apply (t : Fin cfg0.N) (bb : Fin 32) (hb : bb.val = t.val) (G : S32x1024x128.Idx → Elt F .f32)
    (n : Fin 1024) (o : Fin 128) :
    ((((cfg0.win 7).blk t).view.read (Elt F) G) : S1x1024x128.Idx → _) (ix3 0 n o) = G (ix3 bb n o) := by
  obtain ⟨-, -, -, -, -, -, -, e0, e1, e2⟩ := idx_facts t
  show G (((cfg0.win 7).blk t).view.emb (ix3 0 n o)) = _
  refine congrArg G (funext fun a => Fin.ext ?_)
  match a with
  | ⟨0, _⟩ => show win0_7.index t (0 : Fin 3) * 1 + 1 * 0 = bb.val; omega
  | ⟨1, _⟩ => show win0_7.index t (1 : Fin 3) * 1024 + 1 * n.val = n.val; omega
  | ⟨2, _⟩ => show win0_7.index t (2 : Fin 3) * 128 + 1 * o.val = o.val; omega

end Cert.KernelIdeal.KBlocks

end
-- ==== Proof.KValue.lean ====
/-
  From the blocks the kernel writes back to the whole result array, and the kernel program's run read as one value.

  The grid has one point per batch element. At point `t` the body is handed batch element `t` of the weights and of
  the features, the stacked hop masks of the adjacency pattern, the linear map and the three row vectors, and stores
  batch element `t` of the specification's result; the 32 blocks written back tile the result array, which therefore
  ends as the specification's function of the argument arrays.
-/
import proofs.«126845_j58308476010998_1_alg».proof.Proof.KI.Frame
import proofs.«126845_j58308476010998_1_alg».proof.Proof.KPay
import proofs.«126845_j58308476010998_1_alg».proof.Proof.KHost
import proofs.«126845_j58308476010998_1_alg».proof.Proof.KBlocks
import Idealize.ShloMosaic.Lib.Pipeline.Value

noncomputable section

open scoped BigOperators

namespace Cert.KernelIdeal.KValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The result array as one function of the argument arrays. -/
def Gout (c : Dev nD) : Buf (Elt Ideal) ((c.tc : Thread nD τ).loc main_v18) :=
  fun i => Cert.Spec.G (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) (i 0) (i 1) (i 2)

/-! ## One block of the result -/

/-- The kernel body's block, when its input blocks are batch element `p` of the weights and of the features, the
    stacked masks of the adjacency pattern, and the whole small arrays, is batch element `p` of the result. -/
theorem body_at (x0 : Vec Ideal S1x1024x1024 .f32) (x1 : Vec Ideal S1x1024x128 .f32) (x2 : Vec Ideal S3x1024x1024 .f32)
    (x3 : Vec Ideal S128x128 .f32) (x4 x5 x6 : Vec Ideal S1x128 .f32)
    (a0 : S32x1024x128.Idx → EReal) (a1 : S32x1024x1024.Idx → EReal) (a2 : S1024x1024.Idx → EReal)
    (a3 : S128x128.Idx → EReal) (a4 a5 a6 : S128.Idx → EReal) (p : Fin 32)
    (h0 : ∀ i j, x0 (ix3 0 i j) = a1 (ix3 p i j))
    (h1 : ∀ j d, x1 (ix3 0 j d) = a0 (ix3 p j d))
    (h2 : ∀ k i j, x2 (ix3 k i j) = Cert.Spec.masks (fun i j => a2 (ix2 i j)) k i j)
    (h3 : ∀ o d, x3 (ix2 o d) = a3 (ix2 o d))
    (h4 : ∀ o, x4 (ix2 0 o) = a4 (ix1 o)) (h5 : ∀ o, x5 (ix2 0 o) = a5 (ix1 o)) (h6 : ∀ o, x6 (ix2 0 o) = a6 (ix1 o))
    (y : S1x1024x128.Idx) :
    KBody.body (F := Ideal) x0 x1 x2 x3 x4 x5 x6 y = Cert.Spec.G a0 a1 a2 a3 a4 a5 a6 p (y 1) (y 2) := by
  obtain ⟨u, n, o, rfl⟩ : ∃ (u : Fin 1) (n : Fin 1024) (o : Fin 128), y = ix3 u n o := ⟨y 0, y 1, y 2, eq_ix3 y⟩
  obtain rfl : u = 0 := Subsingleton.elim _ _
  rw [KPay.body_apply]
  have e0 : (fun i j => x0 (ix3 0 i j)) = fun i j => a1 (ix3 p i j) := funext fun i => funext fun j => h0 i j
  have e1 : (fun j d => x1 (ix3 0 j d)) = fun j d => a0 (ix3 p j d) := funext fun j => funext fun d => h1 j d
  have e2 : (fun k i j => x2 (ix3 k i j)) = Cert.Spec.masks (fun i j => a2 (ix2 i j)) :=
    funext fun k => funext fun i => funext fun j => h2 k i j
  have e3 : (fun o d => x3 (ix2 o d)) = fun o d => a3 (ix2 o d) := funext fun o => funext fun d => h3 o d
  have e4 : (fun o => x4 (ix2 0 o)) = fun o => a4 (ix1 o) := funext h4
  have e5 : (fun o => x5 (ix2 0 o)) = fun o => a5 (ix1 o) := funext h5
  have e6 : (fun o => x6 (ix2 0 o)) = fun o => a6 (ix1 o) := funext h6
  rw [e0, e1, e2, e3, e4, e5, e6]
  rfl

/-! ## The arrays the host operations wrote, as the region finds them -/

/-- The stacked masks the region finds: where the adjacency pattern, its square and its fourth power equal one. -/
theorem V14_apply (c : Dev nD) (k : Fin 3) (i j : Fin 1024) :
    (V m c main_v14 : S3x1024x1024.Idx → EReal) (ix3 k i j)
      = Cert.Spec.masks (fun i j => (m ((c : Thread nD τ).loc main_arg2) : S1024x1024.Idx → EReal) (ix2 i j)) k i j :=
  KHost.v14_apply (fun b => m (c, b)) k i j

/-- The bias row the region finds is the bias vector. -/
theorem V15_apply (c : Dev nD) (o : Fin 128) :
    (V m c main_v15 : S1x128.Idx → EReal) (ix2 0 o) = (m ((c : Thread nD τ).loc main_arg4) : S128.Idx → EReal) (ix1 o) :=
  KHost.v15_apply (fun b => m (c, b)) o

/-- The scale row the region finds is the scale vector. -/
theorem V16_apply (c : Dev nD) (o : Fin 128) :
    (V m c main_v16 : S1x128.Idx → EReal) (ix2 0 o) = (m ((c : Thread nD τ).loc main_arg5) : S128.Idx → EReal) (ix1 o) :=
  KHost.v16_apply (fun b => m (c, b)) o

/-- The shift row the region finds is the shift vector. -/
theorem V17_apply (c : Dev nD) (o : Fin 128) :
    (V m c main_v17 : S1x128.Idx → EReal) (ix2 0 o) = (m ((c : Thread nD τ).loc main_arg6) : S128.Idx → EReal) (ix1 o) :=
  KHost.v17_apply (fun b => m (c, b)) o

/-! ## From the blocks to the array -/

/-- The grid has 32 points. -/
theorem N_eq : cfg0.N = 32 := N_0

/-- What point `t` writes back is block `t` of `Gout`. -/
theorem flushed_eq (c : Dev nD) (t : Fin cfg0.N) :
    (dats m 0 c).flushed 7 t = ((cfg0.win 7).blk t).view.read (Elt Ideal) (Gout m c) := by
  show (cfg0.win 7).cut (grid0.coords t) ((dats m 0 c).after 7 t) = _
  rw [after0_7]
  obtain ⟨-, -, -, -, -, -, -, ⟨e0, e1, e2⟩⟩ := KBlocks.idx_facts t
  have ht : t.val < 32 := lt_of_lt_of_eq t.isLt N_eq
  funext y
  rw [View.read_apply]
  show KBody.body (F := Ideal) (iblk m c 0 t) (iblk m c 1 t) (iblk m c 2 t) (iblk m c 3 t) (iblk m c 4 t) (iblk m c 5 t) (iblk m c 6 t) y
    = Gout m c (((cfg0.win 7).blk t).view.emb y)
  refine (body_at _ _ _ _ _ _ _ (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) ⟨t.val, ht⟩
    (KBlocks.iblk0_apply m c t _ rfl) (KBlocks.iblk1_apply m c t _ rfl)
    (fun k i j => (KBlocks.iblk2_apply m c t k i j).trans (V14_apply m c k i j))
    (KBlocks.iblk3_apply m c t)
    (fun o => (KBlocks.iblk4_apply m c t o).trans (V15_apply m c o))
    (fun o => (KBlocks.iblk5_apply m c t o).trans (V16_apply m c o))
    (fun o => (KBlocks.iblk6_apply m c t o).trans (V17_apply m c o)) y).trans ?_
  unfold Gout
  have q0 : (((cfg0.win 7).blk t).view.emb y) 0 = (⟨t.val, ht⟩ : Fin 32) := by
    apply Fin.ext
    show win0_7.index t (0 : Fin 3) * 1 + 1 * (y 0).val = t.val
    have : (y 0).val < 1 := (y 0).isLt
    omega
  have q1 : (((cfg0.win 7).blk t).view.emb y) 1 = (y 1 : Fin 1024) := by
    apply Fin.ext
    show win0_7.index t (1 : Fin 3) * 1024 + 1 * (y 1).val = (y 1).val
    omega
  have q2 : (((cfg0.win 7).blk t).view.emb y) 2 = (y 2 : Fin 128) := by
    apply Fin.ext
    show win0_7.index t (2 : Fin 3) * 128 + 1 * (y 2).val = (y 2).val
    omega
  rw [q0, q1, q2]

/-- An index of the result array is in point `t`'s block iff each coordinate is in the block's range on its axis. -/
theorem mem_blk (t : Fin cfg0.N) (i : S32x1024x128.Idx) :
    i ∈ ((cfg0.win 7).blk t).view.set ↔ ∀ a : Fin 3, win0_7.index t a * S1x1024x128.size a ≤ (i a).val
      ∧ (i a).val < win0_7.index t a * S1x1024x128.size a + S1x1024x128.size a := by
  show i ∈ ((View.whole main_v18).slice (win0_7.rect t)).set ↔ _
  rw [View.set_slice_whole, Rect.mem_set_unit]
  exact Iff.rfl

/-- Every index of the result array is in the block of the point its batch coordinate names. -/
theorem cover (i : S32x1024x128.Idx) :
    ∃ t : Fin cfg0.N, (cfg0.win 7).flush t = true ∧ i ∈ ((cfg0.win 7).blk t).view.set := by
  have h0 : (i 0).val < 32 := (i 0).isLt
  have h1 : (i 1).val < 1024 := (i 1).isLt
  have h2 : (i 2).val < 128 := (i 2).isLt
  obtain ⟨t, ht⟩ : ∃ t : Fin cfg0.N, t.val = (i 0).val := ⟨⟨(i 0).val, by rw [N_eq]; exact h0⟩, rfl⟩
  refine ⟨t, flush0_7 t, ?_⟩
  obtain ⟨-, -, -, -, -, -, -, ⟨e0, e1, e2⟩⟩ := KBlocks.idx_facts t
  rw [mem_blk]
  intro a
  match a with
  | ⟨0, _⟩ =>
    show win0_7.index t (0 : Fin 3) * 1 ≤ (i 0).val ∧ (i 0).val < win0_7.index t (0 : Fin 3) * 1 + 1
    omega
  | ⟨1, _⟩ =>
    show win0_7.index t (1 : Fin 3) * 1024 ≤ (i 1).val ∧ (i 1).val < win0_7.index t (1 : Fin 3) * 1024 + 1024
    omega
  | ⟨2, _⟩ =>
    show win0_7.index t (2 : Fin 3) * 128 ≤ (i 2).val ∧ (i 2).val < win0_7.index t (2 : Fin 3) * 128 + 128
    omega

/-- The result array after the run is `Gout`. -/
theorem final (c : Dev nD) : (dats m 0 c).arrAt 7 cfg0.N = Gout m c :=
  (dats m 0 c).arrAt_eq_of_cover 7 (Gout m c) (fun t _ => flushed_eq m c t) cover

/-! ## The run, read -/

/-- The kernel program's run: the result array at `Gout`, the arguments unchanged. -/
theorem run : θ_run defs (onTc (τ := τ) (main (F := Ideal))) ⟨m, fun _ => 0, ρ⟩ (fun r => ∀ c : Dev nD,
      r.2.mem ((c.tc : Thread nD τ).loc main_v18) = Gout m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨((h c).1 7).trans (final m c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).2 main_arg2 (Pipeline.mem_restRefs_of main_arg2 (by decide) (by decide))).trans (V_main_arg2 m c),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩)
    (run_main m ρ)

end Cert.KernelIdeal.KValue

end
-- ==== Proof.RefTerm.lean ====
/-
  The reference's result as one term of its argument arrays: its host operations composed, stage by stage, in the
  order the program applies them. Generic in the float values.
-/
import proofs.«126845_j58308476010998_1_alg».proof.Proof.Gen.ReferenceIdeal

noncomputable section

namespace Cert.ReferenceIdeal.RefTerm

open Cert.ReferenceIdeal Cert.ReferenceIdeal.Gen Idealize.ShloMosaic

variable {F : FTy → Type} [FloatOps F]

/-- The 0/1 mask of the entries of a square matrix equal to one, repeated over the batch. -/
def mask (A : FVec F S1024x1024 .f32) : FVec F S32x1024x1024 .f32 :=
  broadcastInDim S32x1024x1024 ![0, 1, 2] bcast_S1x1024x1024_S32x1024x1024_0_1_2
    (broadcastInDim S1x1024x1024 ![1, 2] bcast_S1024x1024_S1x1024x1024_1_2
      (uitofp .f32 (cmpf .oeq A (broadcastInDim S1024x1024 ![] bcast_S_S1024x1024 (constant S_ .f32 0x3F800000#32)))))

/-- A square matrix times itself. -/
def sq2 (A : FVec F S1024x1024 .f32) : FVec F S1024x1024 .f32 :=
  Host.dotGeneral dot_S1024x1024_S1024x1024_S1024x1024_1_0_0_1_n_n none A A

/-- Each batch element's matrix times itself. -/
def sq3 (P : FVec F S32x1024x1024 .f32) : FVec F S32x1024x1024 .f32 :=
  Host.dotGeneral dot_S32x1024x1024_S32x1024x1024_S32x1024x1024_2_1_1_2_0_0 none P P

/-- One hop: the masked weights contracted against the features over the source node. -/
def hop (P : FVec F S32x1024x1024 .f32) (A : FVec F S1024x1024 .f32) (x : FVec F S32x1024x128 .f32) : FVec F S32x1024x128 .f32 :=
  Host.dotGeneral dot_S32x1024x1024_S32x1024x128_S32x1024x128_1_1_2_2_0_0 none (mulf P (mask A)) x

/-- The three hops added onto zeros, in order. -/
def agg (x : FVec F S32x1024x128 .f32) (w : FVec F S32x1024x1024 .f32) (adj : FVec F S1024x1024 .f32) : FVec F S32x1024x128 .f32 :=
  addf (addf (addf (broadcastInDim S32x1024x128 ![] bcast_S_S32x1024x128 (constant S_ .f32 0x00000000#32)) (hop w adj x))
    (hop (sq3 w) (sq2 adj) x)) (hop (sq3 (sq3 w)) (sq2 (sq2 adj)) x)

/-- A vector over the feature axis repeated over batch and node. -/
def row (v : FVec F S128 .f32) : FVec F S32x1024x128 .f32 :=
  broadcastInDim S32x1024x128 ![0, 1, 2] bcast_S1x1x128_S32x1024x128_0_1_2 (broadcastInDim S1x1x128 ![2] bcast_S128_S1x1x128_2 v)

/-- The linear layer, its bias and the residual. -/
def lin (x : FVec F S32x1024x128 .f32) (w : FVec F S32x1024x1024 .f32) (adj : FVec F S1024x1024 .f32) (W : FVec F S128x128 .f32)
    (b : FVec F S128 .f32) : FVec F S32x1024x128 .f32 :=
  addf (addf (Host.dotGeneral dot_S32x1024x128_S128x128_S32x1024x128_2_1_01_0_n_n none (agg x w adj) W) (row b)) x

/-- The sum over the feature axis, kept as an axis of extent one. -/
def rsum (h : FVec F S32x1024x128 .f32) : FVec F S32x1024x1 .f32 :=
  broadcastInDim S32x1024x1 ![0, 1] bcast_S32x1024_S32x1024x1_0_1
    (Host.reduceAdd h (constant S_ .f32 0x00000000#32) reducesTo_S32x1024x128_S32x1024_d2 h_S_)

/-- A scalar repeated over batch and node. -/
def splat1 {α : Type} (v : S_.Idx → α) : S32x1024x1.Idx → α := broadcastInDim S32x1024x1 ![] bcast_S_S32x1024x1 v

/-- The row means. -/
def mean (h : FVec F S32x1024x128 .f32) : FVec F S32x1024x1 .f32 :=
  Host.divf (rsum h) (splat1 (constant S_ .f32 0x43000000#32))

/-- A per-row value repeated over the feature axis. -/
def spread (v : FVec F S32x1024x1 .f32) : FVec F S32x1024x128 .f32 :=
  broadcastInDim S32x1024x128 ![0, 1, 2] bcast_S32x1024x1_S32x1024x128_0_1_2 v

/-- The variance's divisor: the row length less the one degree of freedom, computed. -/
def dof : FVec F S_ .f32 := subf (constant S_ .f32 0x43000000#32) (sitofp .f32 (constantI S_ 32 1#32))

/-- The unbiased row variances (a not-a-number pattern where the divisor is not positive). -/
def var (h : FVec F S32x1024x128 .f32) : FVec F S32x1024x1 .f32 :=
  select (splat1 (cmpf .ogt (dof (F := F)) (constant S_ .f32 0x00000000#32)))
    (Host.divf (rsum (mulf (subf h (spread (mean h))) (subf h (spread (mean h))))) (splat1 (dof (F := F))))
    (splat1 (id (constant S_ .f32 0x7FC00000#32)))

/-- The reference's result. -/
def out (x : FVec F S32x1024x128 .f32) (w : FVec F S32x1024x1024 .f32) (adj : FVec F S1024x1024 .f32) (W : FVec F S128x128 .f32)
    (b a2 b2 : FVec F S128 .f32) : FVec F S32x1024x128 .f32 :=
  addf (Host.divf (mulf (row a2) (subf (lin x w adj W b) (spread (mean (lin x w adj W b)))))
      (spread (addf (Host.sqrt (var (lin x w adj W b))) (splat1 (constant S_ .f32 0x358637BD#32))))) (row b2)

end Cert.ReferenceIdeal.RefTerm

end
-- ==== Proof.RefRun.lean ====
/-
  The reference program's run. Its entry function is a straight line of host operations once the three nested
  outlined functions (the standard deviation, which calls the variance, which calls the selection) are unfolded at
  their call sites: eighty-two operations, each writing one buffer from buffers written before it. Every weakly fair
  execution therefore terminates with each buffer at the fold of the operations over the launch contents; read at
  the result buffer that fold is the composed term `RefTerm.out` of the seven argument arrays, and at an argument
  buffer, which no operation writes, it is the launch contents. Generic in the float values.
-/
import proofs.«126845_j58308476010998_1_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The entry function's operations in order, the calls unfolded: forty-five of its own up to the integer constant
    one (the three masked hops accumulated onto zeros, the linear layer with bias and residual, the row means), then
    the variance's twenty (row sums, means, centred squares, the divisor `128 - 1` computed, its positivity test, the
    not-a-number constant), the selection's three (the constant converted to its own type, repeated over the rows,
    the select), the square root, and the entry function's last thirteen (centring, scale, the small constant added
    to the deviation, the division, the shift). -/
abbrev ops : List (HloOp τ sig (Elt F)) :=
  [ nullary main_cst (constant S_ .f32 0x00000000#32),
    unary main_cst main_v0 (broadcastInDim S32x1024x128 ![] bcast_S_S32x1024x128 : FVec F S_ .f32 → FVec F S32x1024x128 .f32),
    nullary main_cst_0 (constant S_ .f32 0x3F800000#32),
    unary main_cst_0 main_v1 (broadcastInDim S1024x1024 ![] bcast_S_S1024x1024 : FVec F S_ .f32 → FVec F S1024x1024 .f32),
    binary main_arg2 main_v1 main_v2 (cmpf .oeq : FVec F S1024x1024 .f32 → FVec F S1024x1024 .f32 → IVec S1024x1024 1),
    unary main_v2 main_v3 (uitofp .f32 : IVec S1024x1024 1 → FVec F S1024x1024 .f32),
    unary main_v3 main_v4 (broadcastInDim S1x1024x1024 ![1, 2] bcast_S1024x1024_S1x1024x1024_1_2 : FVec F S1024x1024 .f32 → FVec F S1x1024x1024 .f32),
    unary main_v4 main_v5 (broadcastInDim S32x1024x1024 ![0, 1, 2] bcast_S1x1024x1024_S32x1024x1024_0_1_2 : FVec F S1x1024x1024 .f32 → FVec F S32x1024x1024 .f32),
    binary main_arg1 main_v5 main_v6 (mulf : FVec F S32x1024x1024 .f32 → FVec F S32x1024x1024 .f32 → FVec F S32x1024x1024 .f32),
    binary main_v6 main_arg0 main_v7 ((fun l r => Host.dotGeneral dot_S32x1024x1024_S32x1024x128_S32x1024x128_1_1_2_2_0_0 none l r) : FVec F S32x1024x1024 .f32 → FVec F S32x1024x128 .f32 → FVec F S32x1024x128 .f32),
    binary main_v0 main_v7 main_v8 (addf : FVec F S32x1024x128 .f32 → FVec F S32x1024x128 .f32 → FVec F S32x1024x128 .f32),
    binary main_arg2 main_arg2 main_v9 ((fun l r => Host.dotGeneral dot_S1024x1024_S1024x1024_S1024x1024_1_0_0_1_n_n none l r) : FVec F S1024x1024 .f32 → FVec F S1024x1024 .f32 → FVec F S1024x1024 .f32),
    binary main_arg1 main_arg1 main_v10 ((fun l r => Host.dotGeneral dot_S32x1024x1024_S32x1024x1024_S32x1024x1024_2_1_1_2_0_0 none l r) : FVec F S32x1024x1024 .f32 → FVec F S32x1024x1024 .f32 → FVec F S32x1024x1024 .f32),
    nullary main_cst_1 (constant S_ .f32 0x3F800000#32),
    unary main_cst_1 main_v11 (broadcastInDim S1024x1024 ![] bcast_S_S1024x1024 : FVec F S_ .f32 → FVec F S1024x1024 .f32),
    binary main_v9 main_v11 main_v12 (cmpf .oeq : FVec F S1024x1024 .f32 → FVec F S1024x1024 .f32 → IVec S1024x1024 1),
    unary main_v12 main_v13 (uitofp .f32 : IVec S1024x1024 1 → FVec F S1024x1024 .f32),
    unary main_v13 main_v14 (broadcastInDim S1x1024x1024 ![1, 2] bcast_S1024x1024_S1x1024x1024_1_2 : FVec F S1024x1024 .f32 → FVec F S1x1024x1024 .f32),
    unary main_v14 main_v15 (broadcastInDim S32x1024x1024 ![0, 1, 2] bcast_S1x1024x1024_S32x1024x1024_0_1_2 : FVec F S1x1024x1024 .f32 → FVec F S32x1024x1024 .f32),
    binary main_v10 main_v15 main_v16 (mulf : FVec F S32x1024x1024 .f32 → FVec F S32x1024x1024 .f32 → FVec F S32x1024x1024 .f32),
    binary main_v16 main_arg0 main_v17 ((fun l r => Host.dotGeneral dot_S32x1024x1024_S32x1024x128_S32x1024x128_1_1_2_2_0_0 none l r) : FVec F S32x1024x1024 .f32 → FVec F S32x1024x128 .f32 → FVec F S32x1024x128 .f32),
    binary main_v8 main_v17 main_v18 (addf : FVec F S32x1024x128 .f32 → FVec F S32x1024x128 .f32 → FVec F S32x1024x128 .f32),
    binary main_v9 main_v9 main_v19 ((fun l r => Host.dotGeneral dot_S1024x1024_S1024x1024_S1024x1024_1_0_0_1_n_n none l r) : FVec F S1024x1024 .f32 → FVec F S1024x1024 .f32 → FVec F S1024x1024 .f32),
    binary main_v10 main_v10 main_v20 ((fun l r => Host.dotGeneral dot_S32x1024x1024_S32x1024x1024_S32x1024x1024_2_1_1_2_0_0 none l r) : FVec F S32x1024x1024 .f32 → FVec F S32x1024x1024 .f32 → FVec F S32x1024x1024 .f32),
    nullary main_cst_2 (constant S_ .f32 0x3F800000#32),
    unary main_cst_2 main_v21 (broadcastInDim S1024x1024 ![] bcast_S_S1024x1024 : FVec F S_ .f32 → FVec F S1024x1024 .f32),
    binary main_v19 main_v21 main_v22 (cmpf .oeq : FVec F S1024x1024 .f32 → FVec F S1024x1024 .f32 → IVec S1024x1024 1),
    unary main_v22 main_v23 (uitofp .f32 : IVec S1024x1024 1 → FVec F S1024x1024 .f32),
    unary main_v23 main_v24 (broadcastInDim S1x1024x1024 ![1, 2] bcast_S1024x1024_S1x1024x1024_1_2 : FVec F S1024x1024 .f32 → FVec F S1x1024x1024 .f32),
    unary main_v24 main_v25 (broadcastInDim S32x1024x1024 ![0, 1, 2] bcast_S1x1024x1024_S32x1024x1024_0_1_2 : FVec F S1x1024x1024 .f32 → FVec F S32x1024x1024 .f32),
    binary main_v20 main_v25 main_v26 (mulf : FVec F S32x1024x1024 .f32 → FVec F S32x1024x1024 .f32 → FVec F S32x1024x1024 .f32),
    binary main_v26 main_arg0 main_v27 ((fun l r => Host.dotGeneral dot_S32x1024x1024_S32x1024x128_S32x1024x128_1_1_2_2_0_0 none l r) : FVec F S32x1024x1024 .f32 → FVec F S32x1024x128 .f32 → FVec F S32x1024x128 .f32),
    binary main_v18 main_v27 main_v28 (addf : FVec F S32x1024x128 .f32 → FVec F S32x1024x128 .f32 → FVec F S32x1024x128 .f32),
    binary main_v28 main_arg3 main_v29 ((fun l r => Host.dotGeneral dot_S32x1024x128_S128x128_S32x1024x128_2_1_01_0_n_n none l r) : FVec F S32x1024x128 .f32 → FVec F S128x128 .f32 → FVec F S32x1024x128 .f32),
    unary main_arg4 main_v30 (broadcastInDim S1x1x128 ![2] bcast_S128_S1x1x128_2 : FVec F S128 .f32 → FVec F S1x1x128 .f32),
    unary main_v30 main_v31 (broadcastInDim S32x1024x128 ![0, 1, 2] bcast_S1x1x128_S32x1024x128_0_1_2 : FVec F S1x1x128 .f32 → FVec F S32x1024x128 .f32),
    binary main_v29 main_v31 main_v32 (addf : FVec F S32x1024x128 .f32 → FVec F S32x1024x128 .f32 → FVec F S32x1024x128 .f32),
    binary main_v32 main_arg0 main_v33 (addf : FVec F S32x1024x128 .f32 → FVec F S32x1024x128 .f32 → FVec F S32x1024x128 .f32),
    nullary main_cst_3 (constant S_ .f32 0x00000000#32),
    binary main_v33 main_cst_3 main_v34 ((fun x v => Host.reduceAdd x v reducesTo_S32x1024x128_S32x1024_d2 h_S_) : FVec F S32x1024x128 .f32 → FVec F S_ .f32 → FVec F S32x1024 .f32),
    unary main_v34 main_v35 (broadcastInDim S32x1024x1 ![0, 1] bcast_S32x1024_S32x1024x1_0_1 : FVec F S32x1024 .f32 → FVec F S32x1024x1 .f32),
    nullary main_cst_4 (constant S_ .f32 0x43000000#32),
    unary main_cst_4 main_v36 (broadcastInDim S32x1024x1 ![] bcast_S_S32x1024x1 : FVec F S_ .f32 → FVec F S32x1024x1 .f32),
    binary main_v35 main_v36 main_v37 (Host.divf : FVec F S32x1024x1 .f32 → FVec F S32x1024x1 .f32 → FVec F S32x1024x1 .f32),
    nullary main_c (constantI S_ 32 1#32),
    TRef.nullary main_call0_call0.cst (constant S_ .f32 0x00000000#32),
    TRef.binary (.of main_v33) main_call0_call0.cst main_call0_call0.v0 (fun x v => Host.reduceAdd x v reducesTo_S32x1024x128_S32x1024_d2 h_S_),
    TRef.unary main_call0_call0.v0 main_call0_call0.v1 (broadcastInDim S32x1024x1 ![0, 1] bcast_S32x1024_S32x1024x1_0_1),
    TRef.nullary main_call0_call0.cst_0 (constant S_ .f32 0x43000000#32),
    TRef.unary main_call0_call0.cst_0 main_call0_call0.v2 (broadcastInDim S32x1024x1 ![] bcast_S_S32x1024x1),
    TRef.binary main_call0_call0.v1 main_call0_call0.v2 main_call0_call0.v3 Host.divf,
    TRef.unary main_call0_call0.v3 main_call0_call0.v4 (broadcastInDim S32x1024x128 ![0, 1, 2] bcast_S32x1024x1_S32x1024x128_0_1_2),
    TRef.binary (.of main_v33) main_call0_call0.v4 main_call0_call0.v5 subf,
    TRef.binary main_call0_call0.v5 main_call0_call0.v5 main_call0_call0.v6 mulf,
    TRef.unary (.of main_c) main_call0_call0.v7 (sitofp .f32),
    TRef.nullary main_call0_call0.cst_1 (constant S_ .f32 0x43000000#32),
    TRef.binary main_call0_call0.cst_1 main_call0_call0.v7 main_call0_call0.v8 subf,
    TRef.nullary main_call0_call0.cst_2 (constant S_ .f32 0x00000000#32),
    TRef.binary main_call0_call0.v6 main_call0_call0.cst_2 main_call0_call0.v9 (fun x v => Host.reduceAdd x v reducesTo_S32x1024x128_S32x1024_d2 h_S_),
    TRef.unary main_call0_call0.v9 main_call0_call0.v10 (broadcastInDim S32x1024x1 ![0, 1] bcast_S32x1024_S32x1024x1_0_1),
    TRef.unary main_call0_call0.v8 main_call0_call0.v11 (broadcastInDim S32x1024x1 ![] bcast_S_S32x1024x1),
    TRef.binary main_call0_call0.v10 main_call0_call0.v11 main_call0_call0.v12 Host.divf,
    TRef.nullary main_call0_call0.cst_3 (constant S_ .f32 0x00000000#32),
    TRef.binary main_call0_call0.v8 main_call0_call0.cst_3 main_call0_call0.v13 (cmpf .ogt),
    TRef.nullary main_call0_call0.cst_4 (constant S_ .f32 0x7FC00000#32),
    TRef.unary main_call0_call0.cst_4 main_call0_call0_call0.v0 id,
    TRef.unary main_call0_call0_call0.v0 main_call0_call0_call0.v1 (broadcastInDim S32x1024x1 ![] bcast_S_S32x1024x1),
    TRef.ternary main_call0_call0.v13 main_call0_call0.v12 main_call0_call0_call0.v1 main_call0_call0_call0.v2 (fun p a b => select (broadcastInDim S32x1024x1 ![] bcast_S_S32x1024x1 p) a b),
    TRef.unary main_call0_call0_call0.v2 main_call0.v1 Host.sqrt,
    unary main_v37 main_v39 (broadcastInDim S32x1024x128 ![0, 1, 2] bcast_S32x1024x1_S32x1024x128_0_1_2 : FVec F S32x1024x1 .f32 → FVec F S32x1024x128 .f32),
    binary main_v33 main_v39 main_v40 (subf : FVec F S32x1024x128 .f32 → FVec F S32x1024x128 .f32 → FVec F S32x1024x128 .f32),
    unary main_arg5 main_v41 (broadcastInDim S1x1x128 ![2] bcast_S128_S1x1x128_2 : FVec F S128 .f32 → FVec F S1x1x128 .f32),
    unary main_v41 main_v42 (broadcastInDim S32x1024x128 ![0, 1, 2] bcast_S1x1x128_S32x1024x128_0_1_2 : FVec F S1x1x128 .f32 → FVec F S32x1024x128 .f32),
    binary main_v42 main_v40 main_v43 (mulf : FVec F S32x1024x128 .f32 → FVec F S32x1024x128 .f32 → FVec F S32x1024x128 .f32),
    nullary main_cst_5 (constant S_ .f32 0x358637BD#32),
    unary main_cst_5 main_v44 (broadcastInDim S32x1024x1 ![] bcast_S_S32x1024x1 : FVec F S_ .f32 → FVec F S32x1024x1 .f32),
    binary main_v38 main_v44 main_v45 (addf : FVec F S32x1024x1 .f32 → FVec F S32x1024x1 .f32 → FVec F S32x1024x1 .f32),
    unary main_v45 main_v46 (broadcastInDim S32x1024x128 ![0, 1, 2] bcast_S32x1024x1_S32x1024x128_0_1_2 : FVec F S32x1024x1 .f32 → FVec F S32x1024x128 .f32),
    binary main_v43 main_v46 main_v47 (Host.divf : FVec F S32x1024x128 .f32 → FVec F S32x1024x128 .f32 → FVec F S32x1024x128 .f32),
    unary main_arg6 main_v48 (broadcastInDim S1x1x128 ![2] bcast_S128_S1x1x128_2 : FVec F S128 .f32 → FVec F S1x1x128 .f32),
    unary main_v48 main_v49 (broadcastInDim S32x1024x128 ![0, 1, 2] bcast_S1x1x128_S32x1024x128_0_1_2 : FVec F S1x1x128 .f32 → FVec F S32x1024x128 .f32),
    binary main_v47 main_v49 main_v50 (addf : FVec F S32x1024x128 .f32 → FVec F S32x1024x128 .f32 → FVec F S32x1024x128 .f32) ]

-- eighty-two binds on each side, compared step by step
set_option maxRecDepth 8192 in
/-- The entry function is that straight line: with the three outlined functions' definitions unfolded at their calls
    and the calls' buffer records at their fields, sequencing computes both sides to one chain of steps. -/
theorem main_eq (c : Dev nD) : main (F := F) c = StableHlo.seq ops := rfl

/-- The signature scopes no buffer and no semaphore: the program launches no kernel. -/
theorem scopedRefs_eq : (Finset.univ.filter fun b : Ref sig .tc => b.isScoped) = ∅ := by decide
theorem scopedSems_eq : (Finset.univ.filter fun sm : SemLoc sig => sm.isScoped .tc) = ∅ := by decide

/-- Every operation reads and writes device buffers of the signature only. -/
theorem ops_sub : (ops : List (HloOp τ sig (Elt F))).Forall fun op => op.bufs ⊆ tcRefs τ sig :=
  ⟨nullary_bufs_sub .., unary_bufs_sub .., nullary_bufs_sub .., unary_bufs_sub .., binary_bufs_sub .., unary_bufs_sub ..,
    unary_bufs_sub .., unary_bufs_sub .., binary_bufs_sub .., binary_bufs_sub .., binary_bufs_sub .., binary_bufs_sub ..,
    binary_bufs_sub .., nullary_bufs_sub .., unary_bufs_sub .., binary_bufs_sub .., unary_bufs_sub .., unary_bufs_sub ..,
    unary_bufs_sub .., binary_bufs_sub .., binary_bufs_sub .., binary_bufs_sub .., binary_bufs_sub .., binary_bufs_sub ..,
    nullary_bufs_sub .., unary_bufs_sub .., binary_bufs_sub .., unary_bufs_sub .., unary_bufs_sub .., unary_bufs_sub ..,
    binary_bufs_sub .., binary_bufs_sub .., binary_bufs_sub .., binary_bufs_sub .., unary_bufs_sub .., unary_bufs_sub ..,
    binary_bufs_sub .., binary_bufs_sub .., nullary_bufs_sub .., binary_bufs_sub .., unary_bufs_sub .., nullary_bufs_sub ..,
    unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., unary_bufs_sub .., binary_bufs_sub .., nullary_bufs_sub ..,
    binary_bufs_sub .., nullary_bufs_sub ..,
    unary_bufs_sub .., unary_bufs_sub .., ternary_bufs_sub ..,
    unary_bufs_sub ..,
    unary_bufs_sub .., binary_bufs_sub .., unary_bufs_sub .., unary_bufs_sub .., binary_bufs_sub .., nullary_bufs_sub ..,
    unary_bufs_sub .., binary_bufs_sub .., unary_bufs_sub .., binary_bufs_sub .., unary_bufs_sub .., unary_bufs_sub ..,
    binary_bufs_sub ..⟩

set_option maxHeartbeats 1600000 in
set_option maxRecDepth 8192 in
/-- The fold read at the result buffer: each operation's result rewritten at its own buffer to its function's value
    and passed over at every other, what is left is `RefTerm.out` of the argument contents by unfolding. -/
theorem out_eq (V : Valuation τ sig (Elt F)) :
    after ops V (main_v50 : DevRef τ sig)
      = RefTerm.out (V (main_arg0 : DevRef τ sig)) (V (main_arg1 : DevRef τ sig)) (V (main_arg2 : DevRef τ sig))
          (V (main_arg3 : DevRef τ sig)) (V (main_arg4 : DevRef τ sig)) (V (main_arg5 : DevRef τ sig)) (V (main_arg6 : DevRef τ sig)) := by
  after_results_simp
  rfl

/-- No operation writes an argument buffer: the fold read there is the contents it started from. -/
theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp
theorem arg4_eq (V : Valuation τ sig (Elt F)) : after ops V (main_arg4 : DevRef τ sig) = V (main_arg4 : DevRef τ sig) := by
  after_results_simp
theorem arg5_eq (V : Valuation τ sig (Elt F)) : after ops V (main_arg5 : DevRef τ sig) = V (main_arg5 : DevRef τ sig) := by
  after_results_simp
theorem arg6_eq (V : Valuation τ sig (Elt F)) : after ops V (main_arg6 : DevRef τ sig) = V (main_arg6 : DevRef τ sig) := by
  after_results_simp

/-- On the device, for any float values, from any memory with zero counters: every weakly fair execution of the entry
    function terminates with the result buffer at `RefTerm.out` of the argument arrays' launch contents and the seven
    argument arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v50)
          = RefTerm.out (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v50).trans (out_eq _), (h c main_arg0).trans (arg0_eq _),
      (h c main_arg1).trans (arg1_eq _), (h c main_arg2).trans (arg2_eq _), (h c main_arg3).trans (arg3_eq _),
      (h c main_arg4).trans (arg4_eq _), (h c main_arg5).trans (arg5_eq _), (h c main_arg6).trans (arg6_eq _)⟩)
    (run_seq scopedRefs_eq scopedSems_eq defs main (fun _ => ops) main_eq (fun _ => ops_sub) m ρ)

end Cert.ReferenceIdeal.RefRun

end
-- ==== Proof.LibDotB.lean ====
/-
  Matrix products on the host with ONE contracted axis, read at an entry at the ideal values, for dimension-number
  records that carry a BATCH axis or TWO free axes on the left (a printed record satisfies each list hypothesis by
  `rfl`).

  A host product has no accumulator: at an entry it is the sum, over the contracted coordinate `c`, of the left
  operand's entry times the right operand's entry. Three arrangements are read here. With one batch axis leading on
  both operands and on the result, the entry (b, m, n) sums within batch element `b`: rows by columns (`_b21`), or
  both operands contracted on their middle axis, which is the left operand transposed (`_b11`). With no batch axis
  and two free axes on the left, a stack of matrices meets one matrix contracted on its last axis (`_n21`).
  First, which coordinate of the result each free or batch axis of an operand reads.
-/
import Idealize.ShloMosaic.Lib.ValueIdx
import Idealize.ShloMosaic.PureOps.Ideal.Laws

noncomputable section

open scoped BigOperators

namespace Cert.LibDotB

open Idealize.ShloMosaic Idealize.ShloMosaic.ValueIdx

/-- A host product is the accelerator's product accumulated into the zero constant. -/
theorem dotGeneral_eq_matmul_zero {sl sr so : Shape} {φ₁ φ₂ : FTy} (d : DotDims sl sr so) (prec : Option ContractPrecision)
    (X : FVec Ideal sl φ₁) (Y : FVec Ideal sr φ₂) :
    Host.dotGeneral (F := Ideal) d prec X Y = matmul (F := Ideal) d prec X Y (constant so .f32 0x00000000#32) := by
  funext j
  show FloatOps.dotGeneral d prec _ X Y j = FloatOps.matmul d prec X Y (constant so .f32 0x00000000#32) j
  rw [Ideal.matmul_constant_zero_apply, Ideal.dotGeneral_apply]

section Axes
variable {sl sr so : Shape} (d : DotDims sl sr so)

/-- An index read at two equal positions gives one coordinate. -/
theorem idx_val_congr (j : so.Idx) (p q : Nat) (hp : p < so.rank) (hq : q < so.rank) (h : p = q) :
    (j ⟨p, hp⟩).val = (j ⟨q, hq⟩).val := by subst h; rfl

/-- A free axis of the left operand is not one of its batch axes. -/
theorem not_mem_lhsBatch_of_mem_non {a : Fin sl.rank} (h : a ∈ d.lhsNonContracting) : a ∉ d.lhsBatch :=
  fun hb => List.disjoint_of_nodup_append (List.Nodup.of_append_left d.lhs_nodup) hb h

/-- A free axis of the right operand is not one of its batch axes. -/
theorem not_mem_rhsBatch_of_mem_non {a : Fin sr.rank} (h : a ∈ d.rhsNonContracting) : a ∉ d.rhsBatch :=
  fun hb => List.disjoint_of_nodup_append (List.Nodup.of_append_left d.rhs_nodup) hb h

/-- The left operand's one batch axis reads the result's first coordinate. -/
theorem lhsIdx_val_batch {bl : Fin sl.rank} (hb : d.lhsBatch = [bl]) (j : so.Idx) (k : d.contr.Idx) (h0 : 0 < so.rank) :
    (d.lhsIdx j k bl).val = (j ⟨0, h0⟩).val := by
  have hmem : bl ∈ d.lhsBatch := by rw [hb]; exact List.mem_singleton.mpr rfl
  unfold DotDims.lhsIdx
  rw [dif_pos hmem]
  simp only [Fin.val_cast]
  exact idx_val_congr j _ _ _ _ (by simp [hb])

/-- The right operand's one batch axis reads the result's first coordinate. -/
theorem rhsIdx_val_batch {br : Fin sr.rank} (hb : d.rhsBatch = [br]) (j : so.Idx) (k : d.contr.Idx) (h0 : 0 < so.rank) :
    (d.rhsIdx j k br).val = (j ⟨0, h0⟩).val := by
  have hmem : br ∈ d.rhsBatch := by rw [hb]; exact List.mem_singleton.mpr rfl
  unfold DotDims.rhsIdx
  rw [dif_pos hmem]
  simp only [Fin.val_cast]
  exact idx_val_congr j _ _ _ _ (by simp [hb])

/-- After one batch axis, the left operand's one free axis reads the result's second coordinate. -/
theorem lhsIdx_val_non {bl nl : Fin sl.rank} (hb : d.lhsBatch = [bl]) (hn : d.lhsNonContracting = [nl]) (j : so.Idx)
    (k : d.contr.Idx) (h1 : 1 < so.rank) : (d.lhsIdx j k nl).val = (j ⟨1, h1⟩).val := by
  have hmem : nl ∈ d.lhsNonContracting := by rw [hn]; exact List.mem_singleton.mpr rfl
  unfold DotDims.lhsIdx
  rw [dif_neg (not_mem_lhsBatch_of_mem_non d hmem), dif_pos hmem]
  simp only [Fin.val_cast]
  exact idx_val_congr j _ _ _ _ (by simp [hb, hn])

/-- After one batch axis and the left operand's one free axis, the right operand's one free axis reads the result's
    third coordinate. -/
theorem rhsIdx_val_non {bl nl : Fin sl.rank} {nr : Fin sr.rank} (hlb : d.lhsBatch = [bl]) (hln : d.lhsNonContracting = [nl])
    (hrn : d.rhsNonContracting = [nr]) (j : so.Idx) (k : d.contr.Idx) (h2 : 2 < so.rank) :
    (d.rhsIdx j k nr).val = (j ⟨2, h2⟩).val := by
  have hmem : nr ∈ d.rhsNonContracting := by rw [hrn]; exact List.mem_singleton.mpr rfl
  unfold DotDims.rhsIdx
  rw [dif_neg (not_mem_rhsBatch_of_mem_non d hmem), dif_pos hmem]
  simp only [Fin.val_cast]
  exact idx_val_congr j _ _ _ _ (by simp [hlb, hln, hrn])

/-- With no batch axis and two free axes on the left, the first of them reads the result's first coordinate. -/
theorem lhsIdx_val_non2_fst {n0 n1 : Fin sl.rank} (hb : d.lhsBatch = []) (hn : d.lhsNonContracting = [n0, n1]) (j : so.Idx)
    (k : d.contr.Idx) (h0 : 0 < so.rank) : (d.lhsIdx j k n0).val = (j ⟨0, h0⟩).val := by
  have hmem : n0 ∈ d.lhsNonContracting := by rw [hn]; exact List.mem_cons_self
  unfold DotDims.lhsIdx
  rw [dif_neg (not_mem_lhsBatch_of_mem_non d hmem), dif_pos hmem]
  simp only [Fin.val_cast]
  exact idx_val_congr j _ _ _ _ (by simp [hb, hn])

/-- With no batch axis and two free axes on the left, the second of them reads the result's second coordinate. -/
theorem lhsIdx_val_non2_snd {n0 n1 : Fin sl.rank} (hb : d.lhsBatch = []) (hn : d.lhsNonContracting = [n0, n1]) (j : so.Idx)
    (k : d.contr.Idx) (h1 : 1 < so.rank) : (d.lhsIdx j k n1).val = (j ⟨1, h1⟩).val := by
  have hmem : n1 ∈ d.lhsNonContracting := by rw [hn]; simp
  have hlt : n0 < n1 := by have h := d.lhs_sorted; rw [hn] at h; simpa using h
  have hne : ¬ n0 = n1 := ne_of_lt hlt
  unfold DotDims.lhsIdx
  rw [dif_neg (not_mem_lhsBatch_of_mem_non d hmem), dif_pos hmem]
  simp only [Fin.val_cast]
  exact idx_val_congr j _ _ _ _ (by simp [hb, hn, List.idxOf_cons, hne])

/-- With no batch axis and two free axes on the left, the right operand's one free axis reads the result's third
    coordinate. -/
theorem rhsIdx_val_non2 {n0 n1 : Fin sl.rank} {nr : Fin sr.rank} (hlb : d.lhsBatch = []) (hln : d.lhsNonContracting = [n0, n1])
    (hrn : d.rhsNonContracting = [nr]) (j : so.Idx) (k : d.contr.Idx) (h2 : 2 < so.rank) :
    (d.rhsIdx j k nr).val = (j ⟨2, h2⟩).val := by
  have hmem : nr ∈ d.rhsNonContracting := by rw [hrn]; exact List.mem_singleton.mpr rfl
  unfold DotDims.rhsIdx
  rw [dif_neg (not_mem_rhsBatch_of_mem_non d hmem), dif_pos hmem]
  simp only [Fin.val_cast]
  exact idx_val_congr j _ _ _ _ (by simp [hlb, hln, hrn])

end Axes

/-- Batched rows by columns: within batch element `b`, an `M × K` by a `K × N` operand. -/
theorem dotGeneral_b21_apply {B M K N : Nat} {φ₁ φ₂ : FTy} (d : DotDims ⟨3, ![B, M, K]⟩ ⟨3, ![B, K, N]⟩ ⟨3, ![B, M, N]⟩)
    (hlc : d.lhsContracting = [2]) (hrc : d.rhsContracting = [1]) (hln : d.lhsNonContracting = [1])
    (hrn : d.rhsNonContracting = [2]) (hlb : d.lhsBatch = [0]) (hrb : d.rhsBatch = [0])
    (prec : Option ContractPrecision) (X : FVec Ideal ⟨3, ![B, M, K]⟩ φ₁) (Y : FVec Ideal ⟨3, ![B, K, N]⟩ φ₂)
    (b : Fin B) (m : Fin M) (n : Fin N) :
    Host.dotGeneral (F := Ideal) d prec X Y (ix3 b m n) = ∑ c : Fin K, X (ix3 b m c) * Y (ix3 b c n) := by
  have hr : d.contr.rank = 1 := by rw [d.rank_contr, hlc]; rfl
  have hs : d.contr.size ⟨0, by omega⟩ = K := by
    rw [d.size_contr 0 (by rw [hlc]; exact Nat.one_pos)]; simp [hlc]
  show FloatOps.dotGeneral _ prec _ X Y (ix3 b m n) = _
  rw [Ideal.dotGeneral_apply, ← Equiv.sum_comp (contrEquiv1 d K hr hs).symm]
  refine Finset.sum_congr rfl fun c _ => ?_
  have c2 := contrEquiv1_symm_val d K hr hs c
  have l0 := lhsIdx_val_batch d hlb (ix3 b m n) ((contrEquiv1 d K hr hs).symm c) (show (0 : Nat) < 3 by omega)
  have l1 := lhsIdx_val_non d hlb hln (ix3 b m n) ((contrEquiv1 d K hr hs).symm c) (show (1 : Nat) < 3 by omega)
  have l2 := (d.lhsIdx_val_of_single hlc (ix3 b m n) ((contrEquiv1 d K hr hs).symm c)).trans c2
  have r0 := rhsIdx_val_batch d hrb (ix3 b m n) ((contrEquiv1 d K hr hs).symm c) (show (0 : Nat) < 3 by omega)
  have r1 := (d.rhsIdx_val_of_single hrc (ix3 b m n) ((contrEquiv1 d K hr hs).symm c)).trans c2
  have r2 := rhsIdx_val_non d hlb hln hrn (ix3 b m n) ((contrEquiv1 d K hr hs).symm c) (show (2 : Nat) < 3 by omega)
  have l3 : d.lhsIdx (ix3 b m n) ((contrEquiv1 d K hr hs).symm c) = ix3 b m c := by
    funext ax; apply Fin.ext
    match ax with
    | ⟨0, _⟩ => exact l0
    | ⟨1, _⟩ => exact l1
    | ⟨2, _⟩ => exact l2
  have r3 : d.rhsIdx (ix3 b m n) ((contrEquiv1 d K hr hs).symm c) = ix3 b c n := by
    funext ax; apply Fin.ext
    match ax with
    | ⟨0, _⟩ => exact r0
    | ⟨1, _⟩ => exact r1
    | ⟨2, _⟩ => exact r2
  rw [l3, r3]

/-- Batched, both operands contracted on their middle axis: within batch element `b`, a `K × M` by a `K × N`
    operand, the left one read transposed. -/
theorem dotGeneral_b11_apply {B M K N : Nat} {φ₁ φ₂ : FTy} (d : DotDims ⟨3, ![B, K, M]⟩ ⟨3, ![B, K, N]⟩ ⟨3, ![B, M, N]⟩)
    (hlc : d.lhsContracting = [1]) (hrc : d.rhsContracting = [1]) (hln : d.lhsNonContracting = [2])
    (hrn : d.rhsNonContracting = [2]) (hlb : d.lhsBatch = [0]) (hrb : d.rhsBatch = [0])
    (prec : Option ContractPrecision) (X : FVec Ideal ⟨3, ![B, K, M]⟩ φ₁) (Y : FVec Ideal ⟨3, ![B, K, N]⟩ φ₂)
    (b : Fin B) (m : Fin M) (n : Fin N) :
    Host.dotGeneral (F := Ideal) d prec X Y (ix3 b m n) = ∑ c : Fin K, X (ix3 b c m) * Y (ix3 b c n) := by
  have hr : d.contr.rank = 1 := by rw [d.rank_contr, hlc]; rfl
  have hs : d.contr.size ⟨0, by omega⟩ = K := by
    rw [d.size_contr 0 (by rw [hlc]; exact Nat.one_pos)]; simp [hlc]
  show FloatOps.dotGeneral _ prec _ X Y (ix3 b m n) = _
  rw [Ideal.dotGeneral_apply, ← Equiv.sum_comp (contrEquiv1 d K hr hs).symm]
  refine Finset.sum_congr rfl fun c _ => ?_
  have c2 := contrEquiv1_symm_val d K hr hs c
  have l0 := lhsIdx_val_batch d hlb (ix3 b m n) ((contrEquiv1 d K hr hs).symm c) (show (0 : Nat) < 3 by omega)
  have l1 := (d.lhsIdx_val_of_single hlc (ix3 b m n) ((contrEquiv1 d K hr hs).symm c)).trans c2
  have l2 := lhsIdx_val_non d hlb hln (ix3 b m n) ((contrEquiv1 d K hr hs).symm c) (show (1 : Nat) < 3 by omega)
  have r0 := rhsIdx_val_batch d hrb (ix3 b m n) ((contrEquiv1 d K hr hs).symm c) (show (0 : Nat) < 3 by omega)
  have r1 := (d.rhsIdx_val_of_single hrc (ix3 b m n) ((contrEquiv1 d K hr hs).symm c)).trans c2
  have r2 := rhsIdx_val_non d hlb hln hrn (ix3 b m n) ((contrEquiv1 d K hr hs).symm c) (show (2 : Nat) < 3 by omega)
  have l3 : d.lhsIdx (ix3 b m n) ((contrEquiv1 d K hr hs).symm c) = ix3 b c m := by
    funext ax; apply Fin.ext
    match ax with
    | ⟨0, _⟩ => exact l0
    | ⟨1, _⟩ => exact l1
    | ⟨2, _⟩ => exact l2
  have r3 : d.rhsIdx (ix3 b m n) ((contrEquiv1 d K hr hs).symm c) = ix3 b c n := by
    funext ax; apply Fin.ext
    match ax with
    | ⟨0, _⟩ => exact r0
    | ⟨1, _⟩ => exact r1
    | ⟨2, _⟩ => exact r2
  rw [l3, r3]

/-- A stack of `M × K` matrices against one `N × K` matrix contracted on its last axis: the two leading axes of the
    left operand are both free. -/
theorem dotGeneral_n21_apply {B M K N : Nat} {φ₁ φ₂ : FTy} (d : DotDims ⟨3, ![B, M, K]⟩ ⟨2, ![N, K]⟩ ⟨3, ![B, M, N]⟩)
    (hlc : d.lhsContracting = [2]) (hrc : d.rhsContracting = [1]) (hln : d.lhsNonContracting = [0, 1])
    (hrn : d.rhsNonContracting = [0]) (hlb : d.lhsBatch = [])
    (prec : Option ContractPrecision) (X : FVec Ideal ⟨3, ![B, M, K]⟩ φ₁) (Y : FVec Ideal ⟨2, ![N, K]⟩ φ₂)
    (b : Fin B) (m : Fin M) (n : Fin N) :
    Host.dotGeneral (F := Ideal) d prec X Y (ix3 b m n) = ∑ c : Fin K, X (ix3 b m c) * Y (ix2 n c) := by
  have hr : d.contr.rank = 1 := by rw [d.rank_contr, hlc]; rfl
  have hs : d.contr.size ⟨0, by omega⟩ = K := by
    rw [d.size_contr 0 (by rw [hlc]; exact Nat.one_pos)]; simp [hlc]
  show FloatOps.dotGeneral _ prec _ X Y (ix3 b m n) = _
  rw [Ideal.dotGeneral_apply, ← Equiv.sum_comp (contrEquiv1 d K hr hs).symm]
  refine Finset.sum_congr rfl fun c _ => ?_
  have c2 := contrEquiv1_symm_val d K hr hs c
  have l0 := lhsIdx_val_non2_fst d hlb hln (ix3 b m n) ((contrEquiv1 d K hr hs).symm c) (show (0 : Nat) < 3 by omega)
  have l1 := lhsIdx_val_non2_snd d hlb hln (ix3 b m n) ((contrEquiv1 d K hr hs).symm c) (show (1 : Nat) < 3 by omega)
  have l2 := (d.lhsIdx_val_of_single hlc (ix3 b m n) ((contrEquiv1 d K hr hs).symm c)).trans c2
  have r0 := rhsIdx_val_non2 d hlb hln hrn (ix3 b m n) ((contrEquiv1 d K hr hs).symm c) (show (2 : Nat) < 3 by omega)
  have r1 := (d.rhsIdx_val_of_single hrc (ix3 b m n) ((contrEquiv1 d K hr hs).symm c)).trans c2
  have l3 : d.lhsIdx (ix3 b m n) ((contrEquiv1 d K hr hs).symm c) = ix3 b m c := by
    funext ax; apply Fin.ext
    match ax with
    | ⟨0, _⟩ => exact l0
    | ⟨1, _⟩ => exact l1
    | ⟨2, _⟩ => exact l2
  have r3 : d.rhsIdx (ix3 b m n) ((contrEquiv1 d K hr hs).symm c) = ix2 n c := by
    funext ax; apply Fin.ext
    match ax with
    | ⟨0, _⟩ => exact r0
    | ⟨1, _⟩ => exact r1
  rw [l3, r3]

end Cert.LibDotB

end
-- ==== Proof.RefRead.lean ====
/-
  The reference's composed term read at one index, at the ideal values: stage by stage, each host operation is read at
  an entry — a repetition reads its source entry, a host product is the sum over its contracted coordinate, a row sum
  is the sum over the feature coordinate, the elementwise operations act on the entries — until the result at
  (batch element, node, feature) is the specification's value there.

  The variance's guard compares the constant 128 − 1 with zero: it holds, so the guarded quotient is taken and its
  divisor is the real number 127.
-/
import proofs.«126845_j58308476010998_1_alg».proof.Proof.RefTerm
import proofs.«126845_j58308476010998_1_alg».proof.Proof.Spec
import proofs.«126845_j58308476010998_1_alg».proof.Proof.Consts
import proofs.«126845_j58308476010998_1_alg».proof.Proof.LibDot
import proofs.«126845_j58308476010998_1_alg».proof.Proof.LibDotB
import Idealize.ShloMosaic.Lib.ValueIdx
import Idealize.ShloMosaic.Lib.IdealHost
import Idealize.ShloMosaic.Lib.Pipeline.Value
import Idealize.ShloMosaic.Lib.ValueLayout
import Idealize.ShloMosaic.PureOps.Ideal.Laws

noncomputable section

open scoped BigOperators

namespace Cert.ReferenceIdeal.RefRead

open Cert.ReferenceIdeal Cert.ReferenceIdeal.Gen Idealize.ShloMosaic Idealize.ShloMosaic.ValueIdx

/-! ## Repetitions -/

/-- The mask at a batch element's entry: one where the matrix entry is the number one. -/
theorem mask_apply (A : FVec Ideal S1024x1024 .f32) (bb : Fin 32) (i j : Fin 1024) :
    RefTerm.mask (F := Ideal) A (ix3 bb i j) = Cert.Spec.isOne (A (ix2 i j)) := by
  unfold RefTerm.mask
  rw [broadcastInDim_apply _ _ _ (ix3 bb i j) (ix3 (0 : Fin 1) i j)
      (fun a => by match a with | ⟨0, _⟩ => rfl | ⟨1, _⟩ => rfl | ⟨2, _⟩ => rfl),
    broadcastInDim_apply _ _ _ (ix3 (0 : Fin 1) i j) (ix2 i j)
      (fun a => by match a with | ⟨0, _⟩ => rfl | ⟨1, _⟩ => rfl)]
  rfl

/-- A vector over the feature axis, repeated over batch and node, reads its feature coordinate. -/
theorem row_apply (v : FVec Ideal S128 .f32) (bb : Fin 32) (n : Fin 1024) (o : Fin 128) :
    RefTerm.row (F := Ideal) v (ix3 bb n o) = v (ix1 o) := by
  unfold RefTerm.row
  rw [broadcastInDim_apply _ _ _ (ix3 bb n o) (ix3 (0 : Fin 1) (0 : Fin 1) o)
      (fun a => by match a with | ⟨0, _⟩ => rfl | ⟨1, _⟩ => rfl | ⟨2, _⟩ => rfl),
    broadcastInDim_apply _ _ _ (ix3 (0 : Fin 1) (0 : Fin 1) o) (ix1 o)
      (fun a => by match a with | ⟨0, _⟩ => rfl)]

/-- A scalar repeated over batch and node reads the scalar. -/
theorem splat1_apply {α : Type} (v : S_.Idx → α) (i : S32x1024x1.Idx) : RefTerm.splat1 v i = v ix0 :=
  broadcastInDim_scalar_apply _ v i

/-- A per-row value repeated over the feature axis reads the row's value. -/
theorem spread_apply (v : FVec Ideal S32x1024x1 .f32) (bb : Fin 32) (n : Fin 1024) (o : Fin 128) :
    RefTerm.spread (F := Ideal) v (ix3 bb n o) = v (ix3 bb n (0 : Fin 1)) := by
  unfold RefTerm.spread
  rw [broadcastInDim_apply _ _ _ (ix3 bb n o) (ix3 bb n (0 : Fin 1))
      (fun a => by match a with | ⟨0, _⟩ => rfl | ⟨1, _⟩ => rfl | ⟨2, _⟩ => rfl)]

/-! ## Products -/

/-- A square matrix times itself, at an entry. -/
theorem sq2_apply (A : FVec Ideal S1024x1024 .f32) (i j : Fin 1024) :
    RefTerm.sq2 (F := Ideal) A (ix2 i j) = Cert.Spec.sq (fun i j => A (ix2 i j)) i j := by
  unfold RefTerm.sq2 Cert.Spec.sq
  rw [Cert.LibDotB.dotGeneral_eq_matmul_zero]
  exact Cert.LibDot.matmul_10_zero_apply _ rfl rfl rfl rfl rfl rfl none A A i j

/-- Each batch element's matrix times itself, at an entry. -/
theorem sq3_apply (P : FVec Ideal S32x1024x1024 .f32) (bb : Fin 32) (i j : Fin 1024) :
    RefTerm.sq3 (F := Ideal) P (ix3 bb i j) = Cert.Spec.sq (fun i j => P (ix3 bb i j)) i j := by
  unfold RefTerm.sq3 Cert.Spec.sq
  exact Cert.LibDotB.dotGeneral_b21_apply _ rfl rfl rfl rfl rfl rfl none P P bb i j

/-- One hop at a node and feature: the masked weights into the node, summed against the source nodes' features. -/
theorem hop_apply (P : FVec Ideal S32x1024x1024 .f32) (A : FVec Ideal S1024x1024 .f32) (x : FVec Ideal S32x1024x128 .f32)
    (bb : Fin 32) (i : Fin 1024) (d : Fin 128) :
    RefTerm.hop (F := Ideal) P A x (ix3 bb i d)
      = Cert.Spec.hop (fun i j => P (ix3 bb i j)) (fun i j => Cert.Spec.isOne (A (ix2 i j))) (fun j d => x (ix3 bb j d)) i d := by
  unfold RefTerm.hop Cert.Spec.hop
  rw [Cert.LibDotB.dotGeneral_b11_apply _ rfl rfl rfl rfl rfl rfl none _ x bb i d]
  refine Finset.sum_congr rfl fun c _ => ?_
  rw [mulf_apply, mask_apply]

/-- The three masks of the specification, one by one. -/
theorem masks_zero (A : Fin 1024 → Fin 1024 → EReal) : Cert.Spec.masks A 0 = fun i j => Cert.Spec.isOne (A i j) := rfl
theorem masks_one (A : Fin 1024 → Fin 1024 → EReal) :
    Cert.Spec.masks A 1 = fun i j => Cert.Spec.isOne (Cert.Spec.sq A i j) := rfl
theorem masks_two (A : Fin 1024 → Fin 1024 → EReal) :
    Cert.Spec.masks A 2 = fun i j => Cert.Spec.isOne (Cert.Spec.sq (Cert.Spec.sq A) i j) := rfl

/-- The three hops added, at a node and feature: the zero they are added onto drops. -/
theorem agg_apply (x : FVec Ideal S32x1024x128 .f32) (w : FVec Ideal S32x1024x1024 .f32) (adj : FVec Ideal S1024x1024 .f32)
    (bb : Fin 32) (i : Fin 1024) (d : Fin 128) :
    RefTerm.agg (F := Ideal) x w adj (ix3 bb i d)
      = Cert.Spec.agg (fun i j => w (ix3 bb i j)) (Cert.Spec.masks fun i j => adj (ix2 i j)) (fun j d => x (ix3 bb j d)) i d := by
  unfold RefTerm.agg Cert.Spec.agg
  rw [addf_apply, addf_apply, addf_apply, hop_apply, hop_apply, hop_apply, broadcastInDim_scalar_apply, constant_apply,
    Cert.Consts.zero_f32, zero_add, masks_zero, masks_one, masks_two]
  simp only [sq3_apply, sq2_apply]

/-- The linear layer, its bias and the residual, at a node and output feature. -/
theorem lin_apply (x : FVec Ideal S32x1024x128 .f32) (w : FVec Ideal S32x1024x1024 .f32) (adj : FVec Ideal S1024x1024 .f32)
    (W : FVec Ideal S128x128 .f32) (b : FVec Ideal S128 .f32) (bb : Fin 32) (n : Fin 1024) (o : Fin 128) :
    RefTerm.lin (F := Ideal) x w adj W b (ix3 bb n o)
      = Cert.Spec.lin (fun i j => w (ix3 bb i j)) (Cert.Spec.masks fun i j => adj (ix2 i j)) (fun j d => x (ix3 bb j d))
          (fun o d => W (ix2 o d)) (fun o => b (ix1 o)) n o := by
  unfold RefTerm.lin Cert.Spec.lin
  rw [addf_apply, addf_apply, row_apply, Cert.LibDotB.dotGeneral_n21_apply _ rfl rfl rfl rfl rfl none _ W bb n o]
  simp only [agg_apply]

/-! ## The row statistics -/

/-- The sum over the feature axis at a row: the zero it starts from drops. -/
theorem rsum_apply (h : FVec Ideal S32x1024x128 .f32) (bb : Fin 32) (n : Fin 1024) (z : Fin 1) :
    RefTerm.rsum (F := Ideal) h (ix3 bb n z) = ∑ o : Fin 128, h (ix3 bb n o) := by
  unfold RefTerm.rsum
  rw [broadcastInDim_apply _ _ _ (ix3 bb n z) (ix2 bb n)
      (fun a => by match a with | ⟨0, _⟩ => rfl | ⟨1, _⟩ => rfl)]
  rw [hostReduceAdd_apply, Ideal.hostReduceAdd_single reducesTo_S32x1024x128_S32x1024_d2 (by decide)]
  show Ideal.ofBits .f32 0x00000000#32 + _ = _
  rw [Cert.Consts.zero_f32, zero_add]
  refine Finset.sum_congr rfl fun o _ => congrArg h ?_
  funext a; apply Fin.ext
  match a with
  | ⟨0, _⟩ => rfl
  | ⟨1, _⟩ => rfl
  | ⟨2, _⟩ => rfl

section Row
variable (h : FVec Ideal S32x1024x128 .f32) (bb : Fin 32) (H : Fin 1024 → Fin 128 → EReal)
  (hH : ∀ n o, h (ix3 bb n o) = H n o)
include hH

/-- The mean of a row. -/
theorem mean_apply (n : Fin 1024) (z : Fin 1) : RefTerm.mean (F := Ideal) h (ix3 bb n z) = Cert.Spec.mean H n := by
  unfold RefTerm.mean Cert.Spec.mean
  rw [hostDivf_apply, rsum_apply, splat1_apply]
  simp only [hH]
  rfl

/-- An entry less its row's mean. -/
theorem dev_apply (n : Fin 1024) (o : Fin 128) :
    subf h (RefTerm.spread (RefTerm.mean (F := Ideal) h)) (ix3 bb n o) = Cert.Spec.dev H n o := by
  unfold Cert.Spec.dev
  rw [subf_apply, spread_apply, mean_apply h bb H hH, hH]

omit hH in
/-- The variance's divisor is the real number 127. -/
theorem dof_apply : RefTerm.dof (F := Ideal) ix0 = ((127 : ℝ) : EReal) := Cert.Consts.dof_eq

/-- The unbiased variance of a row: the guard holds, so the guarded quotient is taken. -/
theorem var_apply (n : Fin 1024) (z : Fin 1) : RefTerm.var (F := Ideal) h (ix3 bb n z) = Cert.Spec.var H n := by
  unfold RefTerm.var Cert.Spec.var
  rw [select_apply, splat1_apply, cmpf_apply, dof_apply, constant_apply, Cert.Consts.dof_pos, select_one, hostDivf_apply,
    rsum_apply, splat1_apply, dof_apply]
  simp only [mulf_apply, dev_apply h bb H hH]

end Row

/-! ## The result -/

/-- The host's square root at an index is the square root of the entry. -/
theorem hostSqrt_apply {s : Shape} {φ : FTy} (v : FVec Ideal s φ) (i : s.Idx) : Host.sqrt v i = Ideal.sqrt (v i) := rfl

/-- The reference's result at (batch element, node, feature) is the specification's value there. -/
theorem out_apply (x : FVec Ideal S32x1024x128 .f32) (w : FVec Ideal S32x1024x1024 .f32) (adj : FVec Ideal S1024x1024 .f32)
    (W : FVec Ideal S128x128 .f32) (b a2 b2 : FVec Ideal S128 .f32) (bb : Fin 32) (n : Fin 1024) (o : Fin 128) :
    RefTerm.out (F := Ideal) x w adj W b a2 b2 (ValueIdx.ix3 bb n o) = Cert.Spec.G x w adj W b a2 b2 bb n o := by
  have hL : ∀ n o, RefTerm.lin (F := Ideal) x w adj W b (ix3 bb n o)
      = Cert.Spec.lin (fun i j => w (ix3 bb i j)) (Cert.Spec.masks fun i j => adj (ix2 i j)) (fun j d => x (ix3 bb j d))
          (fun o d => W (ix2 o d)) (fun o => b (ix1 o)) n o := fun n o => lin_apply x w adj W b bb n o
  unfold RefTerm.out Cert.Spec.G Cert.Spec.Gblk Cert.Spec.norm
  rw [addf_apply, hostDivf_apply, mulf_apply, row_apply, row_apply, dev_apply _ bb _ hL, spread_apply, addf_apply,
    splat1_apply, hostSqrt_apply, var_apply _ bb _ hL]
  rfl

end Cert.ReferenceIdeal.RefRead

end
-- ==== Proof.lean ====
/-
  Two programs for three rounds of weighted message passing on a graph, a linear layer with a residual
  connection, and a row normalisation: a fused kernel that keeps the squared weight matrix on chip, and a plain
  array program. Both are read at the extended reals, where they compute the same function of their arguments
  (`Cert.Spec.G`): every product, sum, quotient and square root appears in the same order on both sides, the
  kernel's literal divisor 127 against the reference's computed 128 − 1 being the one constant to evaluate.

  The kernel's run is taken point by point: at grid point `t` the body copies batch element `t`'s weight matrix
  into a work buffer, and three times adds to an accumulator the features summed along the transposed masked
  matrix, squaring the matrix in between; the block it writes back is the specification restricted to batch `t`
  (`KPay.body_apply`), and the 32 blocks tile the result (`KValue.final`). The masks the kernel is handed are the
  host's comparisons of the adjacency's powers with one (`KHost`). The reference's operations are composed into
  one term (`RefRun.run`) which, read at an index, is the same specification (`RefRead.out_apply`).
  Each program's frame is its run with the result dropped; the word-level kernel's frame is the same text read at
  the word-level values.
-/
import proofs.«126845_j58308476010998_1_alg».proof.Defs
import proofs.«126845_j58308476010998_1_alg».proof.Proof.Gen.Kernel
import proofs.«126845_j58308476010998_1_alg».proof.Proof.Gen.KernelIdeal
import proofs.«126845_j58308476010998_1_alg».proof.Proof.Gen.ReferenceIdeal
import proofs.«126845_j58308476010998_1_alg».proof.Proof.Gen.Pre_finite_inputs
import proofs.«126845_j58308476010998_1_alg».proof.Proof.K.Frame
import proofs.«126845_j58308476010998_1_alg».proof.Proof.KI.Frame
import proofs.«126845_j58308476010998_1_alg».proof.Proof.KValue
import proofs.«126845_j58308476010998_1_alg».proof.Proof.RefRun
import proofs.«126845_j58308476010998_1_alg».proof.Proof.RefRead

noncomputable section

namespace Cert.Proof

open Idealize.ShloMosaic Idealize.ShloMosaic.TcCoe Idealize.SL.Sem

/-- The word-level kernel runs to the end and leaves its arguments as they were. -/
theorem frame_k : Cert.frame_Kernel := fun m ρ _ => Cert.Kernel.Hand.frame (F := Bits) m ρ

/-- So does the kernel read at the extended reals. -/
theorem frame_ki : Cert.frame_KernelIdeal := fun m ρ _ => Cert.KernelIdeal.Hand.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- From memories that agree on the arguments both programs end with the specification's array. -/
theorem algebraic : Cert.algebraic_KernelIdeal_ReferenceIdeal := by
  intro m ρ m' ρ' _ hagree
  refine ⟨fun c => Cert.KernelIdeal.KValue.Gout m c, Cert.KernelIdeal.KValue.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2.1, (hagree c).2.2.2.2.1,
    (hagree c).2.2.2.2.2.1, (hagree c).2.2.2.2.2.2]
  funext i
  obtain ⟨bb, n, o, rfl⟩ : ∃ (bb : Fin 32) (n : Fin 1024) (o : Fin 128), i = ValueIdx.ix3 bb n o :=
    ⟨i 0, i 1, i 2, ValueIdx.eq_ix3 i⟩
  exact Cert.ReferenceIdeal.RefRead.out_apply _ _ _ _ _ _ _ bb n o

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
